-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S64 : Shape := ⟨1, ![64]⟩
abbrev S5000000 : Shape := ⟨1, ![5000000]⟩
abbrev S512 : Shape := ⟨1, ![512]⟩
abbrev S1x512 : Shape := ⟨2, ![1, 512]⟩
abbrev S1 : Shape := ⟨1, ![1]⟩
abbrev S100000 : Shape := ⟨1, ![100000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S64 : S_.BroadcastsInDim S64 (![] : Fin 0 → Fin S64.rank)
  reducesTo_S64_S_d0 : S64.ReducesTo [0] S_
  bcast_S_S5000000 : S_.BroadcastsInDim S5000000 (![] : Fin 0 → Fin S5000000.rank)
  reducesTo_S5000000_S_d0 : S5000000.ReducesTo [0] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg7 : IVec S100000 32) (main_arg10 : IVec S512 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg7 main_v34
  let main_c_13 : IVec S_ 1 := constantI S_ 1 1#1
  let main_v36 : IVec S_ 1 := (fun x v => Host.reduce IntOp.andi x v reducesTo_S100000_S_d0 h_S_) main_v35 main_c_13
  let main_v37 : IVec S_ 1 := andi main_v33 main_v36
  let main_c_14 : IVec S_ 32 := constantI S_ 32 64#32
  let main_v38 : IVec S100000 32 := broadcastInDim S100000 ![] bcast_S_S100000 main_c_14
  let main_v39 : IVec S100000 1 := cmpi .slt main_arg7 main_v38
  let main_c_15 : IVec S_ 1 := constantI S_ 1 1#1
  let main_v40 : IVec S_ 1 := (fun x v => Host.reduce IntOp.andi x v reducesTo_S100000_S_d0 h_S_) main_v39 main_c_15
  let main_v41 : IVec S_ 1 := andi main_v37 main_v40
  let main_c_16 : IVec S_ 32 := constantI S_ 32 0#32
  let main_v42 : IVec S512 32 := broadcastInDim S512 ![] bcast_S_S512 main_c_16
  let main_v43 : IVec S512 1 := cmpi .sge main_arg10 main_v42
  let main_c_17 : IVec S_ 1 := constantI S_ 1 1#1
  let main_v44 : IVec S_ 1 := (fun x v => Host.reduce IntOp.andi x v reducesTo_S512_S_d0 h_S_) main_v43 main_c_17
  let main_v45 : IVec S_ 1 := andi main_v41 main_v44
  let main_c_18 : IVec S_ 32 := constantI S_ 32 100000#32
  let main_v46 : IVec S512 32 := broadcastInDim S512 ![] bcast_S_S512 main_c_18
  let main_v47 : IVec S512 1 := cmpi .slt main_arg10 main_v46
  let main_c_19 : IVec S_ 1 := constantI S_ 1 1#1
  let main_v48 : IVec S_ 1 := (fun x v => Host.reduce IntOp.andi x v reducesTo_S512_S_d0 h_S_) main_v47 main_c_19
  let main_v49 : IVec S_ 1 := andi main_v45 main_v48
  main_v49

def fn_part1 {F : FTy → Type} [FloatOps F] (main_arg4 : FVec F S512 .f32) (main_arg5 : FVec F S1x512 .f32) (main_arg6 : FVec F S1 .f32) (main_arg7 : IVec S100000 32) (main_arg10 : IVec S512 32) (main_v13 : IVec S_ 1) (main_v16 : IVec S5000000 1) : IVec S_ 1 :=
  let main_c_5 : IVec S_ 1 := constantI S_ 1 1#1
  let main_v17 : IVec S_ 1 := (fun x v => Host.reduce IntOp.andi x v reducesTo_S5000000_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg10 main_v33

def fn {F : FTy → Type} [FloatOps F] (main_arg0 : FVec F S100000x16 .f32) (main_arg1 : FVec F S64 .f32) (main_arg2 : FVec F S64 .f32) (main_arg3 : FVec F S5000000 .f32) (main_arg4 : FVec F S512 .f32) (main_arg5 : FVec F S1x512 .f32) (main_arg6 : FVec F S1 .f32) (main_arg7 : IVec S100000 32) (main_arg8 : IVec S5000000 32) (main_arg9 : IVec S5000000 32) (main_arg10 : IVec S512 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S5000000 .f32 := Host.absf main_arg3
  let main_cst_4 : FVec F S_ .f32 := constant S_ .f32 0x7F800000#32
  let main_v15 : FVec F S5000000 .f32 := broadcastInDim S5000000 ![] bcast_S_S5000000 main_cst_4
  let main_v16 : IVec S5000000 1 := cmpf .olt main_v14 main_v15
  fn_part1 (F := F) main_arg4 main_arg5 main_arg6 main_arg7 main_arg10 main_v13 main_v16
-- ==== Kernel.lean ====
abbrev S100000x16 : Shape := ⟨2, ![100000, 16]⟩
abbrev S64 : Shape := ⟨1, ![64]⟩
abbrev S5000000 : Shape := ⟨1, ![5000000]⟩
abbrev S512 : Shape := ⟨1, ![512]⟩
abbrev S1x512 : Shape := ⟨2, ![1, 512]⟩
abbrev S1 : Shape := ⟨1, ![1]⟩
abbrev S100000 : Shape := ⟨1, ![100000]⟩
abbrev S100000x1 : Shape := ⟨2, ![100000, 1]⟩
abbrev S64x1 : Shape := ⟨2, ![64, 1]⟩
abbrev S2000x16 : Shape := ⟨2, ![2000, 16]⟩
abbrev S2000x1 : Shape := ⟨2, ![2000, 1]⟩
abbrev S2000x64 : Shape := ⟨2, ![2000, 64]⟩
abbrev S5000000x1 : Shape := ⟨2, ![5000000, 1]⟩
abbrev S_ : Shape := ⟨0, ![]⟩
abbrev S5000000x16 : Shape := ⟨2, ![5000000, 16]⟩
abbrev S100352x16 : Shape := ⟨2, ![100352, 16]⟩
abbrev S512x1 : Shape := ⟨2, ![512, 1]⟩
abbrev S1x1 : Shape := ⟨2, ![1, 1]⟩
abbrev S16x1 : Shape := ⟨2, ![16, 1]⟩
abbrev S2048x16 : Shape := ⟨2, ![2048, 16]⟩
abbrev S512x16 : Shape := ⟨2, ![512, 16]⟩
abbrev S512x2048 : Shape := ⟨2, ![512, 2048]⟩
abbrev S1x16 : Shape := ⟨2, ![1, 16]⟩

abbrev nBuf : Space → Nat
  | .hbm => 86
  | .vmem => 16
  | .smem => 0
  | _ => 0

abbrev bufTy : (tb : Table) → Fin (tcTables nBuf tb) → BufTy
  | .hbm, ⟨0, _⟩ => ⟨S100000x16, .f32⟩
  | .hbm, ⟨1, _⟩ => ⟨S64, .f32⟩
  | .hbm, ⟨2, _⟩ => ⟨S64, .f32⟩
  | .hbm, ⟨3, _⟩ => ⟨S5000000, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S100000, .i32⟩
  | .hbm, ⟨8, _⟩ => ⟨S5000000, .i32⟩
  | .hbm, ⟨9, _⟩ => ⟨S5000000, .i32⟩
  | .hbm, ⟨10, _⟩ => ⟨S512, .i32⟩
  | .hbm, ⟨11, _⟩ => ⟨S100000x1, .i32⟩
  | .hbm, ⟨12, _⟩ => ⟨S64x1, .f32⟩
  | .hbm, ⟨13, _⟩ => ⟨S64x1, .f32⟩
  | .hbm, ⟨14, _⟩ => ⟨S100000x16, .f32⟩
  | .hbm, ⟨15, _⟩ => ⟨S5000000x1, .f32⟩
  | .hbm, ⟨16, _⟩ => ⟨S_, .i32⟩
  | .hbm, ⟨17, _⟩ => ⟨S5000000, .i32⟩
  | .hbm, ⟨18, _⟩ => ⟨S5000000, .i1⟩
  | .hbm, ⟨19, _⟩ => ⟨S_, .i32⟩
  | .hbm, ⟨20, _⟩ => ⟨S5000000, .i32⟩
  | .hbm, ⟨21, _⟩ => ⟨S5000000, .i32⟩
  | .hbm, ⟨22, _⟩ => ⟨S5000000, .i32⟩
  | .hbm, ⟨23, _⟩ => ⟨S5000000x1, .i32⟩
  | .hbm, ⟨24, _⟩ => ⟨S5000000x16, .f32⟩
  | .hbm, ⟨25, _⟩ => ⟨S5000000x16, .f32⟩
  | .hbm, ⟨26, _⟩ => ⟨S5000000x16, .f32⟩
  | .hbm, ⟨27, _⟩ => ⟨S_, .f32⟩
  | .hbm, ⟨28, _⟩ => ⟨S100000x16, .f32⟩
  | .hbm, ⟨29, _⟩ => ⟨S5000000x1, .i32⟩
  | .hbm, ⟨30, _⟩ => ⟨S100000x16, .f32⟩
  | .hbm, ⟨31, _⟩ => ⟨S5000000x1, .f32⟩
  | .hbm, ⟨32, _⟩ => ⟨S_, .i32⟩
  | .hbm, ⟨33, _⟩ => ⟨S5000000, .i32⟩
  | .hbm, ⟨34, _⟩ => ⟨S5000000, .i1⟩
  | .hbm, ⟨35, _⟩ => ⟨S_, .i32⟩
  | .hbm, ⟨36, _⟩ => ⟨S5000000, .i32⟩
  | .hbm, ⟨37, _⟩ => ⟨S5000000, .i32⟩
  | .hbm, ⟨38, _⟩ => ⟨S5000000, .i32⟩
  | .hbm, ⟨39, _⟩ => ⟨S5000000x1, .i32⟩
  | .hbm, ⟨40, _⟩ => ⟨S5000000x16, .f32⟩
  | .hbm, ⟨41, _⟩ => ⟨S5000000x16, .f32⟩
  | .hbm, ⟨42, _⟩ => ⟨S5000000x16, .f32⟩
  | .hbm, ⟨43, _⟩ => ⟨S_, .f32⟩
  | .hbm, ⟨44, _⟩ => ⟨S100000x16, .f32⟩
  | .hbm, ⟨45, _⟩ => ⟨S5000000x1, .i32⟩
  | .hbm, ⟨46, _⟩ => ⟨S100000x16, .f32⟩
  | .hbm, ⟨47, _⟩ => ⟨S5000000x1, .f32⟩
  | .hbm, ⟨48, _⟩ => ⟨S_, .i32⟩
  | .hbm, ⟨49, _⟩ => ⟨S5000000, .i32⟩
  | .hbm, ⟨50, _⟩ => ⟨S5000000, .i1⟩
  | .hbm, ⟨51, _⟩ => ⟨S_, .i32⟩
  | .hbm, ⟨52, _⟩ => ⟨S5000000, .i32⟩
  | .hbm, ⟨53, _⟩ => ⟨S5000000, .i32⟩
  | .hbm, ⟨54, _⟩ => ⟨S5000000, .i32⟩
  | .hbm, ⟨55, _⟩ => ⟨S5000000x1, .i32⟩
  | .hbm, ⟨56, _⟩ => ⟨S5000000x16, .f32⟩
  | .hbm, ⟨57, _⟩ => ⟨S5000000x16, .f32⟩
  | .hbm, ⟨58, _⟩ => ⟨S5000000x16, .f32⟩
  | .hbm, ⟨59, _⟩ => ⟨S_, .f32⟩
  | .hbm, ⟨60, _⟩ => ⟨S100000x16, .f32⟩
  | .hbm, ⟨61, _⟩ => ⟨S5000000x1, .i32⟩
  | .hbm, ⟨62, _⟩ => ⟨S100000x16, .f32⟩
  | .hbm, ⟨63, _⟩ => ⟨S5000000x1, .f32⟩
  | .hbm, ⟨64, _⟩ => ⟨S_, .i32⟩
  | .hbm, ⟨65, _⟩ => ⟨S5000000, .i32⟩
  | .hbm, ⟨66, _⟩ => ⟨S5000000, .i1⟩
  | .hbm, ⟨67, _⟩ => ⟨S_, .i32⟩
  | .hbm, ⟨68, _⟩ => ⟨S5000000, .i32⟩
  | .hbm, ⟨69, _⟩ => ⟨S5000000, .i32⟩
  | .hbm, ⟨70, _⟩ => ⟨S5000000, .i32⟩
  | .hbm, ⟨71, _⟩ => ⟨S5000000x1, .i32⟩
  | .hbm, ⟨72, _⟩ => ⟨S5000000x16, .f32⟩
  | .hbm, ⟨73, _⟩ => ⟨S5000000x16, .f32⟩
  | .hbm, ⟨74, _⟩ => ⟨S5000000x16, .f32⟩
  | .hbm, ⟨75, _⟩ => ⟨S_, .f32⟩
  | .hbm, ⟨76, _⟩ => ⟨S100000x16, .f32⟩
  | .hbm, ⟨77, _⟩ => ⟨S5000000x1, .i32⟩
  | .hbm, ⟨78, _⟩ => ⟨S100000x16, .f32⟩
  | .hbm, ⟨79, _⟩ => ⟨S_, .i32⟩
  | .hbm, ⟨80, _⟩ => ⟨S_, .f32⟩
  | .hbm, ⟨81, _⟩ => ⟨S100352x16, .f32⟩
  | .hbm, ⟨82, _⟩ => ⟨S512x1, .i32⟩
  | .hbm, ⟨83, _⟩ => ⟨S512x1, .f32⟩
  | .hbm, ⟨84, _⟩ => ⟨S1x1, .f32⟩
  | .hbm, ⟨85, _⟩ => ⟨S16x1, .f32⟩
  | .local _ .vmem, ⟨0, _⟩ => ⟨S2000x16, .f32⟩
  | .local _ .vmem, ⟨1, _⟩ => ⟨S2000x16, .f32⟩
  | .local _ .vmem, ⟨2, _⟩ => ⟨S2000x1, .i32⟩
  | .local _ .vmem, ⟨3, _⟩ => ⟨S2000x1, .i32⟩
  | .local _ .vmem, ⟨4, _⟩ => ⟨S64x1, .f32⟩
  | .local _ .vmem, ⟨5, _⟩ => ⟨S64x1, .f32⟩
  | .local _ .vmem, ⟨6, _⟩ => ⟨S2000x16, .f32⟩
  | .local _ .vmem, ⟨7, _⟩ => ⟨S2000x16, .f32⟩
  | .local _ .vmem, ⟨8, _⟩ => ⟨S2048x16, .f32⟩
  | .local _ .vmem, ⟨9, _⟩ => ⟨S2048x16, .f32⟩
  | .local _ .vmem, ⟨10, _⟩ => ⟨S512x1, .i32⟩
  | .local _ .vmem, ⟨11, _⟩ => ⟨S512x1, .f32⟩
  | .local _ .vmem, ⟨12, _⟩ => ⟨S1x512, .f32⟩
  | .local _ .vmem, ⟨13, _⟩ => ⟨S1x1, .f32⟩
  | .local _ .vmem, ⟨14, _⟩ => ⟨S16x1, .f32⟩
  | .local _ .vmem, ⟨15, _⟩ => ⟨S512x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![49], ![false]⟩

def k1_cond2 (i : grid1.Coords) : BitVec 1 :=
  let arg0 : BitVec 32 := BitVec.ofNat 32 (i 0).val
  let c48_i32 : BitVec 32 := 48#32
  let v23 : BitVec 1 := Scalar.cmpi .eq arg0 c48_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S100000_S100000x1 : S100000.ShapeCasts S100000x1
  shapeCasts_S64_S64x1 : S64.ShapeCasts S64x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2000x16_S2000x16_0_0 : ∀ a, (![0, 0] : Fin 2 → Nat) a + S2000x16.size a ≤ S2000x16.size a
  h_S2000x16 : 0 < S2000x16.numel
  broadcasts_S2000x1_S2000x16 : S2000x1.Broadcasts S2000x16
  bcast_S5000000_S5000000x1_0 : S5000000.BroadcastsInDim S5000000x1 (![0] : Fin 1 → Fin S5000000x1.rank)
  bcast_S_S5000000 : S_.BroadcastsInDim S5000000 (![] : Fin 0 → Fin S5000000.rank)
  bcast_S5000000x1_S5000000x16_0_1 : S5000000x1.BroadcastsInDim S5000000x16 (![0, 1] : Fin 2 → Fin S5000000x16.rank)
  bcast_S_S100000x16 : S_.BroadcastsInDim S100000x16 (![] : Fin 0 → Fin S100000x16.rank)
  pads_S100000x16_S100352x16_03520_000 : S100000x16.Pads (![0, 0] : Fin 2 → Nat) ![352, 0] ![0, 0] S100352x16
  h_S_ : 0 < S_.numel
  shapeCasts_S512_S512x1 : S512.ShapeCasts S512x1
  shapeCasts_S1_S1x1 : S1.ShapeCasts S1x1
  inb_S512x16_S512x16_0_0 : ∀ a, (![0, 0] : Fin 2 → Nat) a + S512x16.size a ≤ S512x16.size a
  h_S512x16 : 0 < S512x16.numel
  shapeCasts_S512x16_S512x16 : S512x16.ShapeCasts S512x16
  iota_S512x2048_d1_w32 : S512x2048.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  broadcasts_S512x1_S512x16 : S512x1.Broadcasts S512x16
  inb_S1x512_S1x512_0_0 : ∀ a, (![0, 0] : Fin 2 → Nat) a + S1x512.size a ≤ S1x512.size a
  h_S1x512 : 0 < S1x512.numel
  transposes_S1x16_p1_0_S16x1 : S1x16.Transposes [1, 0] S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16x1 : S1x1.Broadcasts S16x1
  inb_S16x1_S16x1_0_0 : ∀ a, (![0, 0] : Fin 2 → Nat) a + S16x1.size a ≤ S16x1.size a
  h_S16x1 : 0 < S16x1.numel
  dot_S2000x64_S64x1_S2000x1_1_0_0_1_n_n_wf : DotDims.WF S2000x64 S64x1 S2000x1 [1] [0] [0] [1] [] []
  gather_S100000x16_S5000000x1_S5000000x16_1_0_n_n_0_1_116_wf : GatherDims.WF S100000x16 S5000000x1 S5000000x16 [1] [0] [] [0] [] 1 ![1, 16]
  scatter_S100000x16_S5000000x1_S5000000x16_1_0_0_1_wf : ScatterDims.WF S100000x16 S5000000x1 S5000000x16 [1] [0] [0] 1
  dot_S512x2048_S2048x16_S512x16_1_0_0_1_n_n_wf : DotDims.WF S512x2048 S2048x16 S512x16 [1] [0] [0] [1] [] []
  dot_S1x512_S512x16_S1x16_1_0_0_1_n_n_wf : DotDims.WF S1x512 S512x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x16.size a ≤ S100000x16.size a
  hwx0_4 : ∀ i : grid0.Coords, EltTy.bits .f32 = 32 ∨ (Rect.block (s := S100000x16) S2000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x16.size a ≤ S100352x16.size a
  hwx1_0 : ∀ i : grid1.Coords, EltTy.bits .f32 = 32 ∨ (Rect.block (s := S100352x16) S2048x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .i32 = 32 ∨ (Rect.block (s := S512x1) S512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S16x1.size a
  hwx1_5 : ∀ i : grid1.Coords, EltTy.bits .f32 = 32 ∨ (Rect.block (s := S16x1) S16x1.size (cc1_transform_5 i) (hinb1_5 i)).WholeWords (EltTy.packing .f32)

variable [Facts₀]

def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S100000x16_S5000000x1_S5000000x16_1_0_n_n_0_1_116 : GatherDims S100000x16 S5000000x1 S5000000x16 where
  offsetDims := [1]
  collapsedSliceDims := [0]
  operandBatchingDims := []
  startIndicesBatchingDims := []
  startIndexMap := [0]
  indexVectorDim := 1
  sliceSizes := ![1, 16]
  wf := gather_S100000x16_S5000000x1_S5000000x16_1_0_n_n_0_1_116_wf
def scatter_S100000x16_S5000000x1_S5000000x16_1_0_0_1 : ScatterDims S100000x16 S5000000x1 S5000000x16 where
  updateWindowDims := [1]
  insertedWindowDims := [0]
  scatterDimsToOperandDims := [0]
  indexVectorDim := 1
  wf := scatter_S100000x16_S5000000x1_S5000000x16_1_0_0_1_wf
def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S1x512_S512x16_S1x16_1_0_0_1_n_n : DotDims S1x512 S512x16 S1x16 where
  lhsContracting := [1]
  rhsContracting := [0]
  lhsNonContracting := [0]
  rhsNonContracting := [1]
  lhsBatch := []
  rhsBatch := []
  wf := dot_S1x512_S512x16_S1x16_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v56) S2048x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S16x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x16 : Shape := ⟨2, ![100000, 16]⟩
abbrev S64 : Shape := ⟨1, ![64]⟩
abbrev S5000000 : Shape := ⟨1, ![5000000]⟩
abbrev S512 : Shape := ⟨1, ![512]⟩
abbrev S1x512 : Shape := ⟨2, ![1, 512]⟩
abbrev S1 : Shape := ⟨1, ![1]⟩
abbrev S100000 : Shape := ⟨1, ![100000]⟩
abbrev S_ : Shape := ⟨0, ![]⟩
abbrev S100000x1 : Shape := ⟨2, ![100000, 1]⟩
abbrev S5000000x1 : Shape := ⟨2, ![5000000, 1]⟩
abbrev S5000000x16 : Shape := ⟨2, ![5000000, 16]⟩
abbrev S512x1 : Shape := ⟨2, ![512, 1]⟩
abbrev S512x16 : Shape := ⟨2, ![512, 16]⟩
abbrev S16x512 : Shape := ⟨2, ![16, 512]⟩
abbrev S16x1 : Shape := ⟨2, ![16, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S64, .f32⟩
  | .hbm, ⟨2, _⟩ => ⟨S64, .f32⟩
  | .hbm, ⟨3, _⟩ => ⟨S5000000, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S100000, .i32⟩
  | .hbm, ⟨8, _⟩ => ⟨S5000000, .i32⟩
  | .hbm, ⟨9, _⟩ => ⟨S5000000, .i32⟩
  | .hbm, ⟨10, _⟩ => ⟨S512, .i32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S100000, .f32⟩
  | .hbm, ⟨20, _⟩ => ⟨S100000x1, .f32⟩
  | .hbm, ⟨21, _⟩ => ⟨S100000x16, .f32⟩
  | .hbm, ⟨22, _⟩ => ⟨S100000x16, .f32⟩
  | .hbm, ⟨23, _⟩ => ⟨S_, .i32⟩
  | .hbm, ⟨24, _⟩ => ⟨S100000, .i32⟩
  | .hbm, ⟨25, _⟩ => ⟨S100000, .i1⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000, .i32⟩
  | .hbm, ⟨30, _⟩ => ⟨S100000x1, .i32⟩
  | .hbm, ⟨31, _⟩ => ⟨S100000, .f32⟩
  | .hbm, ⟨32, _⟩ => ⟨S100000x1, .f32⟩
  | .hbm, ⟨33, _⟩ => ⟨S100000x16, .f32⟩
  | .hbm, ⟨34, _⟩ => ⟨S100000x16, .f32⟩
  | .hbm, ⟨35, _⟩ => ⟨S5000000x1, .f32⟩
  | .hbm, ⟨36, _⟩ => ⟨S_, .i32⟩
  | .hbm, ⟨37, _⟩ => ⟨S5000000, .i32⟩
  | .hbm, ⟨38, _⟩ => ⟨S5000000, .i1⟩
  | .hbm, ⟨39, _⟩ => ⟨S_, .i32⟩
  | .hbm, ⟨40, _⟩ => ⟨S5000000, .i32⟩
  | .hbm, ⟨41, _⟩ => ⟨S5000000, .i32⟩
  | .hbm, ⟨42, _⟩ => ⟨S5000000, .i32⟩
  | .hbm, ⟨43, _⟩ => ⟨S5000000x1, .i32⟩
  | .hbm, ⟨44, _⟩ => ⟨S5000000x16, .f32⟩
  | .hbm, ⟨45, _⟩ => ⟨S5000000x16, .f32⟩
  | .hbm, ⟨46, _⟩ => ⟨S5000000x16, .f32⟩
  | .hbm, ⟨47, _⟩ => ⟨S_, .f32⟩
  | .hbm, ⟨48, _⟩ => ⟨S100000x16, .f32⟩
  | .hbm, ⟨49, _⟩ => ⟨S5000000x1, .i32⟩
  | .hbm, ⟨50, _⟩ => ⟨S100000x16, .f32⟩
  | .hbm, ⟨51, _⟩ => ⟨S5000000x1, .f32⟩
  | .hbm, ⟨52, _⟩ => ⟨S_, .i32⟩
  | .hbm, ⟨53, _⟩ => ⟨S5000000, .i32⟩
  | .hbm, ⟨54, _⟩ => ⟨S5000000, .i1⟩
  | .hbm, ⟨55, _⟩ => ⟨S_, .i32⟩
  | .hbm, ⟨56, _⟩ => ⟨S5000000, .i32⟩
  | .hbm, ⟨57, _⟩ => ⟨S5000000, .i32⟩
  | .hbm, ⟨58, _⟩ => ⟨S5000000, .i32⟩
  | .hbm, ⟨59, _⟩ => ⟨S5000000x1, .i32⟩
  | .hbm, ⟨60, _⟩ => ⟨S5000000x16, .f32⟩
  | .hbm, ⟨61, _⟩ => ⟨S5000000x16, .f32⟩
  | .hbm, ⟨62, _⟩ => ⟨S5000000x16, .f32⟩
  | .hbm, ⟨63, _⟩ => ⟨S_, .f32⟩
  | .hbm, ⟨64, _⟩ => ⟨S100000x16, .f32⟩
  | .hbm, ⟨65, _⟩ => ⟨S5000000x1, .i32⟩
  | .hbm, ⟨66, _⟩ => ⟨S100000x16, .f32⟩
  | .hbm, ⟨67, _⟩ => ⟨S5000000x1, .f32⟩
  | .hbm, ⟨68, _⟩ => ⟨S_, .i32⟩
  | .hbm, ⟨69, _⟩ => ⟨S5000000, .i32⟩
  | .hbm, ⟨70, _⟩ => ⟨S5000000, .i1⟩
  | .hbm, ⟨71, _⟩ => ⟨S_, .i32⟩
  | .hbm, ⟨72, _⟩ => ⟨S5000000, .i32⟩
  | .hbm, ⟨73, _⟩ => ⟨S5000000, .i32⟩
  | .hbm, ⟨74, _⟩ => ⟨S5000000, .i32⟩
  | .hbm, ⟨75, _⟩ => ⟨S5000000x1, .i32⟩
  | .hbm, ⟨76, _⟩ => ⟨S5000000x16, .f32⟩
  | .hbm, ⟨77, _⟩ => ⟨S5000000x16, .f32⟩
  | .hbm, ⟨78, _⟩ => ⟨S5000000x16, .f32⟩
  | .hbm, ⟨79, _⟩ => ⟨S_, .f32⟩
  | .hbm, ⟨80, _⟩ => ⟨S100000x16, .f32⟩
  | .hbm, ⟨81, _⟩ => ⟨S5000000x1, .i32⟩
  | .hbm, ⟨82, _⟩ => ⟨S100000x16, .f32⟩
  | .hbm, ⟨83, _⟩ => ⟨S5000000x1, .f32⟩
  | .hbm, ⟨84, _⟩ => ⟨S_, .i32⟩
  | .hbm, ⟨85, _⟩ => ⟨S5000000, .i32⟩
  | .hbm, ⟨86, _⟩ => ⟨S5000000, .i1⟩
  | .hbm, ⟨87, _⟩ => ⟨S_, .i32⟩
  | .hbm, ⟨88, _⟩ => ⟨S5000000, .i32⟩
  | .hbm, ⟨89, _⟩ => ⟨S5000000, .i32⟩
  | .hbm, ⟨90, _⟩ => ⟨S5000000, .i32⟩
  | .hbm, ⟨91, _⟩ => ⟨S5000000x1, .i32⟩
  | .hbm, ⟨92, _⟩ => ⟨S5000000x16, .f32⟩
  | .hbm, ⟨93, _⟩ => ⟨S5000000x16, .f32⟩
  | .hbm, ⟨94, _⟩ => ⟨S5000000x16, .f32⟩
  | .hbm, ⟨95, _⟩ => ⟨S_, .f32⟩
  | .hbm, ⟨96, _⟩ => ⟨S100000x16, .f32⟩
  | .hbm, ⟨97, _⟩ => ⟨S5000000x1, .i32⟩
  | .hbm, ⟨98, _⟩ => ⟨S100000x16, .f32⟩
  | .hbm, ⟨99, _⟩ => ⟨S512x1, .f32⟩
  | .hbm, ⟨100, _⟩ => ⟨S_, .i32⟩
  | .hbm, ⟨101, _⟩ => ⟨S512, .i32⟩
  | .hbm, ⟨102, _⟩ => ⟨S512, .i1⟩
  | .hbm, ⟨103, _⟩ => ⟨S_, .i32⟩
  | .hbm, ⟨104, _⟩ => ⟨S512, .i32⟩
  | .hbm, ⟨105, _⟩ => ⟨S512, .i32⟩
  | .hbm, ⟨106, _⟩ => ⟨S512, .i32⟩
  | .hbm, ⟨107, _⟩ => ⟨S512x1, .i32⟩
  | .hbm, ⟨108, _⟩ => ⟨S512x16, .f32⟩
  | .hbm, ⟨109, _⟩ => ⟨S512x16, .f32⟩
  | .hbm, ⟨110, _⟩ => ⟨S512x16, .f32⟩
  | .hbm, ⟨111, _⟩ => ⟨S16x512, .f32⟩
  | .hbm, ⟨112, _⟩ => ⟨S512x1, .f32⟩
  | .hbm, ⟨113, _⟩ => ⟨S16x1, .f32⟩
  | .hbm, ⟨114, _⟩ => ⟨S1x1, .f32⟩
  | .hbm, ⟨115, _⟩ => ⟨S16x1, .f32⟩
  | .hbm, ⟨116, _⟩ => ⟨S16x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_14 : Ref sig .tc := ⟨.hbm, 100, rfl⟩
abbrev main_v73 : Ref sig .tc := ⟨.hbm, 101, rfl⟩
abbrev main_v74 : Ref sig .tc := ⟨.hbm, 102, rfl⟩
abbrev main_c_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S5000000_S5000000x1_0 : S5000000.BroadcastsInDim S5000000x1 (![0] : Fin 1 → Fin S5000000x1.rank)
  bcast_S_S5000000 : S_.BroadcastsInDim S5000000 (![] : Fin 0 → Fin S5000000.rank)
  bcast_S5000000x1_S5000000x16_0_1 : S5000000x1.BroadcastsInDim S5000000x16 (![0, 1] : Fin 2 → Fin S5000000x16.rank)
  bcast_S_S100000x16 : S_.BroadcastsInDim S100000x16 (![] : Fin 0 → Fin S100000x16.rank)
  bcast_S512_S512x1_0 : S512.BroadcastsInDim S512x1 (![0] : Fin 1 → Fin S512x1.rank)
  bcast_S_S512 : S_.BroadcastsInDim S512 (![] : Fin 0 → Fin S512.rank)
  bcast_S512x1_S512x16_0_1 : S512x1.BroadcastsInDim S512x16 (![0, 1] : Fin 2 → Fin S512x16.rank)
  transposes_S512x16_S16x512_1_0 : S512x16.Transposes [1, 0] S16x512
  transposes_S1x512_S512x1_1_0 : S1x512.Transposes [1, 0] S512x1
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  gather_S64_S100000x1_S100000_n_0_n_n_0_1_1_wf : GatherDims.WF S64 S100000x1 S100000 [] [0] [] [0] [] 1 ![1]
  gather_S100000x16_S5000000x1_S5000000x16_1_0_n_n_0_1_116_wf : GatherDims.WF S100000x16 S5000000x1 S5000000x16 [1] [0] [] [0] [] 1 ![1, 16]
  scatter_S100000x16_S5000000x1_S5000000x16_1_0_0_1_wf : ScatterDims.WF S100000x16 S5000000x1 S5000000x16 [1] [0] [0] 1
  gather_S100000x16_S512x1_S512x16_1_0_n_n_0_1_116_wf : GatherDims.WF S100000x16 S512x1 S512x16 [1] [0] [] [0] [] 1 ![1, 16]
  dot_S16x512_S512x1_S16x1_1_0_0_1_n_n_wf : DotDims.WF S16x512 S512x1 S16x1 [1] [0] [0] [1] [] []

variable [Facts₀]

def gather_S64_S100000x1_S100000_n_0_n_n_0_1_1 : GatherDims S64 S100000x1 S100000 where
  offsetDims := []
  collapsedSliceDims := [0]
  operandBatchingDims := []
  startIndicesBatchingDims := []
  startIndexMap := [0]
  indexVectorDim := 1
  sliceSizes := ![1]
  wf := gather_S64_S100000x1_S100000_n_0_n_n_0_1_1_wf
def gather_S100000x16_S5000000x1_S5000000x16_1_0_n_n_0_1_116 : GatherDims S100000x16 S5000000x1 S5000000x16 where
  offsetDims := [1]
  collapsedSliceDims := [0]
  operandBatchingDims := []
  startIndicesBatchingDims := []
  startIndexMap := [0]
  indexVectorDim := 1
  sliceSizes := ![1, 16]
  wf := gather_S100000x16_S5000000x1_S5000000x16_1_0_n_n_0_1_116_wf
def scatter_S100000x16_S5000000x1_S5000000x16_1_0_0_1 : ScatterDims S100000x16 S5000000x1 S5000000x16 where
  updateWindowDims := [1]
  insertedWindowDims := [0]
  scatterDimsToOperandDims := [0]
  indexVectorDim := 1
  wf := scatter_S100000x16_S5000000x1_S5000000x16_1_0_0_1_wf
def gather_S100000x16_S512x1_S512x16_1_0_n_n_0_1_116 : GatherDims S100000x16 S512x1 S512x16 where
  offsetDims := [1]
  collapsedSliceDims := [0]
  operandBatchingDims := []
  startIndicesBatchingDims := []
  startIndexMap := [0]
  indexVectorDim := 1
  sliceSizes := ![1, 16]
  wf := gather_S100000x16_S512x1_S512x16_1_0_n_n_0_1_116_wf
def dot_S16x512_S512x1_S16x1_1_0_0_1_n_n : DotDims S16x512 S512x1 S16x1 where
  lhsContracting := [1]
  rhsContracting := [0]
  lhsNonContracting := [0]
  rhsNonContracting := [1]
  lhsBatch := []
  rhsBatch := []
  wf := dot_S16x512_S512x1_S16x1_1_0_0_1_n_n_wf

class Facts : Prop extends Facts₀ where

variable [Facts]
-- ==== Proof.K.Region0.lean ====
/-
  The first pallas_call (the per-neuron affine map), at the buffer contents `V` the region is entered with.
  The grid has 50 points; point t stages rows 2000·t … 2000·t+1999 of x (window 0) and of the reshaped type
  indices (window 1), the two 64-row tables whole (windows 2, 3, fetched once), and writes rows 2000·t … of
  the result (window 4).  The body loads the four input blocks whole, computes one value and stores it whole,
  so after the body the output's staging buffer holds that value of the point's input blocks.
-/
import proofs.«424385_j26474178412845_1_alg».proof.Proof.Gen.Kernel.Launch
import proofs.«424385_j26474178412845_1_alg».proof.Proof.Gen.Kernel.Skeleton
import proofs.«424385_j26474178412845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block of the entry contents at every point, whether the
    pipeline fetched it there or not (an unfetched window's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rX0 : Rect S2000x16 := Rect.unit (s := S2000x16) ![0, 0] S2000x16.size inb_S2000x16_S2000x16_0_0
abbrev rI0 : Rect S2000x1 := Rect.unit (s := S2000x1) ![0, 0] S2000x1.size inb_S2000x1_S2000x1_0_0
abbrev rT0 : Rect S64x1 := Rect.unit (s := S64x1) ![0, 0] S64x1.size inb_S64x1_S64x1_0_0

/-- What the body leaves in the output window's staging buffer, from the four input blocks: its one store. -/
def out0_4 (x : Vec F S2000x16 .f32) (ix : Vec F S2000x1 .i32) (tw : Vec F S64x1 .f32) (tb : Vec F S64x1 .f32) : Vec F S2000x16 .f32 :=
  View.canon [⟨rX0, k0_pay1 (View.ld ix rI0) (View.ld tw rT0) (View.ld tb rT0) (View.ld x rX0)⟩]

/-- The one store covers the block. -/
theorem cover0_4 (p0 : Vec F S2000x16 .f32) (y : S2000x16.Idx) :
    ∃ pc ∈ ([⟨rX0, p0⟩] : List (View.Piece (Elt F) S2000x16 .f32)), y ∈ pc.1.set :=
  View.cover_of_tiled [⟨rX0, p0⟩] S2000x16.size (by rfl) y

set_option maxHeartbeats 4000000 in
/-- The body on whole staging memrefs, the inputs' at known contents and the output's at anything, runs to the
    continuation holding the inputs' unchanged and the output's at `out0_4` of the inputs'. -/
theorem sound_kernel0 (c : Dev nD) (E : Set ℕ) (i : grid0.Coords)
    (arg1 : Memref sig .tc .vmem S2000x16 .f32) (harg1 : arg1.IsWhole) (arg2 : Memref sig .tc .vmem S2000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S2000x16 .f32) (harg5 : arg5.IsWhole)
    (x : Vec F S2000x16 .f32) (ix : Vec F S2000x1 .i32) (tw : Vec F S64x1 .f32) (tb : Vec F S64x1 .f32) (K : PUnit → sProp 𝕄) :
    iprop(owns (c : Thread nD τ) arg1 fullShare x ∗ owns (c : Thread nD τ) arg2 fullShare ix ∗ owns (c : Thread nD τ) arg3 fullShare tw
        ∗ owns (c : Thread nD τ) arg4 fullShare tb ∗ (∃ d, owns (c : Thread nD τ) arg5 fullShare d)
        ∗ (iprop(owns (c : Thread nD τ) arg1 fullShare x ∗ owns (c : Thread nD τ) arg2 fullShare ix ∗ owns (c : Thread nD τ) arg3 fullShare tw
            ∗ owns (c : Thread nD τ) arg4 fullShare tb ∗ owns (c : Thread nD τ) arg5 fullShare (out0_4 x ix tw tb)) -∗ K ⟨⟩))
      ⊢ wp frame (wpE (defs₀ (F := F)) Variants.none c none) E (cc0__type_affine_kernel i arg1 harg1 arg2 harg2 arg3 harg3 arg4 harg4 arg5 harg5) K := by
  simp only [cc0__type_affine_kernel_eq_skeleton]; unfold cc0__type_affine_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_4 _)

/-- The proof data of pipeline 0 on core `c`: the arrays as the region finds them; after the body at point `t`
    each input's buffer at its block and the output's at `out0_4` of the input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The second pallas_call (the decision rows gathered by a one-hot product, accumulated over 49 points, then the final
  linear map), at the buffer contents `V` the region is entered with.  Point t stages rows 2048·t … 2048·t+2047 of
  the padded activations (window 0); the reshaped column indices, the reshaped values, the weights and the bias
  (windows 1 to 4) are staged whole, once.  A scratch buffer of 512×16 carries the running sum between points:
  point 0 zeroes it first, every point adds its block's one-hot product to it, and the last point (48) also
  stores the result (window 5), which is idle at every other point.
-/
import proofs.«424385_j26474178412845_1_alg».proof.Proof.Gen.Kernel.Launch
import proofs.«424385_j26474178412845_1_alg».proof.Proof.Gen.Kernel.Skeleton
import proofs.«424385_j26474178412845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand: a whole scoped buffer of the kernel's own, passed beside the windows. -/
abbrev scM1 : Memref sig .tc .vmem S512x16 .f32 := Memref.whole cc1_scratch0

/-- What the scratch holds after the body at point `n`: point 0 adds its block's product to zero, every later
    point adds its own to what the point before left. -/
def accAt1 (c : Dev nD) : (n : ℕ) → n < cfg1.N → Vec F S512x16 .f32
  | 0, hn => k1_pay2 (grid1.coords ⟨0, hn⟩) (iblk1 V c 1 ⟨0, hn⟩) (iblk1 V c 0 ⟨0, hn⟩) (k1_pay1 (F := F))
  | n + 1, hn => k1_pay2 (grid1.coords ⟨n + 1, hn⟩) (iblk1 V c 1 ⟨n + 1, hn⟩) (iblk1 V c 0 ⟨n + 1, hn⟩) (accAt1 c n (Nat.lt_of_succ_lt hn))

/-- What the last point stores into the output window's staging buffer: the final map of the scratch as that point
    leaves it.  (At the other points the window is idle: the value there is a placeholder nothing consults.) -/
def outAt1 (c : Dev nD) (t : Fin cfg1.N) : Vec F S16x1 .f32 :=
  k1_pay3 (accAt1 V c t.val t.isLt) (iblk1 V c 2 t) (iblk1 V c 3 t) (iblk1 V c 4 t)

/-- The scoped buffers that are neither a staging buffer of this call nor its scratch (the first call's staging
    buffers), each whole at some contents. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region's invariant before position `n`: before the first point every scoped buffer no window stages at
    anything and the generator register at some state; afterwards the same with the scratch at what the point
    before left in it. -/
def PhiS1 (c : Dev nD) : (n : ℕ) → n ≤ cfg1.N → sProp 𝕄
  | 0, _ => Pipeline.ΦA spec1 c
  | n + 1, hn => iprop(otherScoped1 (F := F) c ∗ owns (c : Thread nD τ) scM1 fullShare (accAt1 V c n hn) ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

/-! ## The body's two branch conditions, in closed form -/

/-- The condition of the first branch (the reset of the running sum), from the grid coordinates. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The condition of the second branch (the final map and the store of the result). -/
abbrev cond1_1 (i : grid1.Coords) : Prop := k1_cond2 i = 1#1
/-- It holds at point 48 only. -/
theorem hcond1_1 : ∀ t : Fin cfg1.N, cond1_1 (grid1.coords t) ↔ t.val = 48 :=
  (by decide +kernel : ∀ t : Fin grid1.N, cond1_1 (grid1.coords t) ↔ t.val = 48)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last point the output window is idle and not written back; at the last point it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- The launch's invariant gives the scratch as a memref owned at some contents, beside the other scoped buffers and the register; -/
theorem PhiA1_split (c : Dev nD) :
    (Pipeline.ΦA spec1 c : sProp 𝕄)
      ⊢ iprop(otherScoped1 (F := F) c ∗ (∃ d, owns (c : Thread nD τ) scM1 fullShare d) ∗ (∃ r, prngReg c r)) := by
  unfold Pipeline.ΦA otherScoped1; rw [scopedRest1_eq]; simp only [scM1, owns_whole]
  iintro ⟨⟨H0, H1, H2, H3, H4, H5, H6, H7, HS⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]; · iexact HS
  iexact Hg

/-- and is given back by them. -/
theorem PhiA1_join (c : Dev nD) :
    iprop(otherScoped1 (F := F) c ∗ (∃ d, owns (c : Thread nD τ) scM1 fullShare d) ∗ (∃ r, prngReg c r))
      ⊢ (Pipeline.ΦA spec1 c : sProp 𝕄) := by
  unfold Pipeline.ΦA otherScoped1; rw [scopedRest1_eq]; simp only [scM1, owns_whole]
  iintro ⟨⟨H0, H1, H2, H3, H4, H5, H6, H7⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- The two together: an equation to rewrite by. -/
theorem PhiA1_eq (c : Dev nD) :
    (Pipeline.ΦA spec1 c : sProp 𝕄)
      = iprop(otherScoped1 (F := F) c ∗ (∃ d, owns (c : Thread nD τ) scM1 fullShare d) ∗ (∃ r, prngReg c r)) :=
  Idealize.SL.BI.Entails.antisymm (PhiA1_split c) (PhiA1_join c)

/-- The whole-block rectangles of the scratch and of the output. -/
abbrev rA1 : Rect S512x16 := Rect.unit (s := S512x16) ![0, 0] S512x16.size inb_S512x16_S512x16_0_0
abbrev rO1 : Rect S16x1 := Rect.unit (s := S16x1) ![0, 0] S16x1.size inb_S16x1_S16x1_0_0

/-- The zero offsets, however spelt. -/
theorem hz2 : (![0, 0] : Fin 2 → ℕ) = fun _ => 0 := by
  funext a; fin_cases a <;> rfl

/-- One whole store covers the scratch; so do two. -/
theorem cover1_S1 (p0 : Vec F S512x16 .f32) (y : S512x16.Idx) :
    ∃ pc ∈ ([⟨rA1, p0⟩] : List (View.Piece (Elt F) S512x16 .f32)), y ∈ pc.1.set :=
  View.cover_of_tiled [⟨rA1, p0⟩] S512x16.size (by rfl) y
theorem cover1_S2 (p0 p1 : Vec F S512x16 .f32) (y : S512x16.Idx) :
    ∃ pc ∈ ([⟨rA1, p0⟩, ⟨rA1, p1⟩] : List (View.Piece (Elt F) S512x16 .f32)), y ∈ pc.1.set :=
  ⟨⟨rA1, p0⟩, List.mem_cons_self, View.mem_set_unit_zero hz2 inb_S512x16_S512x16_0_0 y⟩
/-- One whole store covers the output block. -/
theorem cover1_O (p0 : Vec F S16x1 .f32) (y : S16x1.Idx) :
    ∃ pc ∈ ([⟨rO1, p0⟩] : List (View.Piece (Elt F) S16x1 .f32)), y ∈ pc.1.set :=
  View.cover_of_tiled [⟨rO1, p0⟩] S16x1.size (by rfl) y

set_option maxHeartbeats 4000000 in
/-- At a point that is neither the first nor the last. -/
theorem kernel1_B (c : Dev nD) (E : Set ℕ) (i : grid1.Coords)
    (arg1 : Memref sig .tc .vmem S2048x16 .f32) (harg1 : arg1.IsWhole) (arg2 : Memref sig .tc .vmem S512x1 .i32) (harg2 : arg2.IsWhole)
    (arg3 : Memref sig .tc .vmem S512x1 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S16x1 .f32) (harg6 : arg6.IsWhole)
    (arg7 : Memref sig .tc .vmem S512x16 .f32) (harg7 : arg7.IsWhole) (hc0 : ¬cond1_0 i) (hc1 : ¬cond1_1 i)
    (x : Vec F S2048x16 .f32) (ix : Vec F S512x1 .i32) (acc : Vec F S512x16 .f32) (K : PUnit → sProp 𝕄) :
    iprop(owns (c : Thread nD τ) arg1 fullShare x ∗ owns (c : Thread nD τ) arg2 fullShare ix ∗ owns (c : Thread nD τ) arg7 fullShare acc
        ∗ (iprop(owns (c : Thread nD τ) arg1 fullShare x ∗ owns (c : Thread nD τ) arg2 fullShare ix
            ∗ owns (c : Thread nD τ) arg7 fullShare (k1_pay2 i ix x acc)) -∗ K ⟨⟩))
      ⊢ wp frame (wpE (defs₀ (F := F)) Variants.none c none) E (cc1__dm_fc_kernel i arg1 harg1 arg2 harg2 arg3 harg3 arg4 harg4 arg5 harg5 arg6 harg6 arg7 harg7) K := by
  simp only [cc1__dm_fc_kernel_eq_skeleton]; unfold cc1__dm_fc_kernel_skel
  unfold owns
  iintro ⟨⟨%f1, %hf1, H1⟩, ⟨%f2, %hf2, H2⟩, ⟨%f7, %hf7, H7⟩, Hk⟩
  subst hf1; subst hf2; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  rw [View.read_writes_eq_canon _ _ _ (cover1_S1 _), View.canon_unit_zero hz2]
  simp only [View.readAt_eq_ld, View.ld_unit_zero (S := S512x1) hz2, View.ld_unit_zero (S := S2048x16) hz2, View.ld_unit_zero (S := S512x16) hz2]

set_option maxHeartbeats 4000000 in
/-- At the first point. -/
theorem kernel1_A (c : Dev nD) (E : Set ℕ) (i : grid1.Coords)
    (arg1 : Memref sig .tc .vmem S2048x16 .f32) (harg1 : arg1.IsWhole) (arg2 : Memref sig .tc .vmem S512x1 .i32) (harg2 : arg2.IsWhole)
    (arg3 : Memref sig .tc .vmem S512x1 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S16x1 .f32) (harg6 : arg6.IsWhole)
    (arg7 : Memref sig .tc .vmem S512x16 .f32) (harg7 : arg7.IsWhole) (hc0 : cond1_0 i) (hc1 : ¬cond1_1 i)
    (x : Vec F S2048x16 .f32) (ix : Vec F S512x1 .i32) (K : PUnit → sProp 𝕄) :
    iprop(owns (c : Thread nD τ) arg1 fullShare x ∗ owns (c : Thread nD τ) arg2 fullShare ix ∗ (∃ d, owns (c : Thread nD τ) arg7 fullShare d)
        ∗ (iprop(owns (c : Thread nD τ) arg1 fullShare x ∗ owns (c : Thread nD τ) arg2 fullShare ix
            ∗ owns (c : Thread nD τ) arg7 fullShare (k1_pay2 i ix x (k1_pay1 (F := F)))) -∗ K ⟨⟩))
      ⊢ wp frame (wpE (defs₀ (F := F)) Variants.none c none) E (cc1__dm_fc_kernel i arg1 harg1 arg2 harg2 arg3 harg3 arg4 harg4 arg5 harg5 arg6 harg6 arg7 harg7) K := by
  simp only [cc1__dm_fc_kernel_eq_skeleton]; unfold cc1__dm_fc_kernel_skel
  unfold owns
  iintro ⟨⟨%f1, %hf1, H1⟩, ⟨%f2, %hf2, H2⟩, ⟨%d7, %f7, -, H7⟩, Hk⟩
  subst hf1; subst hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  sl_unfold_words
  rw [View.read_writes_eq_canon _ _ _ (cover1_S2 _ _), View.canon_cons_unit_zero hz2]
  simp only [View.readAt_eq_ld, View.ld_unit_zero (S := S512x1) hz2, View.ld_unit_zero (S := S2048x16) hz2,
    View.ld_unit_zero (S := S512x16) hz2, View.readCov_unit_zero (S := S512x16) _ hz2]

set_option maxHeartbeats 4000000 in
/-- At the last point. -/
theorem kernel1_C (c : Dev nD) (E : Set ℕ) (i : grid1.Coords)
    (arg1 : Memref sig .tc .vmem S2048x16 .f32) (harg1 : arg1.IsWhole) (arg2 : Memref sig .tc .vmem S512x1 .i32) (harg2 : arg2.IsWhole)
    (arg3 : Memref sig .tc .vmem S512x1 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S16x1 .f32) (harg6 : arg6.IsWhole)
    (arg7 : Memref sig .tc .vmem S512x16 .f32) (harg7 : arg7.IsWhole) (hc0 : ¬cond1_0 i) (hc1 : cond1_1 i)
    (x : Vec F S2048x16 .f32) (ix : Vec F S512x1 .i32) (w : Vec F S512x1 .f32) (lw : Vec F S1x512 .f32) (b : Vec F S1x1 .f32)
    (acc : Vec F S512x16 .f32) (K : PUnit → sProp 𝕄) :
    iprop(owns (c : Thread nD τ) arg1 fullShare x ∗ owns (c : Thread nD τ) arg2 fullShare ix ∗ owns (c : Thread nD τ) arg3 fullShare w
        ∗ owns (c : Thread nD τ) arg4 fullShare lw ∗ owns (c : Thread nD τ) arg5 fullShare b ∗ (∃ d, owns (c : Thread nD τ) arg6 fullShare d)
        ∗ owns (c : Thread nD τ) arg7 fullShare acc
        ∗ (iprop(owns (c : Thread nD τ) arg1 fullShare x ∗ owns (c : Thread nD τ) arg2 fullShare ix ∗ owns (c : Thread nD τ) arg3 fullShare w
            ∗ owns (c : Thread nD τ) arg4 fullShare lw ∗ owns (c : Thread nD τ) arg5 fullShare b
            ∗ owns (c : Thread nD τ) arg6 fullShare (k1_pay3 (k1_pay2 i ix x acc) w lw b)
            ∗ owns (c : Thread nD τ) arg7 fullShare (k1_pay2 i ix x acc)) -∗ K ⟨⟩))
      ⊢ wp frame (wpE (defs₀ (F := F)) Variants.none c none) E (cc1__dm_fc_kernel i arg1 harg1 arg2 harg2 arg3 harg3 arg4 harg4 arg5 harg5 arg6 harg6 arg7 harg7) K := by
  simp only [cc1__dm_fc_kernel_eq_skeleton]; unfold cc1__dm_fc_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover1_O _), View.canon_unit_zero hz2]
    simp only [View.readAt_eq_ld, View.ld_unit_zero (S := S512x1) hz2, View.ld_unit_zero (S := S2048x16) hz2,
      View.ld_unit_zero (S := S512x16) hz2, View.ld_unit_zero (S := S1x512) hz2, View.ld_unit_zero (S := S1x1) hz2,
      View.readCov_unit_zero (S := S512x16) _ hz2]
  iexists _; isplitr
  swap; · iexact H7
  ipureintro
  sl_unfold_words
  rw [View.read_writes_eq_canon _ _ _ (cover1_S1 _), View.canon_unit_zero hz2]
  simp only [View.readAt_eq_ld, View.ld_unit_zero (S := S512x1) hz2, View.ld_unit_zero (S := S2048x16) hz2,
    View.ld_unit_zero (S := S512x16) hz2]

/-! ## The inputs' staging buffers -/

/-- An input window's current staging buffer holds its block of the entry contents at every point, whether the
    pipeline fetched it there or not (an unfetched window's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The running sum and the invariant, point by point -/

/-- At the first point the running sum starts from the zero fill; -/
theorem accAt1_zero (c : Dev nD) (t : Fin cfg1.N) (h : t.val = 0) :
    accAt1 V c t.val t.isLt = k1_pay2 (grid1.coords t) (iblk1 V c 1 t) (iblk1 V c 0 t) (k1_pay1 (F := F)) := by
  obtain ⟨n, hn⟩ := t
  cases n with
  | zero => rfl
  | succ n => exact absurd h (Nat.succ_ne_zero n)

/-- at a later point from what the point before left. -/
theorem accAt1_pos (c : Dev nD) (t : Fin cfg1.N) (h : t.val ≠ 0) :
    accAt1 V c t.val t.isLt = k1_pay2 (grid1.coords t) (iblk1 V c 1 t) (iblk1 V c 0 t)
      (accAt1 V c (t.val - 1) (Nat.lt_of_le_of_lt (Nat.sub_le _ _) t.isLt)) := by
  obtain ⟨n, hn⟩ := t
  cases n with
  | zero => exact absurd rfl h
  | succ n => rfl

theorem PhiS1_zero (c : Dev nD) (n : ℕ) (h : n ≤ cfg1.N) (hz : n = 0) : PhiS1 V c n h = Pipeline.ΦA spec1 c := by
  subst hz; rfl

/-- After point n (before point n + 1): the scratch at that point's running sum. -/
theorem PhiS1_succ (c : Dev nD) (n : ℕ) (hn : n < cfg1.N) :
    PhiS1 V c (n + 1) hn = iprop(otherScoped1 (F := F) c ∗ owns (c : Thread nD τ) scM1 fullShare (accAt1 V c n hn) ∗ (∃ r, prngReg c r)) := rfl

/-- Before a point that is not the first: the scratch at what the point before left. -/
theorem PhiS1_pos (c : Dev nD) (n : ℕ) (h : n ≤ cfg1.N) (hz : n ≠ 0) :
    PhiS1 V c n h = iprop(otherScoped1 (F := F) c ∗ owns (c : Thread nD τ) scM1 fullShare (accAt1 V c (n - 1) (by omega)) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point.  The inputs' memrefs hold their blocks; the position says which of the three cases the point
    is in; the invariant hands the body the scratch at what the point before left (at anything at the first point)
    and takes it back at this point's running sum; the output window is handed back untouched except at the last
    point, where it holds the final map of the running sum; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 49 := lt_of_lt_of_eq t.isLt (show cfg1.N = 49 from N_1)
  by_cases h0 : t.val = 0
  · have h1 : ¬t.val = 48 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [accAt1_zero V c t h0]
    rw [PhiS1_castSucc V c t, PhiS1_zero V c _ _ h0, PhiA1_eq]
    iintro ⟨⟨Hoth, ⟨%ds, HS⟩, Hg⟩, Ho, ⟨%d0, H0⟩, ⟨%d1, H1⟩, ⟨%d2, H2⟩, ⟨%d3, H3⟩, ⟨%d4, H4⟩, ⟨%d5, H5⟩⟩
    iapply (kernel1_A c Set.univ (grid1.coords t) _ _ _ _ _ _ _ _ _ _ _ _ _ _ hc0 hc1 (iblk1 V c 0 t) (iblk1 V c 1 t) _)
    isplitl [H0]; · iexact H0
    isplitl [H1]; · iexact H1
    isplitl [HS]; · iexists _; iexact HS
    iintro ⟨H0, H1, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    rw [accAt1_pos V c t h0]
    rw [PhiS1_castSucc V c t, PhiS1_pos V c _ _ h0]
    by_cases h1 : t.val = 48
    · have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1], after1_5]
      unfold outAt1
      rw [accAt1_pos V c t h0]
      iintro ⟨⟨Hoth, HS, Hg⟩, Ho, ⟨%d0, H0⟩, ⟨%d1, H1⟩, ⟨%d2, H2⟩, ⟨%d3, H3⟩, ⟨%d4, H4⟩, ⟨%d5, H5⟩⟩
      iapply (kernel1_C c Set.univ (grid1.coords t) _ _ _ _ _ _ _ _ _ _ _ _ _ _ hc0 hc1 (iblk1 V c 0 t) (iblk1 V c 1 t) (iblk1 V c 2 t) (iblk1 V c 3 t) (iblk1 V c 4 t)
        (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨Hoth, HS, Hg⟩, Ho, ⟨%d0, H0⟩, ⟨%d1, H1⟩, ⟨%d2, H2⟩, ⟨%d3, H3⟩, ⟨%d4, H4⟩, ⟨%d5, H5⟩⟩
      iapply (kernel1_B c Set.univ (grid1.coords t) _ _ _ _ _ _ _ _ _ _ _ _ _ _ hc0 hc1 (iblk1 V c 0 t) (iblk1 V c 1 t)
        (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped rest and the register back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 49 := N_1; omega), PhiA1_eq]
  iintro ⟨Hoth, HS, Hg⟩
  isplitl [Hoth]; · iexact Hoth
  isplitl [HS]; · iexists _; iexact HS
  iexact Hg

end Cert.Kernel.Hand

end
-- ==== Proof.K.Vals.lean ====
/-
  The contents of the core's unscoped buffers at each boundary between two items of @main: the launch memory, then each
  host stretch's operations applied in order, and — after a pallas_call — its arrays at what its write-backs leave
  with everything else as entered.  No host operation writes an argument array (each writes its own result buffer),
  an argument a pallas_call stages is an input window (written back never), and an argument it does not stage
  bypasses it: so each argument's buffer walks back through the fold to the launch memory.
-/
import proofs.«424385_j26474178412845_1_alg».proof.Proof.Gen.Kernel.Launch
import proofs.«424385_j26474178412845_1_alg».proof.Proof.Gen.Kernel.Skeleton
import proofs.«424385_j26474178412845_1_alg».proof.Proof.Gen.Kernel.Points
import proofs.«424385_j26474178412845_1_alg».proof.Proof.K.Region0
import proofs.«424385_j26474178412845_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the three reshapes (the first call's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the hops' first stretch, their second stretch, the padding, the last reshapes (the second call's entry). -/
abbrev W3 : Dev nD → Valuation τ sig (Elt F) := fun c => StableHlo.after main_part0_ops1 (W2 m ρ c)
abbrev W4 : Dev nD → Valuation τ sig (Elt F) := fun c => StableHlo.after main_part1_ops0 (W3 m ρ c)
abbrev W5 : Dev nD → Valuation τ sig (Elt F) := fun c => StableHlo.after main_part1_ops1 (W4 m ρ c)
abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b
/-- At the second call's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## What the host stretches write, and that they allocate nothing -/

theorem ops0_fresh : (main_part0_ops0 : List (HloOp τ sig (Elt F))).Forall fun op => op.fresh = ∅ := by
  simp only [List.Forall]; repeat' constructor
set_option maxHeartbeats 4000000 in
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor
theorem ops3_fresh : (main_part1_ops1 : List (HloOp τ sig (Elt F))).Forall fun op => op.fresh = ∅ := by
  simp only [List.Forall]; repeat' constructor
theorem ops4_fresh : (main_part1_ops2 : List (HloOp τ sig (Elt F))).Forall fun op => op.fresh = ∅ := by
  simp only [List.Forall]; repeat' constructor

/-- No host operation writes an argument array: every operation writes one of the intermediate buffers. -/
abbrev args : List (Ref sig .tc) := [main_arg0, main_arg1, main_arg2, main_arg3, main_arg4, main_arg5, main_arg6, main_arg7, main_arg8, main_arg9, main_arg10]

theorem ops0_keeps (V : Valuation τ sig (Elt F)) (r : Ref sig .tc) (hr : r ∈ args) :
    StableHlo.after (main_part0_ops0 : List (HloOp τ sig (Elt F))) V (Proc.devRef .tc r) = V (Proc.devRef .tc r) :=
  StableHlo.after_of_forall_not_mem _ _ (List.forall_iff_forall_mem.mp (by
    simp only [main_part0_ops0, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

set_option maxHeartbeats 8000000 in
theorem ops1_keeps (V : Valuation τ sig (Elt F)) (r : Ref sig .tc) (hr : r ∈ args) :
    StableHlo.after (main_part0_ops1 : List (HloOp τ sig (Elt F))) V (Proc.devRef .tc r) = V (Proc.devRef .tc r) :=
  StableHlo.after_of_forall_not_mem _ _ (List.forall_iff_forall_mem.mp (by
    simp only [main_part0_ops1, StableHlo.TRef.unary, StableHlo.TRef.binary, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

set_option maxHeartbeats 8000000 in
theorem ops2_keeps (V : Valuation τ sig (Elt F)) (r : Ref sig .tc) (hr : r ∈ args) :
    StableHlo.after (main_part1_ops0 : List (HloOp τ sig (Elt F))) V (Proc.devRef .tc r) = V (Proc.devRef .tc r) :=
  StableHlo.after_of_forall_not_mem _ _ (List.forall_iff_forall_mem.mp (by
    simp only [main_part1_ops0, StableHlo.TRef.unary, StableHlo.TRef.binary, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

set_option maxHeartbeats 8000000 in
theorem ops3_keeps (V : Valuation τ sig (Elt F)) (r : Ref sig .tc) (hr : r ∈ args) :
    StableHlo.after (main_part1_ops1 : List (HloOp τ sig (Elt F))) V (Proc.devRef .tc r) = V (Proc.devRef .tc r) :=
  StableHlo.after_of_forall_not_mem _ _ (List.forall_iff_forall_mem.mp (by
    simp only [main_part1_ops1, StableHlo.TRef.unary, StableHlo.TRef.binary, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

set_option maxHeartbeats 8000000 in
theorem ops4_keeps (V : Valuation τ sig (Elt F)) (r : Ref sig .tc) (hr : r ∈ args) :
    StableHlo.after (main_part1_ops2 : List (HloOp τ sig (Elt F))) V (Proc.devRef .tc r) = V (Proc.devRef .tc r) :=
  StableHlo.after_of_forall_not_mem _ _ (List.forall_iff_forall_mem.mp (by
    simp only [main_part1_ops2, StableHlo.TRef.unary, StableHlo.TRef.binary, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

/-- Each argument's buffer at the last boundary is the launch memory's. -/
theorem W7_arg (c : Dev nD) (r : Ref sig .tc) (hr : r ∈ args) : W7 m ρ c (Proc.devRef .tc r) = m ((c : Thread nD τ).loc r) := by
  have h65 := ops4_keeps (W5 m ρ c) r hr
  have h54 := ops3_keeps (W4 m ρ c) r hr
  have h43 := ops2_keeps (W3 m ρ c) r hr
  have h32 := ops1_keeps (W2 m ρ c) r hr
  have h10 := ops0_keeps (W0 m ρ c) r hr
  have h76 : W7 m ρ c (Proc.devRef .tc r) = W6 m ρ c (Proc.devRef .tc r) := by
    simp only [args, List.mem_cons, List.mem_nil_iff, or_false] at hr
    rcases hr with rfl | rfl | rfl | rfl | rfl | rfl | rfl | rfl | rfl | rfl | rfl
    · exact W7_of_ne m ρ c _ (by decide)
    · exact W7_of_ne m ρ c _ (by decide)
    · exact W7_of_ne m ρ c _ (by decide)
    · exact W7_of_ne m ρ c _ (by decide)
    · exact W7_of_ne m ρ c _ (by decide)
    · exact (W7_arr m ρ c 3).trans (((dat1 (V6 m ρ) c).arrAt_in 3 rfl _).trans (A_eq1 (V6 m ρ) c 3))
    · exact W7_of_ne m ρ c _ (by decide)
    · exact W7_of_ne m ρ c _ (by decide)
    · exact W7_of_ne m ρ c _ (by decide)
    · exact W7_of_ne m ρ c _ (by decide)
    · exact W7_of_ne m ρ c _ (by decide)
  have h21 : W2 m ρ c (Proc.devRef .tc r) = W1 m ρ c (Proc.devRef .tc r) := by
    simp only [args, List.mem_cons, List.mem_nil_iff, or_false] at hr
    rcases hr with rfl | rfl | rfl | rfl | rfl | rfl | rfl | rfl | rfl | rfl | rfl
    · exact (W2_arr m ρ c 0).trans (((dat0 (V1 m ρ) c).arrAt_in 0 rfl _).trans (A_eq0 (V1 m ρ) c 0))
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
  exact h76.trans (h65.trans (h54.trans (h43.trans (h32.trans (h21.trans h10)))))

end Cert.Kernel.Hand

end
-- ==== Proof.K.MainRun.lean ====
/-
  The whole program's run.  @main is seven items: three reshapes, the first pallas_call, the four hops of the sparse
  product (cut in two stretches), the padding, three more reshapes, the second pallas_call.  Between two items every
  unscoped buffer of the core is held at the boundary's contents.  Each pallas_call's arrays are split out of the
  unscoped buffers at its entry and put back at its exit; the generator register and the core's dues (nothing) ride
  along; the second call's invariant carries its scratch.  At the end every unscoped buffer is read back at the last
  boundary's contents: each argument array ends as launched, and the result array holds what the second call's
  write-back left.
-/
import proofs.«424385_j26474178412845_1_alg».proof.Proof.Gen.Kernel.Launch
import proofs.«424385_j26474178412845_1_alg».proof.Proof.Gen.Kernel.Skeleton
import proofs.«424385_j26474178412845_1_alg».proof.Proof.Gen.Kernel.Points
import proofs.«424385_j26474178412845_1_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, nothing. -/
abbrev R (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m ρ c) ∗ ∃ r, prngReg c r)

/-! ## The pallas_calls as items -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W6`, left at `W7`; its invariant carries the scratch. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V6 m ρ) c).Φ 0 from rfl]
    iintro ⟨Hp, -, Hr⟩
    iapply (hin1 (V6 m ρ) c)
    unfold Pipeline.ΦA
    isplitl [Hr]; · iexact Hr
    iexact Hp
  hout c := by
    rw [Pipeline.ownSems0_none, show (pdats m ρ 1 c).Φ (Fin.last _) = (dat1 (V6 m ρ) c).Φ (Fin.last cfg1.N) from rfl]
    have h := hout1 (V6 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg main_part0_ops0 main_part0_ops0_sub ops0_fresh (W0 m ρ)),
    .region (reg0 m ρ),
    .host (hseg main_part0_ops1 main_part0_ops1_sub ops1_fresh (W2 m ρ)),
    .host (hseg main_part1_ops0 main_part1_ops0_sub ops2_fresh (W3 m ρ)),
    .host (hseg main_part1_ops1 main_part1_ops1_sub ops3_fresh (W4 m ρ)),
    .host (hseg main_part1_ops2 main_part1_ops2_sub ops4_fresh (W5 m ρ)),
    .region (reg1 m ρ) ]

set_option maxHeartbeats 4000000 in
/-- @main is the run of the items. -/
theorem main_run (c : Dev nD) : main (F := F) c = Pipeline.Seg.run (segs m ρ) := (main_chain_windows c).trans (by chain_rfl)

set_option maxHeartbeats 4000000 in
set_option backward.isDefEq.respectTransparency.types false in
/-- THE RUN: from any memory with zero counters every weakly fair execution of @main terminates, nothing faulting,
    and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_arg m ρ c main_arg0 (by decide)),
     (h c _ (mem_uc main_arg1 (by decide))).trans (W7_arg m ρ c main_arg1 (by decide)),
     (h c _ (mem_uc main_arg2 (by decide))).trans (W7_arg m ρ c main_arg2 (by decide)),
     (h c _ (mem_uc main_arg3 (by decide))).trans (W7_arg m ρ c main_arg3 (by decide)),
     (h c _ (mem_uc main_arg4 (by decide))).trans (W7_arg m ρ c main_arg4 (by decide)),
     (h c _ (mem_uc main_arg5 (by decide))).trans (W7_arg m ρ c main_arg5 (by decide)),
     (h c _ (mem_uc main_arg6 (by decide))).trans (W7_arg m ρ c main_arg6 (by decide)),
     (h c _ (mem_uc main_arg7 (by decide))).trans (W7_arg m ρ c main_arg7 (by decide)),
     (h c _ (mem_uc main_arg8 (by decide))).trans (W7_arg m ρ c main_arg8 (by decide)),
     (h c _ (mem_uc main_arg9 (by decide))).trans (W7_arg m ρ c main_arg9 (by decide)),
     (h c _ (mem_uc main_arg10 (by decide))).trans (W7_arg m ρ c main_arg10 (by decide))⟩) (run_main m ρ)

/-- The same run, with the result array named: it ends at what the second call's write-back leaves. -/
theorem run_value : θ_run defs (onTc (τ := τ) (main (F := F))) ⟨m, fun _ => 0, ρ⟩ (fun r => ∀ c : Dev nD,
      r.2.mem ((c.tc : Thread nD τ).loc main_v60) = (dat1 (V6 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v60 (by decide))).trans (W7_arr m ρ c 5),
     (h c _ (mem_uc main_arg0 (by decide))).trans (W7_arg m ρ c main_arg0 (by decide)),
     (h c _ (mem_uc main_arg1 (by decide))).trans (W7_arg m ρ c main_arg1 (by decide)),
     (h c _ (mem_uc main_arg2 (by decide))).trans (W7_arg m ρ c main_arg2 (by decide)),
     (h c _ (mem_uc main_arg3 (by decide))).trans (W7_arg m ρ c main_arg3 (by decide)),
     (h c _ (mem_uc main_arg4 (by decide))).trans (W7_arg m ρ c main_arg4 (by decide)),
     (h c _ (mem_uc main_arg5 (by decide))).trans (W7_arg m ρ c main_arg5 (by decide)),
     (h c _ (mem_uc main_arg6 (by decide))).trans (W7_arg m ρ c main_arg6 (by decide)),
     (h c _ (mem_uc main_arg7 (by decide))).trans (W7_arg m ρ c main_arg7 (by decide)),
     (h c _ (mem_uc main_arg8 (by decide))).trans (W7_arg m ρ c main_arg8 (by decide)),
     (h c _ (mem_uc main_arg9 (by decide))).trans (W7_arg m ρ c main_arg9 (by decide)),
     (h c _ (mem_uc main_arg10 (by decide))).trans (W7_arg m ρ c main_arg10 (by decide))⟩) (run_main m ρ)

end Cert.Kernel.Hand

end
-- ==== Proof.KI.Region0.lean ====
/-
  The first pallas_call (the per-neuron affine map), at the buffer contents `V` the region is entered with.
  The grid has 50 points; point t stages rows 2000·t … 2000·t+1999 of x (window 0) and of the reshaped type
  indices (window 1), the two 64-row tables whole (windows 2, 3, fetched once), and writes rows 2000·t … of
  the result (window 4).  The body loads the four input blocks whole, computes one value and stores it whole,
  so after the body the output's staging buffer holds that value of the point's input blocks.
-/
import proofs.«424385_j26474178412845_1_alg».proof.Proof.Gen.KernelIdeal.Launch
import proofs.«424385_j26474178412845_1_alg».proof.Proof.Gen.KernelIdeal.Skeleton
import proofs.«424385_j26474178412845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block of the entry contents at every point, whether the
    pipeline fetched it there or not (an unfetched window's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rX0 : Rect S2000x16 := Rect.unit (s := S2000x16) ![0, 0] S2000x16.size inb_S2000x16_S2000x16_0_0
abbrev rI0 : Rect S2000x1 := Rect.unit (s := S2000x1) ![0, 0] S2000x1.size inb_S2000x1_S2000x1_0_0
abbrev rT0 : Rect S64x1 := Rect.unit (s := S64x1) ![0, 0] S64x1.size inb_S64x1_S64x1_0_0

/-- What the body leaves in the output window's staging buffer, from the four input blocks: its one store. -/
def out0_4 (x : Vec F S2000x16 .f32) (ix : Vec F S2000x1 .i32) (tw : Vec F S64x1 .f32) (tb : Vec F S64x1 .f32) : Vec F S2000x16 .f32 :=
  View.canon [⟨rX0, k0_pay1 (View.ld ix rI0) (View.ld tw rT0) (View.ld tb rT0) (View.ld x rX0)⟩]

/-- The one store covers the block. -/
theorem cover0_4 (p0 : Vec F S2000x16 .f32) (y : S2000x16.Idx) :
    ∃ pc ∈ ([⟨rX0, p0⟩] : List (View.Piece (Elt F) S2000x16 .f32)), y ∈ pc.1.set :=
  View.cover_of_tiled [⟨rX0, p0⟩] S2000x16.size (by rfl) y

set_option maxHeartbeats 4000000 in
/-- The body on whole staging memrefs, the inputs' at known contents and the output's at anything, runs to the
    continuation holding the inputs' unchanged and the output's at `out0_4` of the inputs'. -/
theorem sound_kernel0 (c : Dev nD) (E : Set ℕ) (i : grid0.Coords)
    (arg1 : Memref sig .tc .vmem S2000x16 .f32) (harg1 : arg1.IsWhole) (arg2 : Memref sig .tc .vmem S2000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S2000x16 .f32) (harg5 : arg5.IsWhole)
    (x : Vec F S2000x16 .f32) (ix : Vec F S2000x1 .i32) (tw : Vec F S64x1 .f32) (tb : Vec F S64x1 .f32) (K : PUnit → sProp 𝕄) :
    iprop(owns (c : Thread nD τ) arg1 fullShare x ∗ owns (c : Thread nD τ) arg2 fullShare ix ∗ owns (c : Thread nD τ) arg3 fullShare tw
        ∗ owns (c : Thread nD τ) arg4 fullShare tb ∗ (∃ d, owns (c : Thread nD τ) arg5 fullShare d)
        ∗ (iprop(owns (c : Thread nD τ) arg1 fullShare x ∗ owns (c : Thread nD τ) arg2 fullShare ix ∗ owns (c : Thread nD τ) arg3 fullShare tw
            ∗ owns (c : Thread nD τ) arg4 fullShare tb ∗ owns (c : Thread nD τ) arg5 fullShare (out0_4 x ix tw tb)) -∗ K ⟨⟩))
      ⊢ wp frame (wpE (defs₀ (F := F)) Variants.none c none) E (cc0__type_affine_kernel i arg1 harg1 arg2 harg2 arg3 harg3 arg4 harg4 arg5 harg5) K := by
  simp only [cc0__type_affine_kernel_eq_skeleton]; unfold cc0__type_affine_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_4 _)

/-- The proof data of pipeline 0 on core `c`: the arrays as the region finds them; after the body at point `t`
    each input's buffer at its block and the output's at `out0_4` of the input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second pallas_call (the decision rows gathered by a one-hot product, accumulated over 49 points, then the final
  linear map), at the buffer contents `V` the region is entered with.  Point t stages rows 2048·t … 2048·t+2047 of
  the padded activations (window 0); the reshaped column indices, the reshaped values, the weights and the bias
  (windows 1 to 4) are staged whole, once.  A scratch buffer of 512×16 carries the running sum between points:
  point 0 zeroes it first, every point adds its block's one-hot product to it, and the last point (48) also
  stores the result (window 5), which is idle at every other point.
-/
import proofs.«424385_j26474178412845_1_alg».proof.Proof.Gen.KernelIdeal.Launch
import proofs.«424385_j26474178412845_1_alg».proof.Proof.Gen.KernelIdeal.Skeleton
import proofs.«424385_j26474178412845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand: a whole scoped buffer of the kernel's own, passed beside the windows. -/
abbrev scM1 : Memref sig .tc .vmem S512x16 .f32 := Memref.whole cc1_scratch0

/-- What the scratch holds after the body at point `n`: point 0 adds its block's product to zero, every later
    point adds its own to what the point before left. -/
def accAt1 (c : Dev nD) : (n : ℕ) → n < cfg1.N → Vec F S512x16 .f32
  | 0, hn => k1_pay2 (grid1.coords ⟨0, hn⟩) (iblk1 V c 1 ⟨0, hn⟩) (iblk1 V c 0 ⟨0, hn⟩) (k1_pay1 (F := F))
  | n + 1, hn => k1_pay2 (grid1.coords ⟨n + 1, hn⟩) (iblk1 V c 1 ⟨n + 1, hn⟩) (iblk1 V c 0 ⟨n + 1, hn⟩) (accAt1 c n (Nat.lt_of_succ_lt hn))

/-- What the last point stores into the output window's staging buffer: the final map of the scratch as that point
    leaves it.  (At the other points the window is idle: the value there is a placeholder nothing consults.) -/
def outAt1 (c : Dev nD) (t : Fin cfg1.N) : Vec F S16x1 .f32 :=
  k1_pay3 (accAt1 V c t.val t.isLt) (iblk1 V c 2 t) (iblk1 V c 3 t) (iblk1 V c 4 t)

/-- The scoped buffers that are neither a staging buffer of this call nor its scratch (the first call's staging
    buffers), each whole at some contents. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region's invariant before position `n`: before the first point every scoped buffer no window stages at
    anything and the generator register at some state; afterwards the same with the scratch at what the point
    before left in it. -/
def PhiS1 (c : Dev nD) : (n : ℕ) → n ≤ cfg1.N → sProp 𝕄
  | 0, _ => Pipeline.ΦA spec1 c
  | n + 1, hn => iprop(otherScoped1 (F := F) c ∗ owns (c : Thread nD τ) scM1 fullShare (accAt1 V c n hn) ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

/-! ## The body's two branch conditions, in closed form -/

/-- The condition of the first branch (the reset of the running sum), from the grid coordinates. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The condition of the second branch (the final map and the store of the result). -/
abbrev cond1_1 (i : grid1.Coords) : Prop := k1_cond2 i = 1#1
/-- It holds at point 48 only. -/
theorem hcond1_1 : ∀ t : Fin cfg1.N, cond1_1 (grid1.coords t) ↔ t.val = 48 :=
  (by decide +kernel : ∀ t : Fin grid1.N, cond1_1 (grid1.coords t) ↔ t.val = 48)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last point the output window is idle and not written back; at the last point it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- The launch's invariant gives the scratch as a memref owned at some contents, beside the other scoped buffers and the register; -/
theorem PhiA1_split (c : Dev nD) :
    (Pipeline.ΦA spec1 c : sProp 𝕄)
      ⊢ iprop(otherScoped1 (F := F) c ∗ (∃ d, owns (c : Thread nD τ) scM1 fullShare d) ∗ (∃ r, prngReg c r)) := by
  unfold Pipeline.ΦA otherScoped1; rw [scopedRest1_eq]; simp only [scM1, owns_whole]
  iintro ⟨⟨H0, H1, H2, H3, H4, H5, H6, H7, HS⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]; · iexact HS
  iexact Hg

/-- and is given back by them. -/
theorem PhiA1_join (c : Dev nD) :
    iprop(otherScoped1 (F := F) c ∗ (∃ d, owns (c : Thread nD τ) scM1 fullShare d) ∗ (∃ r, prngReg c r))
      ⊢ (Pipeline.ΦA spec1 c : sProp 𝕄) := by
  unfold Pipeline.ΦA otherScoped1; rw [scopedRest1_eq]; simp only [scM1, owns_whole]
  iintro ⟨⟨H0, H1, H2, H3, H4, H5, H6, H7⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- The two together: an equation to rewrite by. -/
theorem PhiA1_eq (c : Dev nD) :
    (Pipeline.ΦA spec1 c : sProp 𝕄)
      = iprop(otherScoped1 (F := F) c ∗ (∃ d, owns (c : Thread nD τ) scM1 fullShare d) ∗ (∃ r, prngReg c r)) :=
  Idealize.SL.BI.Entails.antisymm (PhiA1_split c) (PhiA1_join c)

/-- The whole-block rectangles of the scratch and of the output. -/
abbrev rA1 : Rect S512x16 := Rect.unit (s := S512x16) ![0, 0] S512x16.size inb_S512x16_S512x16_0_0
abbrev rO1 : Rect S16x1 := Rect.unit (s := S16x1) ![0, 0] S16x1.size inb_S16x1_S16x1_0_0

/-- The zero offsets, however spelt. -/
theorem hz2 : (![0, 0] : Fin 2 → ℕ) = fun _ => 0 := by
  funext a; fin_cases a <;> rfl

/-- One whole store covers the scratch; so do two. -/
theorem cover1_S1 (p0 : Vec F S512x16 .f32) (y : S512x16.Idx) :
    ∃ pc ∈ ([⟨rA1, p0⟩] : List (View.Piece (Elt F) S512x16 .f32)), y ∈ pc.1.set :=
  View.cover_of_tiled [⟨rA1, p0⟩] S512x16.size (by rfl) y
theorem cover1_S2 (p0 p1 : Vec F S512x16 .f32) (y : S512x16.Idx) :
    ∃ pc ∈ ([⟨rA1, p0⟩, ⟨rA1, p1⟩] : List (View.Piece (Elt F) S512x16 .f32)), y ∈ pc.1.set :=
  ⟨⟨rA1, p0⟩, List.mem_cons_self, View.mem_set_unit_zero hz2 inb_S512x16_S512x16_0_0 y⟩
/-- One whole store covers the output block. -/
theorem cover1_O (p0 : Vec F S16x1 .f32) (y : S16x1.Idx) :
    ∃ pc ∈ ([⟨rO1, p0⟩] : List (View.Piece (Elt F) S16x1 .f32)), y ∈ pc.1.set :=
  View.cover_of_tiled [⟨rO1, p0⟩] S16x1.size (by rfl) y

set_option maxHeartbeats 4000000 in
/-- At a point that is neither the first nor the last. -/
theorem kernel1_B (c : Dev nD) (E : Set ℕ) (i : grid1.Coords)
    (arg1 : Memref sig .tc .vmem S2048x16 .f32) (harg1 : arg1.IsWhole) (arg2 : Memref sig .tc .vmem S512x1 .i32) (harg2 : arg2.IsWhole)
    (arg3 : Memref sig .tc .vmem S512x1 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S16x1 .f32) (harg6 : arg6.IsWhole)
    (arg7 : Memref sig .tc .vmem S512x16 .f32) (harg7 : arg7.IsWhole) (hc0 : ¬cond1_0 i) (hc1 : ¬cond1_1 i)
    (x : Vec F S2048x16 .f32) (ix : Vec F S512x1 .i32) (acc : Vec F S512x16 .f32) (K : PUnit → sProp 𝕄) :
    iprop(owns (c : Thread nD τ) arg1 fullShare x ∗ owns (c : Thread nD τ) arg2 fullShare ix ∗ owns (c : Thread nD τ) arg7 fullShare acc
        ∗ (iprop(owns (c : Thread nD τ) arg1 fullShare x ∗ owns (c : Thread nD τ) arg2 fullShare ix
            ∗ owns (c : Thread nD τ) arg7 fullShare (k1_pay2 i ix x acc)) -∗ K ⟨⟩))
      ⊢ wp frame (wpE (defs₀ (F := F)) Variants.none c none) E (cc1__dm_fc_kernel i arg1 harg1 arg2 harg2 arg3 harg3 arg4 harg4 arg5 harg5 arg6 harg6 arg7 harg7) K := by
  simp only [cc1__dm_fc_kernel_eq_skeleton]; unfold cc1__dm_fc_kernel_skel
  unfold owns
  iintro ⟨⟨%f1, %hf1, H1⟩, ⟨%f2, %hf2, H2⟩, ⟨%f7, %hf7, H7⟩, Hk⟩
  subst hf1; subst hf2; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  rw [View.read_writes_eq_canon _ _ _ (cover1_S1 _), View.canon_unit_zero hz2]
  simp only [View.readAt_eq_ld, View.ld_unit_zero (S := S512x1) hz2, View.ld_unit_zero (S := S2048x16) hz2, View.ld_unit_zero (S := S512x16) hz2]

set_option maxHeartbeats 4000000 in
/-- At the first point. -/
theorem kernel1_A (c : Dev nD) (E : Set ℕ) (i : grid1.Coords)
    (arg1 : Memref sig .tc .vmem S2048x16 .f32) (harg1 : arg1.IsWhole) (arg2 : Memref sig .tc .vmem S512x1 .i32) (harg2 : arg2.IsWhole)
    (arg3 : Memref sig .tc .vmem S512x1 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S16x1 .f32) (harg6 : arg6.IsWhole)
    (arg7 : Memref sig .tc .vmem S512x16 .f32) (harg7 : arg7.IsWhole) (hc0 : cond1_0 i) (hc1 : ¬cond1_1 i)
    (x : Vec F S2048x16 .f32) (ix : Vec F S512x1 .i32) (K : PUnit → sProp 𝕄) :
    iprop(owns (c : Thread nD τ) arg1 fullShare x ∗ owns (c : Thread nD τ) arg2 fullShare ix ∗ (∃ d, owns (c : Thread nD τ) arg7 fullShare d)
        ∗ (iprop(owns (c : Thread nD τ) arg1 fullShare x ∗ owns (c : Thread nD τ) arg2 fullShare ix
            ∗ owns (c : Thread nD τ) arg7 fullShare (k1_pay2 i ix x (k1_pay1 (F := F)))) -∗ K ⟨⟩))
      ⊢ wp frame (wpE (defs₀ (F := F)) Variants.none c none) E (cc1__dm_fc_kernel i arg1 harg1 arg2 harg2 arg3 harg3 arg4 harg4 arg5 harg5 arg6 harg6 arg7 harg7) K := by
  simp only [cc1__dm_fc_kernel_eq_skeleton]; unfold cc1__dm_fc_kernel_skel
  unfold owns
  iintro ⟨⟨%f1, %hf1, H1⟩, ⟨%f2, %hf2, H2⟩, ⟨%d7, %f7, -, H7⟩, Hk⟩
  subst hf1; subst hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  sl_unfold_words
  rw [View.read_writes_eq_canon _ _ _ (cover1_S2 _ _), View.canon_cons_unit_zero hz2]
  simp only [View.readAt_eq_ld, View.ld_unit_zero (S := S512x1) hz2, View.ld_unit_zero (S := S2048x16) hz2,
    View.ld_unit_zero (S := S512x16) hz2, View.readCov_unit_zero (S := S512x16) _ hz2]

set_option maxHeartbeats 4000000 in
/-- At the last point. -/
theorem kernel1_C (c : Dev nD) (E : Set ℕ) (i : grid1.Coords)
    (arg1 : Memref sig .tc .vmem S2048x16 .f32) (harg1 : arg1.IsWhole) (arg2 : Memref sig .tc .vmem S512x1 .i32) (harg2 : arg2.IsWhole)
    (arg3 : Memref sig .tc .vmem S512x1 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S16x1 .f32) (harg6 : arg6.IsWhole)
    (arg7 : Memref sig .tc .vmem S512x16 .f32) (harg7 : arg7.IsWhole) (hc0 : ¬cond1_0 i) (hc1 : cond1_1 i)
    (x : Vec F S2048x16 .f32) (ix : Vec F S512x1 .i32) (w : Vec F S512x1 .f32) (lw : Vec F S1x512 .f32) (b : Vec F S1x1 .f32)
    (acc : Vec F S512x16 .f32) (K : PUnit → sProp 𝕄) :
    iprop(owns (c : Thread nD τ) arg1 fullShare x ∗ owns (c : Thread nD τ) arg2 fullShare ix ∗ owns (c : Thread nD τ) arg3 fullShare w
        ∗ owns (c : Thread nD τ) arg4 fullShare lw ∗ owns (c : Thread nD τ) arg5 fullShare b ∗ (∃ d, owns (c : Thread nD τ) arg6 fullShare d)
        ∗ owns (c : Thread nD τ) arg7 fullShare acc
        ∗ (iprop(owns (c : Thread nD τ) arg1 fullShare x ∗ owns (c : Thread nD τ) arg2 fullShare ix ∗ owns (c : Thread nD τ) arg3 fullShare w
            ∗ owns (c : Thread nD τ) arg4 fullShare lw ∗ owns (c : Thread nD τ) arg5 fullShare b
            ∗ owns (c : Thread nD τ) arg6 fullShare (k1_pay3 (k1_pay2 i ix x acc) w lw b)
            ∗ owns (c : Thread nD τ) arg7 fullShare (k1_pay2 i ix x acc)) -∗ K ⟨⟩))
      ⊢ wp frame (wpE (defs₀ (F := F)) Variants.none c none) E (cc1__dm_fc_kernel i arg1 harg1 arg2 harg2 arg3 harg3 arg4 harg4 arg5 harg5 arg6 harg6 arg7 harg7) K := by
  simp only [cc1__dm_fc_kernel_eq_skeleton]; unfold cc1__dm_fc_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover1_O _), View.canon_unit_zero hz2]
    simp only [View.readAt_eq_ld, View.ld_unit_zero (S := S512x1) hz2, View.ld_unit_zero (S := S2048x16) hz2,
      View.ld_unit_zero (S := S512x16) hz2, View.ld_unit_zero (S := S1x512) hz2, View.ld_unit_zero (S := S1x1) hz2,
      View.readCov_unit_zero (S := S512x16) _ hz2]
  iexists _; isplitr
  swap; · iexact H7
  ipureintro
  sl_unfold_words
  rw [View.read_writes_eq_canon _ _ _ (cover1_S1 _), View.canon_unit_zero hz2]
  simp only [View.readAt_eq_ld, View.ld_unit_zero (S := S512x1) hz2, View.ld_unit_zero (S := S2048x16) hz2,
    View.ld_unit_zero (S := S512x16) hz2]

/-! ## The inputs' staging buffers -/

/-- An input window's current staging buffer holds its block of the entry contents at every point, whether the
    pipeline fetched it there or not (an unfetched window's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The running sum and the invariant, point by point -/

/-- At the first point the running sum starts from the zero fill; -/
theorem accAt1_zero (c : Dev nD) (t : Fin cfg1.N) (h : t.val = 0) :
    accAt1 V c t.val t.isLt = k1_pay2 (grid1.coords t) (iblk1 V c 1 t) (iblk1 V c 0 t) (k1_pay1 (F := F)) := by
  obtain ⟨n, hn⟩ := t
  cases n with
  | zero => rfl
  | succ n => exact absurd h (Nat.succ_ne_zero n)

/-- at a later point from what the point before left. -/
theorem accAt1_pos (c : Dev nD) (t : Fin cfg1.N) (h : t.val ≠ 0) :
    accAt1 V c t.val t.isLt = k1_pay2 (grid1.coords t) (iblk1 V c 1 t) (iblk1 V c 0 t)
      (accAt1 V c (t.val - 1) (Nat.lt_of_le_of_lt (Nat.sub_le _ _) t.isLt)) := by
  obtain ⟨n, hn⟩ := t
  cases n with
  | zero => exact absurd rfl h
  | succ n => rfl

theorem PhiS1_zero (c : Dev nD) (n : ℕ) (h : n ≤ cfg1.N) (hz : n = 0) : PhiS1 V c n h = Pipeline.ΦA spec1 c := by
  subst hz; rfl

/-- After point n (before point n + 1): the scratch at that point's running sum. -/
theorem PhiS1_succ (c : Dev nD) (n : ℕ) (hn : n < cfg1.N) :
    PhiS1 V c (n + 1) hn = iprop(otherScoped1 (F := F) c ∗ owns (c : Thread nD τ) scM1 fullShare (accAt1 V c n hn) ∗ (∃ r, prngReg c r)) := rfl

/-- Before a point that is not the first: the scratch at what the point before left. -/
theorem PhiS1_pos (c : Dev nD) (n : ℕ) (h : n ≤ cfg1.N) (hz : n ≠ 0) :
    PhiS1 V c n h = iprop(otherScoped1 (F := F) c ∗ owns (c : Thread nD τ) scM1 fullShare (accAt1 V c (n - 1) (by omega)) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point.  The inputs' memrefs hold their blocks; the position says which of the three cases the point
    is in; the invariant hands the body the scratch at what the point before left (at anything at the first point)
    and takes it back at this point's running sum; the output window is handed back untouched except at the last
    point, where it holds the final map of the running sum; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 49 := lt_of_lt_of_eq t.isLt (show cfg1.N = 49 from N_1)
  by_cases h0 : t.val = 0
  · have h1 : ¬t.val = 48 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [accAt1_zero V c t h0]
    rw [PhiS1_castSucc V c t, PhiS1_zero V c _ _ h0, PhiA1_eq]
    iintro ⟨⟨Hoth, ⟨%ds, HS⟩, Hg⟩, Ho, ⟨%d0, H0⟩, ⟨%d1, H1⟩, ⟨%d2, H2⟩, ⟨%d3, H3⟩, ⟨%d4, H4⟩, ⟨%d5, H5⟩⟩
    iapply (kernel1_A c Set.univ (grid1.coords t) _ _ _ _ _ _ _ _ _ _ _ _ _ _ hc0 hc1 (iblk1 V c 0 t) (iblk1 V c 1 t) _)
    isplitl [H0]; · iexact H0
    isplitl [H1]; · iexact H1
    isplitl [HS]; · iexists _; iexact HS
    iintro ⟨H0, H1, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    rw [accAt1_pos V c t h0]
    rw [PhiS1_castSucc V c t, PhiS1_pos V c _ _ h0]
    by_cases h1 : t.val = 48
    · have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1], after1_5]
      unfold outAt1
      rw [accAt1_pos V c t h0]
      iintro ⟨⟨Hoth, HS, Hg⟩, Ho, ⟨%d0, H0⟩, ⟨%d1, H1⟩, ⟨%d2, H2⟩, ⟨%d3, H3⟩, ⟨%d4, H4⟩, ⟨%d5, H5⟩⟩
      iapply (kernel1_C c Set.univ (grid1.coords t) _ _ _ _ _ _ _ _ _ _ _ _ _ _ hc0 hc1 (iblk1 V c 0 t) (iblk1 V c 1 t) (iblk1 V c 2 t) (iblk1 V c 3 t) (iblk1 V c 4 t)
        (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨Hoth, HS, Hg⟩, Ho, ⟨%d0, H0⟩, ⟨%d1, H1⟩, ⟨%d2, H2⟩, ⟨%d3, H3⟩, ⟨%d4, H4⟩, ⟨%d5, H5⟩⟩
      iapply (kernel1_B c Set.univ (grid1.coords t) _ _ _ _ _ _ _ _ _ _ _ _ _ _ hc0 hc1 (iblk1 V c 0 t) (iblk1 V c 1 t)
        (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped rest and the register back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 49 := N_1; omega), PhiA1_eq]
  iintro ⟨Hoth, HS, Hg⟩
  isplitl [Hoth]; · iexact Hoth
  isplitl [HS]; · iexists _; iexact HS
  iexact Hg

end Cert.KernelIdeal.Hand

end
-- ==== Proof.KI.Vals.lean ====
/-
  The contents of the core's unscoped buffers at each boundary between two items of @main: the launch memory, then each
  host stretch's operations applied in order, and — after a pallas_call — its arrays at what its write-backs leave
  with everything else as entered.  No host operation writes an argument array (each writes its own result buffer),
  an argument a pallas_call stages is an input window (written back never), and an argument it does not stage
  bypasses it: so each argument's buffer walks back through the fold to the launch memory.
-/
import proofs.«424385_j26474178412845_1_alg».proof.Proof.Gen.KernelIdeal.Launch
import proofs.«424385_j26474178412845_1_alg».proof.Proof.Gen.KernelIdeal.Skeleton
import proofs.«424385_j26474178412845_1_alg».proof.Proof.Gen.KernelIdeal.Points
import proofs.«424385_j26474178412845_1_alg».proof.Proof.KI.Region0
import proofs.«424385_j26474178412845_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the three reshapes (the first call's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the hops' first stretch, their second stretch, the padding, the last reshapes (the second call's entry). -/
abbrev W3 : Dev nD → Valuation τ sig (Elt F) := fun c => StableHlo.after main_part0_ops1 (W2 m ρ c)
abbrev W4 : Dev nD → Valuation τ sig (Elt F) := fun c => StableHlo.after main_part1_ops0 (W3 m ρ c)
abbrev W5 : Dev nD → Valuation τ sig (Elt F) := fun c => StableHlo.after main_part1_ops1 (W4 m ρ c)
abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b
/-- At the second call's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## What the host stretches write, and that they allocate nothing -/

theorem ops0_fresh : (main_part0_ops0 : List (HloOp τ sig (Elt F))).Forall fun op => op.fresh = ∅ := by
  simp only [List.Forall]; repeat' constructor
set_option maxHeartbeats 4000000 in
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor
theorem ops3_fresh : (main_part1_ops1 : List (HloOp τ sig (Elt F))).Forall fun op => op.fresh = ∅ := by
  simp only [List.Forall]; repeat' constructor
theorem ops4_fresh : (main_part1_ops2 : List (HloOp τ sig (Elt F))).Forall fun op => op.fresh = ∅ := by
  simp only [List.Forall]; repeat' constructor

/-- No host operation writes an argument array: every operation writes one of the intermediate buffers. -/
abbrev args : List (Ref sig .tc) := [main_arg0, main_arg1, main_arg2, main_arg3, main_arg4, main_arg5, main_arg6, main_arg7, main_arg8, main_arg9, main_arg10]

theorem ops0_keeps (V : Valuation τ sig (Elt F)) (r : Ref sig .tc) (hr : r ∈ args) :
    StableHlo.after (main_part0_ops0 : List (HloOp τ sig (Elt F))) V (Proc.devRef .tc r) = V (Proc.devRef .tc r) :=
  StableHlo.after_of_forall_not_mem _ _ (List.forall_iff_forall_mem.mp (by
    simp only [main_part0_ops0, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

set_option maxHeartbeats 8000000 in
theorem ops1_keeps (V : Valuation τ sig (Elt F)) (r : Ref sig .tc) (hr : r ∈ args) :
    StableHlo.after (main_part0_ops1 : List (HloOp τ sig (Elt F))) V (Proc.devRef .tc r) = V (Proc.devRef .tc r) :=
  StableHlo.after_of_forall_not_mem _ _ (List.forall_iff_forall_mem.mp (by
    simp only [main_part0_ops1, StableHlo.TRef.unary, StableHlo.TRef.binary, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

set_option maxHeartbeats 8000000 in
theorem ops2_keeps (V : Valuation τ sig (Elt F)) (r : Ref sig .tc) (hr : r ∈ args) :
    StableHlo.after (main_part1_ops0 : List (HloOp τ sig (Elt F))) V (Proc.devRef .tc r) = V (Proc.devRef .tc r) :=
  StableHlo.after_of_forall_not_mem _ _ (List.forall_iff_forall_mem.mp (by
    simp only [main_part1_ops0, StableHlo.TRef.unary, StableHlo.TRef.binary, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

set_option maxHeartbeats 8000000 in
theorem ops3_keeps (V : Valuation τ sig (Elt F)) (r : Ref sig .tc) (hr : r ∈ args) :
    StableHlo.after (main_part1_ops1 : List (HloOp τ sig (Elt F))) V (Proc.devRef .tc r) = V (Proc.devRef .tc r) :=
  StableHlo.after_of_forall_not_mem _ _ (List.forall_iff_forall_mem.mp (by
    simp only [main_part1_ops1, StableHlo.TRef.unary, StableHlo.TRef.binary, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

set_option maxHeartbeats 8000000 in
theorem ops4_keeps (V : Valuation τ sig (Elt F)) (r : Ref sig .tc) (hr : r ∈ args) :
    StableHlo.after (main_part1_ops2 : List (HloOp τ sig (Elt F))) V (Proc.devRef .tc r) = V (Proc.devRef .tc r) :=
  StableHlo.after_of_forall_not_mem _ _ (List.forall_iff_forall_mem.mp (by
    simp only [main_part1_ops2, StableHlo.TRef.unary, StableHlo.TRef.binary, List.Forall, StableHlo.nullary_writes, StableHlo.unary_writes, StableHlo.binary_writes, StableHlo.ternary_writes, StableHlo.reshape_writes, Finset.mem_singleton]
    simp only [args, List.mem_cons, List.mem_nil_iff, or_false] at hr
    rcases hr with rfl | rfl | rfl | rfl | rfl | rfl | rfl | rfl | rfl | rfl | rfl <;>
      (repeat' apply And.intro) <;> exact StableHlo.devRef_ne_of_ne (by decide)))

/-- Each argument's buffer at the last boundary is the launch memory's. -/
theorem W7_arg (c : Dev nD) (r : Ref sig .tc) (hr : r ∈ args) : W7 m ρ c (Proc.devRef .tc r) = m ((c : Thread nD τ).loc r) := by
  have h65 := ops4_keeps (W5 m ρ c) r hr
  have h54 := ops3_keeps (W4 m ρ c) r hr
  have h43 := ops2_keeps (W3 m ρ c) r hr
  have h32 := ops1_keeps (W2 m ρ c) r hr
  have h10 := ops0_keeps (W0 m ρ c) r hr
  have h76 : W7 m ρ c (Proc.devRef .tc r) = W6 m ρ c (Proc.devRef .tc r) := by
    simp only [args, List.mem_cons, List.mem_nil_iff, or_false] at hr
    rcases hr with rfl | rfl | rfl | rfl | rfl | rfl | rfl | rfl | rfl | rfl | rfl
    · exact W7_of_ne m ρ c _ (by decide)
    · exact W7_of_ne m ρ c _ (by decide)
    · exact W7_of_ne m ρ c _ (by decide)
    · exact W7_of_ne m ρ c _ (by decide)
    · exact W7_of_ne m ρ c _ (by decide)
    · exact (W7_arr m ρ c 3).trans (((dat1 (V6 m ρ) c).arrAt_in 3 rfl _).trans (A_eq1 (V6 m ρ) c 3))
    · exact W7_of_ne m ρ c _ (by decide)
    · exact W7_of_ne m ρ c _ (by decide)
    · exact W7_of_ne m ρ c _ (by decide)
    · exact W7_of_ne m ρ c _ (by decide)
    · exact W7_of_ne m ρ c _ (by decide)
  have h21 : W2 m ρ c (Proc.devRef .tc r) = W1 m ρ c (Proc.devRef .tc r) := by
    simp only [args, List.mem_cons, List.mem_nil_iff, or_false] at hr
    rcases hr with rfl | rfl | rfl | rfl | rfl | rfl | rfl | rfl | rfl | rfl | rfl
    · exact (W2_arr m ρ c 0).trans (((dat0 (V1 m ρ) c).arrAt_in 0 rfl _).trans (A_eq0 (V1 m ρ) c 0))
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
    · exact W2_of_ne m ρ c _ (by decide)
  exact h76.trans (h65.trans (h54.trans (h43.trans (h32.trans (h21.trans h10)))))

end Cert.KernelIdeal.Hand

end
-- ==== Proof.KI.MainRun.lean ====
/-
  The whole program's run.  @main is seven items: three reshapes, the first pallas_call, the four hops of the sparse
  product (cut in two stretches), the padding, three more reshapes, the second pallas_call.  Between two items every
  unscoped buffer of the core is held at the boundary's contents.  Each pallas_call's arrays are split out of the
  unscoped buffers at its entry and put back at its exit; the generator register and the core's dues (nothing) ride
  along; the second call's invariant carries its scratch.  At the end every unscoped buffer is read back at the last
  boundary's contents: each argument array ends as launched, and the result array holds what the second call's
  write-back left.
-/
import proofs.«424385_j26474178412845_1_alg».proof.Proof.Gen.KernelIdeal.Launch
import proofs.«424385_j26474178412845_1_alg».proof.Proof.Gen.KernelIdeal.Skeleton
import proofs.«424385_j26474178412845_1_alg».proof.Proof.Gen.KernelIdeal.Points
import proofs.«424385_j26474178412845_1_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, nothing. -/
abbrev R (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m ρ c) ∗ ∃ r, prngReg c r)

/-! ## The pallas_calls as items -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W6`, left at `W7`; its invariant carries the scratch. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V6 m ρ) c).Φ 0 from rfl]
    iintro ⟨Hp, -, Hr⟩
    iapply (hin1 (V6 m ρ) c)
    unfold Pipeline.ΦA
    isplitl [Hr]; · iexact Hr
    iexact Hp
  hout c := by
    rw [Pipeline.ownSems0_none, show (pdats m ρ 1 c).Φ (Fin.last _) = (dat1 (V6 m ρ) c).Φ (Fin.last cfg1.N) from rfl]
    have h := hout1 (V6 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg main_part0_ops0 main_part0_ops0_sub ops0_fresh (W0 m ρ)),
    .region (reg0 m ρ),
    .host (hseg main_part0_ops1 main_part0_ops1_sub ops1_fresh (W2 m ρ)),
    .host (hseg main_part1_ops0 main_part1_ops0_sub ops2_fresh (W3 m ρ)),
    .host (hseg main_part1_ops1 main_part1_ops1_sub ops3_fresh (W4 m ρ)),
    .host (hseg main_part1_ops2 main_part1_ops2_sub ops4_fresh (W5 m ρ)),
    .region (reg1 m ρ) ]

set_option maxHeartbeats 4000000 in
/-- @main is the run of the items. -/
theorem main_run (c : Dev nD) : main (F := F) c = Pipeline.Seg.run (segs m ρ) := (main_chain_windows c).trans (by chain_rfl)

set_option maxHeartbeats 4000000 in
set_option backward.isDefEq.respectTransparency.types false in
/-- THE RUN: from any memory with zero counters every weakly fair execution of @main terminates, nothing faulting,
    and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_arg m ρ c main_arg0 (by decide)),
     (h c _ (mem_uc main_arg1 (by decide))).trans (W7_arg m ρ c main_arg1 (by decide)),
     (h c _ (mem_uc main_arg2 (by decide))).trans (W7_arg m ρ c main_arg2 (by decide)),
     (h c _ (mem_uc main_arg3 (by decide))).trans (W7_arg m ρ c main_arg3 (by decide)),
     (h c _ (mem_uc main_arg4 (by decide))).trans (W7_arg m ρ c main_arg4 (by decide)),
     (h c _ (mem_uc main_arg5 (by decide))).trans (W7_arg m ρ c main_arg5 (by decide)),
     (h c _ (mem_uc main_arg6 (by decide))).trans (W7_arg m ρ c main_arg6 (by decide)),
     (h c _ (mem_uc main_arg7 (by decide))).trans (W7_arg m ρ c main_arg7 (by decide)),
     (h c _ (mem_uc main_arg8 (by decide))).trans (W7_arg m ρ c main_arg8 (by decide)),
     (h c _ (mem_uc main_arg9 (by decide))).trans (W7_arg m ρ c main_arg9 (by decide)),
     (h c _ (mem_uc main_arg10 (by decide))).trans (W7_arg m ρ c main_arg10 (by decide))⟩) (run_main m ρ)

/-- The same run, with the result array named: it ends at what the second call's write-back leaves. -/
theorem run_value : θ_run defs (onTc (τ := τ) (main (F := F))) ⟨m, fun _ => 0, ρ⟩ (fun r => ∀ c : Dev nD,
      r.2.mem ((c.tc : Thread nD τ).loc main_v60) = (dat1 (V6 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v60 (by decide))).trans (W7_arr m ρ c 5),
     (h c _ (mem_uc main_arg0 (by decide))).trans (W7_arg m ρ c main_arg0 (by decide)),
     (h c _ (mem_uc main_arg1 (by decide))).trans (W7_arg m ρ c main_arg1 (by decide)),
     (h c _ (mem_uc main_arg2 (by decide))).trans (W7_arg m ρ c main_arg2 (by decide)),
     (h c _ (mem_uc main_arg3 (by decide))).trans (W7_arg m ρ c main_arg3 (by decide)),
     (h c _ (mem_uc main_arg4 (by decide))).trans (W7_arg m ρ c main_arg4 (by decide)),
     (h c _ (mem_uc main_arg5 (by decide))).trans (W7_arg m ρ c main_arg5 (by decide)),
     (h c _ (mem_uc main_arg6 (by decide))).trans (W7_arg m ρ c main_arg6 (by decide)),
     (h c _ (mem_uc main_arg7 (by decide))).trans (W7_arg m ρ c main_arg7 (by decide)),
     (h c _ (mem_uc main_arg8 (by decide))).trans (W7_arg m ρ c main_arg8 (by decide)),
     (h c _ (mem_uc main_arg9 (by decide))).trans (W7_arg m ρ c main_arg9 (by decide)),
     (h c _ (mem_uc main_arg10 (by decide))).trans (W7_arg m ρ c main_arg10 (by decide))⟩) (run_main m ρ)

end Cert.KernelIdeal.Hand

end
-- ==== Proof.RefFrame.lean ====
/-
  The reference program's frame: it is a host program with no kernel launch, so its run is the composition of its
  operations, each a total function of buffers already written; every weakly fair execution therefore ends, faults
  nowhere, and writes no argument array.  The run itself (each result at the operations' composed term) is the
  generated module imported here; this file drops the result and keeps the arguments.
-/
import proofs.«424385_j26474178412845_1_alg».proof.Defs
import proofs.«424385_j26474178412845_1_alg».proof.Proof.Gen.ReferenceIdeal.Run
import proofs.«424385_j26474178412845_1_alg».proof.Proof.Gen.ReferenceIdeal.Read
import proofs.«424385_j26474178412845_1_alg».proof.Proof.Gen.Pre_finite_inputs

noncomputable section

namespace Cert.Proof.RefFrame

open Idealize.ShloMosaic Idealize.SL.Sem

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefFrame

end
-- ==== Proof.KI.Chain.lean ====
/-
  The boundary contents read as values.  Before the first pallas_call the three reshapes have made columns of the
  type indices and of the two tables: entry (n,0) of a column is entry n of the vector.  Between the two calls the
  four hops of the sparse product are applied to the first call's result, the outcome is padded below with 352 rows
  of the constant 0, and three more reshapes make columns of the decision columns, the decision values and the bias.
  An argument no operation writes is read as launched.
-/
import proofs.«424385_j26474178412845_1_alg».proof.Proof.Gen.KernelIdeal.Launch
import proofs.«424385_j26474178412845_1_alg».proof.Proof.Gen.KernelIdeal.Skeleton
import proofs.«424385_j26474178412845_1_alg».proof.Proof.Gen.KernelIdeal.Points
import proofs.«424385_j26474178412845_1_alg».proof.Proof.KI.Vals
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- One hop of the sparse product: the rows of `h` gathered at the edges' columns (a negative column wrapped by the
    array's length first), scaled by the edge weights, and summed into the edges' rows of a zero array. -/
def layer (h : (⟨S100000x16, .f32⟩ : BufTy).Contents (Elt F)) (w : (⟨S5000000, .f32⟩ : BufTy).Contents (Elt F))
    (rows cols : (⟨S5000000, .i32⟩ : BufTy).Contents (Elt F)) : (⟨S100000x16, .f32⟩ : BufTy).Contents (Elt F) :=
  Host.scatterAdd scatter_S100000x16_S5000000x1_S5000000x16_1_0_0_1
    (broadcastInDim S100000x16 ![] bcast_S_S100000x16 (constant S_ .f32 0x00000000#32))
    (broadcastInDim S5000000x1 ![0] bcast_S5000000_S5000000x1_0 rows)
    (mulf (broadcastInDim S5000000x16 ![0, 1] bcast_S5000000x1_S5000000x16_0_1 (broadcastInDim S5000000x1 ![0] bcast_S5000000_S5000000x1_0 w))
      (Host.gather gather_S100000x16_S5000000x1_S5000000x16_1_0_n_n_0_1_116 h
        (broadcastInDim S5000000x1 ![0] bcast_S5000000_S5000000x1_0
          (select (cmpi .slt cols (broadcastInDim S5000000 ![] bcast_S_S5000000 (constantI S_ 32 0#32)))
            (addi cols (broadcastInDim S5000000 ![] bcast_S_S5000000 (constantI S_ 32 100000#32))) cols))))

/-- The four hops. -/
def layers4 (h : (⟨S100000x16, .f32⟩ : BufTy).Contents (Elt F)) (w : (⟨S5000000, .f32⟩ : BufTy).Contents (Elt F))
    (rows cols : (⟨S5000000, .i32⟩ : BufTy).Contents (Elt F)) : (⟨S100000x16, .f32⟩ : BufTy).Contents (Elt F) :=
  layer (layer (layer (layer h w rows cols) w rows cols) w rows cols) w rows cols

/-! ## The stretches between the two calls, from any contents `V`

Each result buffer as its operation applied to earlier buffers of `V`; the hops stay folded as `layer`. -/

section
variable (V : Valuation τ sig (Elt F))

set_option maxHeartbeats 1000000 in
/-- After the first 56 operations: the fourth hop's edge weights as a column … -/
theorem ops1_v43 :
    (StableHlo.after (main_part0_ops1 : List (HloOp τ sig (Elt F))) V (Proc.devRef .tc main_v43) : (⟨S5000000x1, .f32⟩ : BufTy).Contents (Elt F))
      = broadcastInDim S5000000x1 ![0] bcast_S5000000_S5000000x1_0 (V (Proc.devRef .tc main_arg3) : (⟨S5000000, .f32⟩ : BufTy).Contents (Elt F)) := by
  after_results_simp
  first | done | rfl

set_option maxHeartbeats 1000000 in
/-- … its wrapped columns … -/
theorem ops1_v48 :
    (StableHlo.after (main_part0_ops1 : List (HloOp τ sig (Elt F))) V (Proc.devRef .tc main_v48) : (⟨S5000000, .i32⟩ : BufTy).Contents (Elt F))
      = select (cmpi .slt (V (Proc.devRef .tc main_arg9) : (⟨S5000000, .i32⟩ : BufTy).Contents (Elt F)) (broadcastInDim S5000000 ![] bcast_S_S5000000 (constantI S_ 32 0#32)))
          (addi (V (Proc.devRef .tc main_arg9) : (⟨S5000000, .i32⟩ : BufTy).Contents (Elt F)) (broadcastInDim S5000000 ![] bcast_S_S5000000 (constantI S_ 32 100000#32)))
          (V (Proc.devRef .tc main_arg9)) := by
  after_results_simp
  first | done | rfl

set_option maxHeartbeats 4000000 in
/-- … and the first three hops applied to the first call's result. -/
theorem ops1_v42 :
    (StableHlo.after (main_part0_ops1 : List (HloOp τ sig (Elt F))) V (Proc.devRef .tc main_v42) : (⟨S100000x16, .f32⟩ : BufTy).Contents (Elt F))
      = layer (layer (layer (V (Proc.devRef .tc main_v3)) (V (Proc.devRef .tc main_arg3)) (V (Proc.devRef .tc main_arg8)) (V (Proc.devRef .tc main_arg9)))
            (V (Proc.devRef .tc main_arg3)) (V (Proc.devRef .tc main_arg8)) (V (Proc.devRef .tc main_arg9)))
          (V (Proc.devRef .tc main_arg3)) (V (Proc.devRef .tc main_arg8)) (V (Proc.devRef .tc main_arg9)) := by
  after_results_simp
  first | done | rfl

/-- After the next nine operations: the fourth hop's scatter, its operands still buffers of `V` … -/
theorem ops2_v55 :
    (StableHlo.after (main_part1_ops0 : List (HloOp τ sig (Elt F))) V (Proc.devRef .tc main_v55) : (⟨S100000x16, .f32⟩ : BufTy).Contents (Elt F))
      = Host.scatterAdd scatter_S100000x16_S5000000x1_S5000000x16_1_0_0_1
          (broadcastInDim S100000x16 ![] bcast_S_S100000x16 (constant S_ .f32 0x00000000#32))
          (broadcastInDim S5000000x1 ![0] bcast_S5000000_S5000000x1_0 (V (Proc.devRef .tc main_arg8) : (⟨S5000000, .i32⟩ : BufTy).Contents (Elt F)))
          (mulf (broadcastInDim S5000000x16 ![0, 1] bcast_S5000000x1_S5000000x16_0_1 (V (Proc.devRef .tc main_v43) : (⟨S5000000x1, .f32⟩ : BufTy).Contents (Elt F)))
            (Host.gather gather_S100000x16_S5000000x1_S5000000x16_1_0_n_n_0_1_116 (V (Proc.devRef .tc main_v42) : (⟨S100000x16, .f32⟩ : BufTy).Contents (Elt F))
              (broadcastInDim S5000000x1 ![0] bcast_S5000000_S5000000x1_0 (V (Proc.devRef .tc main_v48) : (⟨S5000000, .i32⟩ : BufTy).Contents (Elt F))))) := by
  after_results
  first | done | rfl

/-- … and the zero word. -/
theorem ops2_c10 :
    (StableHlo.after (main_part1_ops0 : List (HloOp τ sig (Elt F))) V (Proc.devRef .tc main_c_10) : IVec S_ 32) = constantI S_ 32 0#32 := by
  after_results
  first | done | rfl

/-- After the padding's two operations: the padded array, the padding value the zero word converted. -/
theorem ops3_v56 :
    (StableHlo.after (main_part1_ops1 : List (HloOp τ sig (Elt F))) V (Proc.devRef .tc main_v56) : Vec F S100352x16 .f32)
      = pad S100352x16 ![0, 0] ![352, 0] ![0, 0] (V (Proc.devRef .tc main_v55) : Vec F S100000x16 .f32)
          (sitofp .f32 (V (Proc.devRef .tc main_c_10) : IVec S_ 32) : Vec F S_ .f32) pads_S100000x16_S100352x16_03520_000 h_S_ := by
  after_results
  first | done | rfl

/-- The last three reshapes leave the padded array as it was. -/
theorem ops4_v56 :
    StableHlo.after (main_part1_ops2 : List (HloOp τ sig (Elt F))) V (Proc.devRef .tc main_v56) = V (Proc.devRef .tc main_v56) := by
  after_results
  first | done | rfl

end

section
variable (m : (ℓ : Loc nD τ sig) → Buf (Elt F) ℓ) (ρ : Dev nD → PrngReg)

/-- A vector made a column, read at (p, 0), is the vector at p: the two indices have the same row-major position. -/
theorem col_apply {α : Type} {n : Nat} (x : (⟨1, ![n]⟩ : Shape).Idx → α)
    (h : (⟨1, ![n]⟩ : Shape).ShapeCasts ⟨2, ![n, 1]⟩) (p : Fin n) :
    shapeCast ⟨2, ![n, 1]⟩ x h (ix2 p (0 : Fin 1)) = x (ix1 p) :=
  shapeCast_apply x h (ix2 p (0 : Fin 1)) (ix1 p) (by
    rw [Shape.rowMajor_val_two, Shape.rowMajor_val_one]; show p.val = p.val * 1 + 0; omega)

/-! An argument that no operation writes and that is not an array of the first call is read as launched at every
    boundary up to the second call's entry. -/

theorem W1_arg (c : Dev nD) (r : Ref sig .tc) (hr : r ∈ args) : W1 m ρ c (Proc.devRef .tc r) = m ((c : Thread nD τ).loc r) :=
  ops0_keeps (W0 m ρ c) r hr
theorem W2_arg (c : Dev nD) (r : Ref sig .tc) (hr : r ∈ args) (hne : ∀ w, Pipeline.arrRef spec0 w ≠ r) :
    W2 m ρ c (Proc.devRef .tc r) = m ((c : Thread nD τ).loc r) :=
  (W2_of_ne m ρ c r hne).trans (W1_arg m ρ c r hr)
theorem W3_arg (c : Dev nD) (r : Ref sig .tc) (hr : r ∈ args) (hne : ∀ w, Pipeline.arrRef spec0 w ≠ r) :
    W3 m ρ c (Proc.devRef .tc r) = m ((c : Thread nD τ).loc r) :=
  (ops1_keeps (W2 m ρ c) r hr).trans (W2_arg m ρ c r hr hne)
theorem W4_arg (c : Dev nD) (r : Ref sig .tc) (hr : r ∈ args) (hne : ∀ w, Pipeline.arrRef spec0 w ≠ r) :
    W4 m ρ c (Proc.devRef .tc r) = m ((c : Thread nD τ).loc r) :=
  (ops2_keeps (W3 m ρ c) r hr).trans (W3_arg m ρ c r hr hne)
theorem W5_arg (c : Dev nD) (r : Ref sig .tc) (hr : r ∈ args) (hne : ∀ w, Pipeline.arrRef spec0 w ≠ r) :
    W5 m ρ c (Proc.devRef .tc r) = m ((c : Thread nD τ).loc r) :=
  (ops3_keeps (W4 m ρ c) r hr).trans (W4_arg m ρ c r hr hne)
theorem W6_arg (c : Dev nD) (r : Ref sig .tc) (hr : r ∈ args) (hne : ∀ w, Pipeline.arrRef spec0 w ≠ r) :
    W6 m ρ c (Proc.devRef .tc r) = m ((c : Thread nD τ).loc r) :=
  (ops4_keeps (W5 m ρ c) r hr).trans (W5_arg m ρ c r hr hne)

/-- The first call's first operand is the first argument as launched. -/
theorem V1_arg0 (c : Dev nD) : V1 m ρ c main_arg0 = m ((c : Thread nD τ).loc main_arg0) := by
  exact ops0_keeps (W0 m ρ c) main_arg0 (by simp [args])

/-- The column of type indices, entry by entry. -/
theorem V1_v0_apply (c : Dev nD) (n : Fin 100000) :
    (V1 m ρ c main_v0 : Vec F S100000x1 .i32) (ix2 n (0 : Fin 1)) = (m ((c : Thread nD τ).loc main_arg7) : Vec F S100000 .i32) (ix1 n) := by
  have e : (V1 m ρ c main_v0 : Vec F S100000x1 .i32)
      = shapeCast S100000x1 (W0 m ρ c (Proc.devRef .tc main_arg7) : Vec F S100000 .i32) shapeCasts_S100000_S100000x1 := by
    show StableHlo.after main_part0_ops0 _ (Proc.devRef .tc main_v0) = _
    after_results
    rfl
  rw [e]
  exact col_apply _ _ n

/-- The two table columns, entry by entry. -/
theorem V1_v1_apply (c : Dev nD) (t : Fin 64) :
    (V1 m ρ c main_v1 : Vec F S64x1 .f32) (ix2 t (0 : Fin 1)) = (m ((c : Thread nD τ).loc main_arg1) : Vec F S64 .f32) (ix1 t) := by
  have e : (V1 m ρ c main_v1 : Vec F S64x1 .f32)
      = shapeCast S64x1 (W0 m ρ c (Proc.devRef .tc main_arg1) : Vec F S64 .f32) shapeCasts_S64_S64x1 := by
    show StableHlo.after main_part0_ops0 _ (Proc.devRef .tc main_v1) = _
    after_results
    rfl
  rw [e]
  exact col_apply _ _ t
theorem V1_v2_apply (c : Dev nD) (t : Fin 64) :
    (V1 m ρ c main_v2 : Vec F S64x1 .f32) (ix2 t (0 : Fin 1)) = (m ((c : Thread nD τ).loc main_arg2) : Vec F S64 .f32) (ix1 t) := by
  have e : (V1 m ρ c main_v2 : Vec F S64x1 .f32)
      = shapeCast S64x1 (W0 m ρ c (Proc.devRef .tc main_arg2) : Vec F S64 .f32) shapeCasts_S64_S64x1 := by
    show StableHlo.after main_part0_ops0 _ (Proc.devRef .tc main_v2) = _
    after_results
    rfl
  rw [e]
  exact col_apply _ _ t

/-! The last three reshapes, from any contents `V`: each result buffer is the reshaped argument buffer of `V`. -/

theorem ops4_v57 (V : Valuation τ sig (Elt F)) :
    (StableHlo.after (main_part1_ops2 : List (HloOp τ sig (Elt F))) V (Proc.devRef .tc main_v57) : Vec F S512x1 .i32)
      = shapeCast S512x1 (V (Proc.devRef .tc main_arg10) : Vec F S512 .i32) shapeCasts_S512_S512x1 := by
  after_results
  rfl
theorem ops4_v58 (V : Valuation τ sig (Elt F)) :
    (StableHlo.after (main_part1_ops2 : List (HloOp τ sig (Elt F))) V (Proc.devRef .tc main_v58) : Vec F S512x1 .f32)
      = shapeCast S512x1 (V (Proc.devRef .tc main_arg4) : Vec F S512 .f32) shapeCasts_S512_S512x1 := by
  after_results
  rfl
theorem ops4_v59 (V : Valuation τ sig (Elt F)) :
    (StableHlo.after (main_part1_ops2 : List (HloOp τ sig (Elt F))) V (Proc.devRef .tc main_v59) : Vec F S1x1 .f32)
      = shapeCast S1x1 (V (Proc.devRef .tc main_arg6) : Vec F S1 .f32) shapeCasts_S1_S1x1 := by
  after_results
  rfl

/-- The decision columns, the decision values and the bias as columns, entry by entry; the weights as launched. -/
theorem V6_v57_apply (c : Dev nD) (d : Fin 512) :
    (V6 m ρ c main_v57 : Vec F S512x1 .i32) (ix2 d (0 : Fin 1)) = (m ((c : Thread nD τ).loc main_arg10) : Vec F S512 .i32) (ix1 d) := by
  have e : (V6 m ρ c main_v57 : Vec F S512x1 .i32)
      = shapeCast S512x1 (W5 m ρ c (Proc.devRef .tc main_arg10) : Vec F S512 .i32) shapeCasts_S512_S512x1 :=
    ops4_v57 (W5 m ρ c)
  rw [e, W5_arg m ρ c main_arg10 (by simp [args]) (by decide)]
  exact col_apply _ _ d
theorem V6_v58_apply (c : Dev nD) (d : Fin 512) :
    (V6 m ρ c main_v58 : Vec F S512x1 .f32) (ix2 d (0 : Fin 1)) = (m ((c : Thread nD τ).loc main_arg4) : Vec F S512 .f32) (ix1 d) := by
  have e : (V6 m ρ c main_v58 : Vec F S512x1 .f32)
      = shapeCast S512x1 (W5 m ρ c (Proc.devRef .tc main_arg4) : Vec F S512 .f32) shapeCasts_S512_S512x1 :=
    ops4_v58 (W5 m ρ c)
  rw [e, W5_arg m ρ c main_arg4 (by simp [args]) (by decide)]
  exact col_apply _ _ d
theorem V6_arg5 (c : Dev nD) : V6 m ρ c main_arg5 = m ((c : Thread nD τ).loc main_arg5) := by
  exact W6_arg m ρ c main_arg5 (by simp [args]) (by decide)
theorem V6_v59_apply (c : Dev nD) :
    (V6 m ρ c main_v59 : Vec F S1x1 .f32) (ix2 (0 : Fin 1) (0 : Fin 1)) = (m ((c : Thread nD τ).loc main_arg6) : Vec F S1 .f32) (ix1 (0 : Fin 1)) := by
  have e : (V6 m ρ c main_v59 : Vec F S1x1 .f32)
      = shapeCast S1x1 (W5 m ρ c (Proc.devRef .tc main_arg6) : Vec F S1 .f32) shapeCasts_S1_S1x1 :=
    ops4_v59 (W5 m ρ c)
  rw [e, W5_arg m ρ c main_arg6 (by simp [args]) (by decide)]
  exact col_apply _ _ (0 : Fin 1)

/-- At the padding's entry the hops' outcome is the four hops of the first call's result, over the edge arrays as
    launched: the fourth hop's operands are read back through the two stretches. -/
theorem W4_v55 (c : Dev nD) :
    (W4 m ρ c (Proc.devRef .tc main_v55) : (⟨S100000x16, .f32⟩ : BufTy).Contents (Elt F))
      = layers4 (V2 m ρ c main_v3) (m ((c : Thread nD τ).loc main_arg3)) (m ((c : Thread nD τ).loc main_arg8)) (m ((c : Thread nD τ).loc main_arg9)) := by
  have h43 : W3 m ρ c (Proc.devRef .tc main_v43) = _ := ops1_v43 (W2 m ρ c)
  have h48 : W3 m ρ c (Proc.devRef .tc main_v48) = _ := ops1_v48 (W2 m ρ c)
  have h42 : W3 m ρ c (Proc.devRef .tc main_v42) = _ := ops1_v42 (W2 m ρ c)
  have h8 := W3_arg m ρ c main_arg8 (by simp [args]) (by decide)
  have g3 := W2_arg m ρ c main_arg3 (by simp [args]) (by decide)
  have g8 := W2_arg m ρ c main_arg8 (by simp [args]) (by decide)
  have g9 := W2_arg m ρ c main_arg9 (by simp [args]) (by decide)
  refine (ops2_v55 (W3 m ρ c)).trans ?_
  rw [h43, h48, h42, h8, g3, g8, g9]
  rfl

end

section
variable (m : (ℓ : Loc nD τ sig) → Buf (Elt Ideal) ℓ) (ρ : Dev nD → PrngReg)

/-- The second call's first operand: the four hops of the first call's result, padded below with zero rows. -/
theorem V6_v56_apply (c : Dev nD) (n : Fin 100352) (b : Fin 16) :
    (V6 m ρ c main_v56 : Vec Ideal S100352x16 .f32) (ix2 n b)
      = if hn : n.val < 100000 then
          (layers4 (F := Ideal) (V2 m ρ c main_v3) (m ((c : Thread nD τ).loc main_arg3)) (m ((c : Thread nD τ).loc main_arg8)) (m ((c : Thread nD τ).loc main_arg9))
            : Vec Ideal S100000x16 .f32) (ix2 (⟨n.val, hn⟩ : Fin 100000) b)
        else 0 := by
  have e6 : V6 m ρ c main_v56 = W5 m ρ c (Proc.devRef .tc main_v56) := ops4_v56 (W5 m ρ c)
  have e5 : (W5 m ρ c (Proc.devRef .tc main_v56) : Vec Ideal S100352x16 .f32) = _ := ops3_v56 (W4 m ρ c)
  have ec : (W4 m ρ c (Proc.devRef .tc main_c_10) : IVec S_ 32) = _ := ops2_c10 (W3 m ρ c)
  rw [e6, e5, W4_v55 m ρ c, ec]
  by_cases hn : n.val < 100000
  · rw [dif_pos hn]
    exact pad_apply_of_inside _ _ _ _ _ _ _ (ix2 n b) (ix2 (⟨n.val, hn⟩ : Fin 100000) b) (by
      intro a
      match a with
      | ⟨0, _⟩ => show n.val = 0 + n.val * (0 + 1); omega
      | ⟨1, _⟩ => show b.val = 0 + b.val * (0 + 1); omega)
  · rw [dif_neg hn, pad_apply_of_not_inside _ _ _ _ _ _ _ (ix2 n b) (0 : Fin 2) (by
      intro hin
      have h3 : (n.val - 0) / (0 + 1) < 100000 := hin.2.2
      omega)]
    show (((0#32 : BitVec 32).toInt : ℝ) : EReal) = 0
    rw [show (0#32 : BitVec 32).toInt = 0 from by decide]
    simp

end

end Cert.KernelIdeal.Hand

end
-- ==== Proof.Spec.lean ====
/-
  The two sides of the equivalence as plain functions of the argument arrays, over the extended reals.

  Kernel side (no hypothesis on the indices): a table entry is selected by a ONE-HOT product,
      pick64 i tab   = Σ_{t<64} [i = t] · tab t,
      hot hp dc d b  = Σ_{n<100352} [dc d = n] · hp (n, b)          (hp the activations padded with 352 zero rows),
  so the first stage is  x(n,b) · pick64 (idx n) tw + pick64 (idx n) tb  and the last one
      out(b) = Σ_{d<512} fw d · (hot hp dc d b · dv d) + fb.
  Reference side: the same entries READ at the index's value (`tabAt`, `rowAt`; total functions: outside the
  table they are 0, a case the range hypotheses exclude).  Where every type index is below 64 and every decision
  column below 100000 the one-hot sums collapse to the entry read (a product with 0 is 0 and with 1 is the other
  factor, also at ±∞, and a sum of zeros and one term is that term), which is what joins the two sides.
-/
import Idealize.ShloMosaic.PureOps.Ideal
import Idealize.ShloMosaic.Lib.ValueIdx

noncomputable section

namespace Cert.Proof.Spec

open Idealize.ShloMosaic Idealize.ShloMosaic.ValueIdx

/-- Activations [neuron, batch], and the same padded to 100352 rows. -/
abbrev SA : Shape := ⟨2, ![100000, 16]⟩
abbrev SAp : Shape := ⟨2, ![100352, 16]⟩
/-- Per-neuron type indices, as a vector and as a column. -/
abbrev SI : Shape := ⟨1, ![100000]⟩
abbrev SI2 : Shape := ⟨2, ![100000, 1]⟩
/-- The 64-entry type tables, as vectors and as columns. -/
abbrev ST : Shape := ⟨1, ![64]⟩
abbrev ST2 : Shape := ⟨2, ![64, 1]⟩
/-- The 512 decision entries, as vectors and as columns; the weights row; the bias; the result. -/
abbrev SD : Shape := ⟨1, ![512]⟩
abbrev SD2 : Shape := ⟨2, ![512, 1]⟩
abbrev SW : Shape := ⟨2, ![1, 512]⟩
abbrev SB : Shape := ⟨1, ![1]⟩
abbrev SB2 : Shape := ⟨2, ![1, 1]⟩
abbrev SO : Shape := ⟨2, ![16, 1]⟩

/-! ## The kernel's side: one-hot products -/

/-- The one-hot selection of a 64-row column table by a 32-bit index. -/
def pick64 (i : BitVec 32) (tab : Vec Ideal ST2 .f32) : EReal :=
  ∑ t : Fin 64, (if i = BitVec.ofNat 32 t.val then (1 : EReal) else 0) * tab (ix2 t (0 : Fin 1))

/-- The per-neuron affine map with one-hot selected scale and bias. -/
def affine (x : Vec Ideal SA .f32) (idx : IVec SI2 32) (tw tb : Vec Ideal ST2 .f32) : Vec Ideal SA .f32 :=
  fun j => x j * pick64 (idx (ix2 (j 0 : Fin 100000) (0 : Fin 1))) tw + pick64 (idx (ix2 (j 0 : Fin 100000) (0 : Fin 1))) tb

/-- The one-hot selection of a row of the padded activations. -/
def hot (hp : Vec Ideal SAp .f32) (dc : IVec SD2 32) (d : Fin 512) (b : Fin 16) : EReal :=
  ∑ n : Fin 100352, (if dc (ix2 d (0 : Fin 1)) = BitVec.ofNat 32 n.val then (1 : EReal) else 0) * hp (ix2 n b)

/-- The decision rows scaled and contracted with the weights, plus the bias. -/
def fcOut (hp : Vec Ideal SAp .f32) (dc : IVec SD2 32) (dv : Vec Ideal SD2 .f32) (fw : Vec Ideal SW .f32) (fb : Vec Ideal SB2 .f32) :
    Vec Ideal SO .f32 :=
  fun j => (∑ d : Fin 512, fw (ix2 (0 : Fin 1) d) * (hot hp dc d (j 0 : Fin 16) * dv (ix2 d (0 : Fin 1)))) + fb (ix2 (0 : Fin 1) (0 : Fin 1))

/-! ## The reference's side: entries read at the index -/

/-- A 64-entry table read at a 32-bit index (0 outside the table). -/
def tabAt (tab : Vec Ideal ST .f32) (i : BitVec 32) : EReal :=
  if h : i.toNat < 64 then tab (ix1 (⟨i.toNat, h⟩ : Fin 64)) else 0

/-- A row of the activations read at a 32-bit index (0 outside the array). -/
def rowAt (h : Vec Ideal SA .f32) (i : BitVec 32) (b : Fin 16) : EReal :=
  if hi : i.toNat < 100000 then h (ix2 (⟨i.toNat, hi⟩ : Fin 100000) b) else 0

/-- The per-neuron affine map with scale and bias read at the neuron's type index. -/
def refAffine (x : Vec Ideal SA .f32) (idx : IVec SI 32) (tw tb : Vec Ideal ST .f32) : Vec Ideal SA .f32 :=
  fun j => x j * tabAt tw (idx (ix1 (j 0 : Fin 100000))) + tabAt tb (idx (ix1 (j 0 : Fin 100000)))

/-- The decision rows read at their columns, scaled, contracted with the weights, plus the bias. -/
def refOut (h : Vec Ideal SA .f32) (dc : IVec SD 32) (dv : Vec Ideal SD .f32) (fw : Vec Ideal SW .f32) (fb : Vec Ideal SB .f32) :
    Vec Ideal SO .f32 :=
  fun j => (∑ d : Fin 512, (dv (ix1 d) * rowAt h (dc (ix1 d)) (j 0 : Fin 16)) * fw (ix2 (0 : Fin 1) d)) + fb (ix1 (0 : Fin 1))

end Cert.Proof.Spec

end
-- ==== Proof.KI.Value0.lean ====
/-
  What the first pallas_call leaves in its result array, at the ideal instance: row n of the result is
  x(n,·) · scale(n) + bias(n), the scale and the bias the one-hot products of the neuron's type index with the two
  64-row tables.  Point t of the grid writes rows 2000·t … 2000·t+1999, so the 50 points cover the array, and each
  block is the restriction of one whole-array function.
-/
import proofs.«424385_j26474178412845_1_alg».proof.Proof.KI.Region0
import proofs.«424385_j26474178412845_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Proof

variable (V : (c : Dev nD) → (b : Ref sig .tc) → Buf (Elt Ideal) ((c : Thread nD τ).loc b))

namespace Affine

/-! ## The payload at an index -/

/-- The contraction of the one-hot product: the left operand's row is the output's row, -/
theorem lhs_onehot_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
/-- its column the contraction index, -/
theorem lhs_onehot_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
/-- the right operand's row the contraction index, -/
theorem rhs_onehot_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
/-- and its column the output's column. -/
theorem rhs_onehot_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- A product of a [2000,64] matrix with a 64-row column, into zero, read at row p: the sum over the 64 columns. -/
theorem matmul_col_apply (A : FVec Ideal S2000x64 .bf16) (B : FVec Ideal S64x1 .bf16) (p : Fin 2000) :
    (matmul dot_S2000x64_S64x1_S2000x1_1_0_0_1_n_n none A B (constant (F := Ideal) S2000x1 .f32 0x00000000#32) : FVec Ideal S2000x1 .f32) (ix2 p (0 : Fin 1))
      = ∑ t : Fin 64, A (ix2 p t) * B (ix2 t (0 : Fin 1)) := by
  simp only [matmul]
  rw [Ideal.matmul_constant_zero_apply, ← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 p (0 : Fin 1)) ((ValueIdx.contrEquiv1 dot_S2000x64_S64x1_S2000x1_1_0_0_1_n_n 64 rfl rfl).symm k) = ix2 p k := funext fun a => Fin.ext (by
    match a with
    | ⟨0, _⟩ => exact lhs_onehot_0 _ _
    | ⟨1, _⟩ => exact (lhs_onehot_1 _ _).trans hk)
  have er : dot_S2000x64_S64x1_S2000x1_1_0_0_1_n_n.rhsIdx (ix2 p (0 : Fin 1)) ((ValueIdx.contrEquiv1 dot_S2000x64_S64x1_S2000x1_1_0_0_1_n_n 64 rfl rfl).symm k) = ix2 k (0 : Fin 1) := funext fun a => Fin.ext (by
    match a with
    | ⟨0, _⟩ => exact (rhs_onehot_0 _ _).trans hk
    | ⟨1, _⟩ => exact rhs_onehot_1 _ _)
  rw [el, er]

/-- A [a,1] column broadcast along the rows of [a,b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The conversion of a widened equality bit: 1 where the words agree and 0 elsewhere. -/
theorem onehot_word (a b : BitVec 32) :
    (FloatOps.sitofp (F := Ideal) .f32 ((IntOp.cmpi .eq a b).setWidth 32) : EReal) = if a = b then 1 else 0 := by
  by_cases h : a = b
  · subst h
    rw [if_pos rfl]
    show ((((BitVec.setWidth 32 (BitVec.ofBool (a == a))).toInt : ℤ) : ℝ) : EReal) = 1
    rw [show (a == a) = true from by simp, show (BitVec.setWidth 32 (BitVec.ofBool true)).toInt = 1 from by decide]
    simp
  · rw [if_neg h]
    show ((((BitVec.setWidth 32 (BitVec.ofBool (a == b))).toInt : ℤ) : ℝ) : EReal) = 0
    rw [show (a == b) = false from by simpa using h, show (BitVec.setWidth 32 (BitVec.ofBool false)).toInt = 0 from by decide]
    simp

/-- The one-hot matrix at (p, t): 1 where row p's index is t and 0 elsewhere. -/
theorem onehot_apply (ix : IVec S2000x1 32) (p : Fin 2000) (t : Fin 64) :
    (sitofp (F := Ideal) .f32 (extui 32 (cmpi .eq (broadcastTo S2000x64 ix broadcasts_S2000x1_S2000x64)
        (iota .tc S2000x64 32 [1] iota_S2000x64_d1_w32)) natLt_1_32) : FVec Ideal S2000x64 .f32) (ix2 p t)
      = if ix (ix2 p (0 : Fin 1)) = BitVec.ofNat 32 t.val then 1 else 0 := by
  rw [sitofp_apply, extui_apply]
  show FloatOps.sitofp (F := Ideal) .f32 ((IntOp.cmpi .eq (broadcastTo S2000x64 ix broadcasts_S2000x1_S2000x64 (ix2 p t))
      (iota .tc S2000x64 32 [1] iota_S2000x64_d1_w32 (ix2 p t))).setWidth 32) = _
  rw [broadcastTo_a1_ab_apply, iota_single_apply]
  exact onehot_word _ _

/-- The payload at row p, column q: the x entry scaled by the one-hot selected scale, plus the selected bias. -/
theorem pay_apply (ix : Vec Ideal S2000x1 .i32) (tw tb : Vec Ideal S64x1 .f32) (x : Vec Ideal S2000x16 .f32) (p : Fin 2000) (q : Fin 16) :
    k0_pay1 (F := Ideal) ix tw tb x (ix2 p q)
      = x (ix2 p q) * Spec.pick64 (ix (ix2 p (0 : Fin 1))) tw + Spec.pick64 (ix (ix2 p (0 : Fin 1))) tb := by
  unfold k0_pay1 Spec.pick64
  simp only [shapeCast_self]
  rw [addf_apply, mulf_apply, broadcastTo_a1_ab_apply, broadcastTo_a1_ab_apply, matmul_col_apply, matmul_col_apply]
  simp only [truncf_apply]
  refine congrArg₂ (· + ·) (congrArg (x (ix2 p q) * ·) (Finset.sum_congr rfl fun t _ => ?_)) (Finset.sum_congr rfl fun t _ => ?_)
  · exact congrArg (· * tw (ix2 t (0 : Fin 1))) (onehot_apply ix p t)
  · exact congrArg (· * tb (ix2 t (0 : Fin 1))) (onehot_apply ix p t)

/-! ## From blocks to the array -/

theorem hz0 : (![0, 0] : Fin 2 → Nat) = fun _ => 0 := funext fun a => by fin_cases a <;> rfl

/-- The index maps over the 50 points: x, the index column and the result move by one block of 2000 rows per point;
    the two tables stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point t's block of x is rows 2000·t … of the array. -/
theorem iblk0_0_apply (c : Dev nD) (t : Fin cfg0.N) (y : S2000x16.Idx) (i : S100000x16.Idx)
    (h0 : (i 0).val = t.val * 2000 + (y 0).val) (h1 : (i 1).val = (y 1).val) :
    (iblk0 (F := Ideal) V c 0 t : Vec Ideal S2000x16 .f32) y = (V c main_arg0 : Vec Ideal S100000x16 .f32) i := by
  obtain ⟨e0, e1, -⟩ := idx_facts0 t
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 16 + 1 * (y 1).val = (i 1).val; omega

/-- Point t's block of the index column is rows 2000·t … of the column. -/
theorem iblk0_1_apply (c : Dev nD) (t : Fin cfg0.N) (y : S2000x1.Idx) (i : S100000x1.Idx)
    (h0 : (i 0).val = t.val * 2000 + (y 0).val) (h1 : (i 1).val = (y 1).val) :
    (iblk0 (F := Ideal) V c 1 t : Vec Ideal S2000x1 .i32) y = (V c main_v0 : Vec Ideal S100000x1 .i32) i := by
  obtain ⟨-, -, e0, e1, -⟩ := idx_facts0 t
  show V c main_v0 (((cfg0.win 1).blk t).view.emb y) = V c main_v0 i
  refine congrArg _ (funext fun a => Fin.ext ?_)
  match a with
  | ⟨0, _⟩ => show win0_1.index t (0 : Fin 2) * 2000 + 1 * (y 0).val = (i 0).val; omega
  | ⟨1, _⟩ => show win0_1.index t (1 : Fin 2) * 1 + 1 * (y 1).val = (i 1).val; omega

/-- Every point's block of the scale table is the table, -/
theorem iblk0_2_eq (c : Dev nD) (t : Fin cfg0.N) :
    (iblk0 (F := Ideal) V c 2 t : Vec Ideal S64x1 .f32) = (V c main_v1 : Vec Ideal S64x1 .f32) := by
  obtain ⟨-, -, -, -, e0, e1, -⟩ := idx_facts0 t
  funext y
  show V c main_v1 (((cfg0.win 2).blk t).view.emb y) = V c main_v1 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 1 + 1 * (y 1).val = (y 1).val; omega

/-- and of the bias table the table. -/
theorem iblk0_3_eq (c : Dev nD) (t : Fin cfg0.N) :
    (iblk0 (F := Ideal) V c 3 t : Vec Ideal S64x1 .f32) = (V c main_v2 : Vec Ideal S64x1 .f32) := by
  obtain ⟨-, -, -, -, -, -, e0, e1, -⟩ := idx_facts0 t
  funext y
  show V c main_v2 (((cfg0.win 3).blk t).view.emb y) = V c main_v2 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 1 + 1 * (y 1).val = (y 1).val; omega

/-- The payload of blocks that are rows 2000·n … of whole arrays is the affine map of the arrays at those rows. -/
theorem block_affine (X : Vec Ideal S100000x16 .f32) (I : IVec S100000x1 32) (tw tb : Vec Ideal S64x1 .f32)
    (x : Vec Ideal S2000x16 .f32) (ix : Vec Ideal S2000x1 .i32) (n : ℕ)
    (hx : ∀ (y : S2000x16.Idx) (i : S100000x16.Idx), (i 0).val = n * 2000 + (y 0).val → (i 1).val = (y 1).val → x y = X i)
    (hix : ∀ (y : S2000x1.Idx) (i : S100000x1.Idx), (i 0).val = n * 2000 + (y 0).val → (i 1).val = (y 1).val → ix y = I i)
    (y : S2000x16.Idx) (i : S100000x16.Idx) (h0 : (i 0).val = n * 2000 + (y 0).val) (h1 : (i 1).val = (y 1).val) :
    k0_pay1 (F := Ideal) ix tw tb x y = Spec.affine X I tw tb i := by
  obtain ⟨p, q, rfl⟩ : ∃ (p : Fin 2000) (q : Fin 16), y = ix2 p q := ⟨y 0, y 1, eq_ix2 y⟩
  rw [pay_apply, hx (ix2 p q) i h0 h1, hix (ix2 p (0 : Fin 1)) (ix2 (i 0 : Fin 100000) (0 : Fin 1)) h0 rfl]
  rfl

/-- What point t writes back is block t of the affine map of the arrays the region was entered with. -/
theorem flushed0_eq (c : Dev nD) (t : Fin cfg0.N) :
    (dat0 (F := Ideal) V c).flushed 4 t
      = ((cfg0.win 4).blk t).view.read (Elt Ideal) (Spec.affine (V c main_arg0) (V c main_v0) (V c main_v1) (V c main_v2)) := by
  show (cfg0.win 4).cut (grid0.coords t) ((dat0 (F := Ideal) V c).after 4 t) = _
  rw [after0_4]
  unfold out0_4
  rw [View.canon_unit_zero hz0]
  simp only [View.ld_unit_zero (S := S2000x16) hz0, View.ld_unit_zero (S := S2000x1) hz0, View.ld_unit_zero (S := S64x1) hz0]
  rw [iblk0_2_eq, iblk0_3_eq]
  obtain ⟨-, -, -, -, -, -, -, -, e0, e1⟩ := idx_facts0 t
  funext j
  refine block_affine _ _ _ _ _ _ t.val (fun y i h0 h1 => iblk0_0_apply V c t y i h0 h1) (fun y i h0 h1 => iblk0_1_apply V c t y i h0 h1)
    j (((cfg0.win 4).blk t).view.emb j) ?_ ?_
  · show win0_4.index t (0 : Fin 2) * 2000 + 1 * (j 0).val = t.val * 2000 + (j 0).val; omega
  · show win0_4.index t (1 : Fin 2) * 16 + 1 * (j 1).val = (j 1).val; omega

/-- An index of the result array is in point t's block iff each coordinate is in the block's range on its axis. -/
theorem mem_blk0 (t : Fin cfg0.N) (i : S100000x16.Idx) :
    i ∈ ((cfg0.win 4).blk t).view.set ↔ ∀ a : Fin 2, win0_4.index t a * S2000x16.size a ≤ (i a).val ∧ (i a).val < win0_4.index t a * S2000x16.size a + S2000x16.size a := by
  show i ∈ ((View.whole main_v3).slice (win0_4.rect t)).set ↔ _
  rw [View.set_slice_whole, Rect.mem_set_unit]
  exact Iff.rfl

/-- Row r of the result array is in the block of point r / 2000. -/
theorem cover0 (i : S100000x16.Idx) : ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 50 := N_0
  have ht : (i 0).val / 2000 < cfg0.N := by omega
  obtain ⟨-, -, -, -, -, -, -, -, e0, e1⟩ := idx_facts0 ⟨(i 0).val / 2000, ht⟩
  refine ⟨⟨(i 0).val / 2000, ht⟩, flush0_4 _, ?_⟩
  rw [mem_blk0]
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ (1 : Fin 2) * 16 ≤ (i 1).val ∧ (i 1).val < win0_4.index ⟨(i 0).val / 2000, ht⟩ (1 : Fin 2) * 16 + 16
    rw [e1]; omega

end Affine

/-- The result array after the region is the affine map of the arrays the region was entered with. -/
theorem arr0_eq (c : Dev nD) :
    ((dat0 (F := Ideal) V c).arrAt 4 cfg0.N : Vec Ideal S100000x16 .f32)
      = Spec.affine (V c main_arg0) (V c main_v0) (V c main_v1) (V c main_v2) :=
  (dat0 (F := Ideal) V c).arrAt_eq_of_cover 4 (Spec.affine (V c main_arg0) (V c main_v0) (V c main_v1) (V c main_v2))
    (fun t _ => Affine.flushed0_eq V c t) Affine.cover0

end Cert.KernelIdeal.Hand

end
-- ==== Proof.KI.Value1.lean ====
/-
  What the second pallas_call leaves in its result array, at the ideal instance.  The scratch after point t holds
  the one-hot products of the decision columns with the first 2048·(t+1) rows of the padded activations (each point
  adds its own 2048 rows' share: a sum over 49 tiles of 2048 is the sum over 100352), and the last point stores
  Σ_d fw(d) · (scratch(d,b) · dv(d)) + fb, which is written back once, at the end.

  In order: the two matrix products read at an index (a sum over the one contracted axis), the one-hot entry as a word
  fact (an equality test widened and converted is 1 or 0; words are a ring modulo 2^32, so column k of tile t is row
  2048·t + k with no range condition), the three payloads at explicit coordinates, the staged blocks read off the
  arrays (window 0 at point t is rows 2048·t … 2048·t + 2047, the others are whole), the scratch by induction on the
  point as a sum over an initial segment of the rows, and the result array: one write-back, at point 48, of a block
  that is the whole [16,1] array.
-/
import proofs.«424385_j26474178412845_1_alg».proof.Proof.KI.Region1
import proofs.«424385_j26474178412845_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Proof

variable (V : (c : Dev nD) → (b : Ref sig .tc) → Buf (Elt Ideal) ((c : Thread nD τ).loc b))

namespace Gather

/-! ## The two products' operand indices, axis by axis -/

theorem lhsA_0 (i : S512x16.Idx) (q : dot_S512x2048_S2048x16_S512x16_1_0_0_1_n_n.contr.Idx) :
    (dot_S512x2048_S2048x16_S512x16_1_0_0_1_n_n.lhsIdx i q 0).val = (i 0).val := by
  unfold DotDims.lhsIdx
  rw [dif_neg (show ¬(0 : Fin S512x2048.rank) ∈ dot_S512x2048_S2048x16_S512x16_1_0_0_1_n_n.lhsBatch by decide), dif_pos (show (0 : Fin S512x2048.rank) ∈ dot_S512x2048_S2048x16_S512x16_1_0_0_1_n_n.lhsNonContracting by decide)]
  rfl
theorem lhsA_1 (i : S512x16.Idx) (q : dot_S512x2048_S2048x16_S512x16_1_0_0_1_n_n.contr.Idx) :
    (dot_S512x2048_S2048x16_S512x16_1_0_0_1_n_n.lhsIdx i q 1).val = (q ⟨0, by decide⟩).val :=
  dot_S512x2048_S2048x16_S512x16_1_0_0_1_n_n.lhsIdx_val_of_single rfl i q
theorem rhsA_0 (i : S512x16.Idx) (q : dot_S512x2048_S2048x16_S512x16_1_0_0_1_n_n.contr.Idx) :
    (dot_S512x2048_S2048x16_S512x16_1_0_0_1_n_n.rhsIdx i q 0).val = (q ⟨0, by decide⟩).val :=
  dot_S512x2048_S2048x16_S512x16_1_0_0_1_n_n.rhsIdx_val_of_single rfl i q
theorem rhsA_1 (i : S512x16.Idx) (q : dot_S512x2048_S2048x16_S512x16_1_0_0_1_n_n.contr.Idx) :
    (dot_S512x2048_S2048x16_S512x16_1_0_0_1_n_n.rhsIdx i q 1).val = (i 1).val := by
  unfold DotDims.rhsIdx
  rw [dif_neg (show ¬(1 : Fin S2048x16.rank) ∈ dot_S512x2048_S2048x16_S512x16_1_0_0_1_n_n.rhsBatch by decide), dif_pos (show (1 : Fin S2048x16.rank) ∈ dot_S512x2048_S2048x16_S512x16_1_0_0_1_n_n.rhsNonContracting by decide)]
  rfl

theorem lhsB_0 (i : S1x16.Idx) (q : dot_S1x512_S512x16_S1x16_1_0_0_1_n_n.contr.Idx) :
    (dot_S1x512_S512x16_S1x16_1_0_0_1_n_n.lhsIdx i q 0).val = (i 0).val := by
  unfold DotDims.lhsIdx
  rw [dif_neg (show ¬(0 : Fin S1x512.rank) ∈ dot_S1x512_S512x16_S1x16_1_0_0_1_n_n.lhsBatch by decide), dif_pos (show (0 : Fin S1x512.rank) ∈ dot_S1x512_S512x16_S1x16_1_0_0_1_n_n.lhsNonContracting by decide)]
  rfl
theorem lhsB_1 (i : S1x16.Idx) (q : dot_S1x512_S512x16_S1x16_1_0_0_1_n_n.contr.Idx) :
    (dot_S1x512_S512x16_S1x16_1_0_0_1_n_n.lhsIdx i q 1).val = (q ⟨0, by decide⟩).val :=
  dot_S1x512_S512x16_S1x16_1_0_0_1_n_n.lhsIdx_val_of_single rfl i q
theorem rhsB_0 (i : S1x16.Idx) (q : dot_S1x512_S512x16_S1x16_1_0_0_1_n_n.contr.Idx) :
    (dot_S1x512_S512x16_S1x16_1_0_0_1_n_n.rhsIdx i q 0).val = (q ⟨0, by decide⟩).val :=
  dot_S1x512_S512x16_S1x16_1_0_0_1_n_n.rhsIdx_val_of_single rfl i q
theorem rhsB_1 (i : S1x16.Idx) (q : dot_S1x512_S512x16_S1x16_1_0_0_1_n_n.contr.Idx) :
    (dot_S1x512_S512x16_S1x16_1_0_0_1_n_n.rhsIdx i q 1).val = (i 1).val := by
  unfold DotDims.rhsIdx
  rw [dif_neg (show ¬(1 : Fin S512x16.rank) ∈ dot_S1x512_S512x16_S1x16_1_0_0_1_n_n.rhsBatch by decide), dif_pos (show (1 : Fin S512x16.rank) ∈ dot_S1x512_S512x16_S1x16_1_0_0_1_n_n.rhsNonContracting by decide)]
  rfl

/-- The [512,2048]·[2048,16] product into zero, at (d, b): the sum over the 2048 contracted rows. -/
theorem matA_apply (l : FVec Ideal S512x2048 .bf16) (r : FVec Ideal S2048x16 .bf16) (d : Fin 512) (b : Fin 16) :
    FloatOps.matmul dot_S512x2048_S2048x16_S512x16_1_0_0_1_n_n none l r (constant S512x16 .f32 0x00000000#32) (ix2 d b)
      = ∑ k : Fin 2048, l (ix2 d k) * r (ix2 k b) := by
  rw [Ideal.matmul_constant_zero_apply, ← Equiv.sum_comp (contrEquiv1 dot_S512x2048_S2048x16_S512x16_1_0_0_1_n_n 2048 rfl rfl).symm]
  refine Finset.sum_congr rfl fun k _ => ?_
  have hk := contrEquiv1_symm_val dot_S512x2048_S2048x16_S512x16_1_0_0_1_n_n 2048 rfl rfl k
  have el : dot_S512x2048_S2048x16_S512x16_1_0_0_1_n_n.lhsIdx (ix2 d b) ((contrEquiv1 dot_S512x2048_S2048x16_S512x16_1_0_0_1_n_n 2048 rfl rfl).symm k) = ix2 d k := funext fun a => Fin.ext (by
    match a with
    | ⟨0, _⟩ => exact lhsA_0 _ _
    | ⟨1, _⟩ => exact (lhsA_1 _ _).trans hk)
  have er : dot_S512x2048_S2048x16_S512x16_1_0_0_1_n_n.rhsIdx (ix2 d b) ((contrEquiv1 dot_S512x2048_S2048x16_S512x16_1_0_0_1_n_n 2048 rfl rfl).symm k) = ix2 k b := funext fun a => Fin.ext (by
    match a with
    | ⟨0, _⟩ => exact (rhsA_0 _ _).trans hk
    | ⟨1, _⟩ => exact rhsA_1 _ _)
  rw [el, er]

/-- The [1,512]·[512,16] product into zero, at (0, b): the sum over the 512 contracted entries. -/
theorem matB_apply (l : FVec Ideal S1x512 .bf16) (r : FVec Ideal S512x16 .bf16) (b : Fin 16) :
    FloatOps.matmul dot_S1x512_S512x16_S1x16_1_0_0_1_n_n none l r (constant S1x16 .f32 0x00000000#32) (ix2 (0 : Fin 1) b)
      = ∑ k : Fin 512, l (ix2 (0 : Fin 1) k) * r (ix2 k b) := by
  rw [Ideal.matmul_constant_zero_apply, ← Equiv.sum_comp (contrEquiv1 dot_S1x512_S512x16_S1x16_1_0_0_1_n_n 512 rfl rfl).symm]
  refine Finset.sum_congr rfl fun k _ => ?_
  have hk := contrEquiv1_symm_val dot_S1x512_S512x16_S1x16_1_0_0_1_n_n 512 rfl rfl k
  have el : dot_S1x512_S512x16_S1x16_1_0_0_1_n_n.lhsIdx (ix2 (0 : Fin 1) b) ((contrEquiv1 dot_S1x512_S512x16_S1x16_1_0_0_1_n_n 512 rfl rfl).symm k) = ix2 (0 : Fin 1) k := funext fun a => Fin.ext (by
    match a with
    | ⟨0, _⟩ => exact lhsB_0 _ _
    | ⟨1, _⟩ => exact (lhsB_1 _ _).trans hk)
  have er : dot_S1x512_S512x16_S1x16_1_0_0_1_n_n.rhsIdx (ix2 (0 : Fin 1) b) ((contrEquiv1 dot_S1x512_S512x16_S1x16_1_0_0_1_n_n 512 rfl rfl).symm k) = ix2 k b := funext fun a => Fin.ext (by
    match a with
    | ⟨0, _⟩ => exact (rhsB_0 _ _).trans hk
    | ⟨1, _⟩ => exact rhsB_1 _ _)
  rw [el, er]

/-! ## Words: the one-hot entry and the row number -/

/-- An equality test widened to a word and converted is 1 where the words agree and 0 elsewhere. -/
theorem onehot_word (x y : BitVec 32) :
    (FloatOps.sitofp (F := Ideal) .f32 ((IntOp.cmpi .eq x y).setWidth 32) : EReal) = if x = y then 1 else 0 := by
  by_cases h : x = y
  · have e : IntOp.cmpi .eq x y = 1#1 := by simp [IntOp.cmpi, h]
    rw [if_pos h, e]
    show (((((1#1 : BitVec 1).setWidth 32).toInt : ℤ) : ℝ) : EReal) = 1
    norm_num
  · have e : IntOp.cmpi .eq x y = 0#1 := by
      have hb : (x == y) = false := beq_eq_false_iff_ne.2 h
      show BitVec.ofBool (x == y) = 0#1
      rw [hb]; rfl
    rw [if_neg h, e]
    show (((((0#1 : BitVec 1).setWidth 32).toInt : ℤ) : ℝ) : EReal) = 0
    norm_num

/-- Words are a ring modulo 2^32: column k of tile t is row 2048·t + k, with no range condition. -/
theorem word_row (t k : Nat) : BitVec.ofNat 32 k + BitVec.ofNat 32 t * 2048#32 = BitVec.ofNat 32 (2048 * t + k) := by
  rw [BitVec.ofNat_add, BitVec.ofNat_mul, BitVec.add_comm, BitVec.mul_comm]

/-! ## The three payloads at an index -/

/-- The reset value is zero everywhere. -/
theorem pay1_apply (d : Fin 512) (b : Fin 16) : (k1_pay1 (F := Ideal)) (ix2 d b) = 0 := by
  unfold k1_pay1
  rw [shapeCast_self]
  exact Ideal.ofBits_zero_f32

/-- A point's update at (d, b): what was there plus the one-hot product of decision column d with the 2048 staged rows. -/
theorem pay2_apply (i : grid1.Coords) (dc : Vec Ideal S512x1 .i32) (hb : Vec Ideal S2048x16 .f32) (acc : Vec Ideal S512x16 .f32)
    (d : Fin 512) (b : Fin 16) :
    k1_pay2 i dc hb acc (ix2 d b)
      = acc (ix2 d b) + ∑ k : Fin 2048, (if dc (ix2 d (0 : Fin 1)) = BitVec.ofNat 32 (2048 * (i 0).val + k.val) then (1 : EReal) else 0) * hb (ix2 k b) := by
  unfold k1_pay2
  dsimp only
  rw [shapeCast_self]
  refine (addf_apply _ _ _).trans ?_
  refine congrArg (acc (ix2 d b) + ·) ?_
  refine (matA_apply _ _ d b).trans ?_
  refine Finset.sum_congr rfl fun k _ => ?_
  refine congrArg₂ (· * ·) ?_ ?_
  · refine (onehot_word _ _).trans ?_
    refine if_congr ?_ rfl rfl
    have e1 : broadcastTo S512x2048 (shapeCast S512x1 dc shapeCasts_S512x1_S512x1) broadcasts_S512x1_S512x2048 (ix2 d k) = dc (ix2 d (0 : Fin 1)) := by
      rw [shapeCast_self]
      exact broadcastTo_apply dc broadcasts_S512x1_S512x2048 (ix2 d k) (ix2 d (0 : Fin 1)) (fun a => match a with
        | ⟨0, _⟩ => rfl
        | ⟨1, _⟩ => rfl)
    have e2 : addi (iota .tc S512x2048 32 [1] iota_S512x2048_d1_w32) (broadcast S512x2048 (Scalar.muli (BitVec.ofNat 32 (i 0).val) 2048#32)) (ix2 d k)
        = BitVec.ofNat 32 (2048 * (i 0).val + k.val) := by
      show IntOp.addi (iota .tc S512x2048 32 [1] iota_S512x2048_d1_w32 (ix2 d k)) (Scalar.muli (BitVec.ofNat 32 (i 0).val) 2048#32) = _
      rw [iota_single_apply]
      exact word_row _ _
    show (broadcastTo S512x2048 (shapeCast S512x1 dc shapeCasts_S512x1_S512x1) broadcasts_S512x1_S512x2048 (ix2 d k)
        = addi (iota .tc S512x2048 32 [1] iota_S512x2048_d1_w32) (broadcast S512x2048 (Scalar.muli (BitVec.ofNat 32 (i 0).val) 2048#32)) (ix2 d k)) ↔ _
    rw [e1, e2]
  · show shapeCast S2048x16 hb shapeCasts_S2048x16_S2048x16 (ix2 k b) = hb (ix2 k b)
    rw [shapeCast_self]

/-- The final map at (b, 0): the weights contracted with the scaled scratch column b, plus the bias. -/
theorem pay3_apply (acc : Vec Ideal S512x16 .f32) (dv : Vec Ideal S512x1 .f32) (fw : Vec Ideal S1x512 .f32) (fb : Vec Ideal S1x1 .f32)
    (b : Fin 16) :
    k1_pay3 acc dv fw fb (ix2 b (0 : Fin 1))
      = (∑ d : Fin 512, fw (ix2 (0 : Fin 1) d) * (acc (ix2 d b) * dv (ix2 d (0 : Fin 1)))) + fb (ix2 (0 : Fin 1) (0 : Fin 1)) := by
  unfold k1_pay3
  dsimp only
  refine (addf_apply _ _ _).trans ?_
  refine congrArg₂ (· + ·) ?_ ?_
  · refine (transpose_apply [1, 0] _ transposes_S1x16_p1_0_S16x1 (ix2 b (0 : Fin 1)) (ix2 (0 : Fin 1) b) (fun a => match a with
      | ⟨0, _⟩ => rfl
      | ⟨1, _⟩ => rfl)).trans ?_
    refine (matB_apply _ _ b).trans ?_
    refine Finset.sum_congr rfl fun d _ => ?_
    refine congrArg₂ (· * ·) rfl ?_
    show acc (ix2 d b) * broadcastTo S512x16 (shapeCast S512x1 dv shapeCasts_S512x1_S512x1) broadcasts_S512x1_S512x16 (ix2 d b) = _
    rw [shapeCast_self]
    refine congrArg (acc (ix2 d b) * ·) ?_
    exact broadcastTo_apply dv broadcasts_S512x1_S512x16 (ix2 d b) (ix2 d (0 : Fin 1)) (fun a => match a with
      | ⟨0, _⟩ => rfl
      | ⟨1, _⟩ => rfl)
  · rw [shapeCast_self]
    exact broadcastTo_apply fb broadcasts_S1x1_S16x1 (ix2 b (0 : Fin 1)) (ix2 (0 : Fin 1) (0 : Fin 1)) (fun a => match a with
      | ⟨0, _⟩ => rfl
      | ⟨1, _⟩ => rfl)

/-! ## The blocks a point stages, read off the arrays -/

/-- The index maps over the grid: window 0 moves down one block of rows per point and the other five stay at the origin;
    a point's one coordinate is its number. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem coord1 : ∀ t : Fin cfg1.N, (grid1.coords t 0).val = t.val :=
  (by decide +kernel : ∀ t : Fin grid1.N, (grid1.coords t 0).val = t.val)

/-- Window 0 at point t, entry (k, b): row 2048·t + k of the padded activations. -/
theorem iblk1_0_apply (c : Dev nD) (t : Fin cfg1.N) (k : Fin 2048) (b : Fin 16) (r : Fin 100352) (hr : r.val = 2048 * t.val + k.val) :
    (iblk1 V c 0 t : Vec Ideal S2048x16 .f32) (ix2 k b) = (V c main_v56 : Vec Ideal Spec.SAp .f32) (ix2 r b) := by
  obtain ⟨h0, h1⟩ := idx1_0 t
  unfold iblk1
  rw [View.read_apply]
  show V c main_v56 _ = V c main_v56 _
  congr 1
  funext a
  apply Fin.ext
  match a with
  | ⟨0, _⟩ => show win1_0.index t 0 * 2048 + 1 * k.val = r.val; rw [h0, hr]; omega
  | ⟨1, _⟩ => show win1_0.index t 1 * 16 + 1 * b.val = b.val; rw [h1]; omega

/-- Windows 1 to 4 stage their whole arrays at every point. -/
theorem iblk1_1 (c : Dev nD) (t : Fin cfg1.N) : (iblk1 V c 1 t : Vec Ideal S512x1 .i32) = V c main_v57 := by
  obtain ⟨h0, h1⟩ := idx1_1 t
  have hz : (fun a => win1_1.index t a * main_v57.ty.shape.size a) = fun _ => 0 := funext fun a => by
    match a with
    | ⟨0, _⟩ => show win1_1.index t 0 * _ = 0; rw [h0, Nat.zero_mul]
    | ⟨1, _⟩ => show win1_1.index t 1 * _ = 0; rw [h1, Nat.zero_mul]
  unfold iblk1
  exact Memref.read_access_unit_zero (Elt Ideal) main_v57 hz (fun a => by rw [congrFun hz a]; simp) (V c main_v57)
theorem iblk1_2 (c : Dev nD) (t : Fin cfg1.N) : (iblk1 V c 2 t : Vec Ideal S512x1 .f32) = V c main_v58 := by
  obtain ⟨h0, h1⟩ := idx1_2 t
  have hz : (fun a => win1_2.index t a * main_v58.ty.shape.size a) = fun _ => 0 := funext fun a => by
    match a with
    | ⟨0, _⟩ => show win1_2.index t 0 * _ = 0; rw [h0, Nat.zero_mul]
    | ⟨1, _⟩ => show win1_2.index t 1 * _ = 0; rw [h1, Nat.zero_mul]
  unfold iblk1
  exact Memref.read_access_unit_zero (Elt Ideal) main_v58 hz (fun a => by rw [congrFun hz a]; simp) (V c main_v58)
theorem iblk1_3 (c : Dev nD) (t : Fin cfg1.N) : (iblk1 V c 3 t : Vec Ideal S1x512 .f32) = V c main_arg5 := by
  obtain ⟨h0, h1⟩ := idx1_3 t
  have hz : (fun a => win1_3.index t a * main_arg5.ty.shape.size a) = fun _ => 0 := funext fun a => by
    match a with
    | ⟨0, _⟩ => show win1_3.index t 0 * _ = 0; rw [h0, Nat.zero_mul]
    | ⟨1, _⟩ => show win1_3.index t 1 * _ = 0; rw [h1, Nat.zero_mul]
  unfold iblk1
  exact Memref.read_access_unit_zero (Elt Ideal) main_arg5 hz (fun a => by rw [congrFun hz a]; simp) (V c main_arg5)
theorem iblk1_4 (c : Dev nD) (t : Fin cfg1.N) : (iblk1 V c 4 t : Vec Ideal S1x1 .f32) = V c main_v59 := by
  obtain ⟨h0, h1⟩ := idx1_4 t
  have hz : (fun a => win1_4.index t a * main_v59.ty.shape.size a) = fun _ => 0 := funext fun a => by
    match a with
    | ⟨0, _⟩ => show win1_4.index t 0 * _ = 0; rw [h0, Nat.zero_mul]
    | ⟨1, _⟩ => show win1_4.index t 1 * _ = 0; rw [h1, Nat.zero_mul]
  unfold iblk1
  exact Memref.read_access_unit_zero (Elt Ideal) main_v59 hz (fun a => by rw [congrFun hz a]; simp) (V c main_v59)

/-! ## The scratch after point n: the one-hot product with the first 2048·(n+1) rows -/

/-- Row r's share of the one-hot product with the word w, at column b (nothing past the padded array's 100352 rows). -/
def rowTerm (hp : Vec Ideal Spec.SAp .f32) (w : BitVec 32) (b : Fin 16) (r : ℕ) : EReal :=
  if h : r < 100352 then (if w = BitVec.ofNat 32 r then (1 : EReal) else 0) * hp (ix2 (⟨r, h⟩ : Fin 100352) b) else 0

/-- A tile's product with a block that holds rows 2048·t … 2048·t + 2047 is the sum of those rows' shares. -/
theorem tile_sum (hp : Vec Ideal Spec.SAp .f32) (dc : Vec Ideal S512x1 .i32) (blk : Vec Ideal S2048x16 .f32) (t tv : ℕ) (ht : t < 49)
    (htv : tv = t) (b : Fin 16)
    (hblk : ∀ (k : Fin 2048) (r : Fin 100352), r.val = 2048 * t + k.val → blk (ix2 k b) = hp (ix2 r b)) (d : Fin 512) :
    ∑ k : Fin 2048, (if dc (ix2 d (0 : Fin 1)) = BitVec.ofNat 32 (2048 * tv + k.val) then (1 : EReal) else 0) * blk (ix2 k b)
      = ∑ k ∈ Finset.range 2048, rowTerm hp (dc (ix2 d (0 : Fin 1))) b (2048 * t + k) := by
  subst htv
  rw [Finset.sum_range]
  refine Finset.sum_congr rfl fun k _ => ?_
  have hk : k.val < 2048 := k.isLt
  have hr : 2048 * tv + k.val < 100352 := by omega
  unfold rowTerm
  rw [dif_pos hr, hblk k ⟨2048 * tv + k.val, hr⟩ rfl]

/-- After point n the scratch entry (d, b) is the one-hot product of decision column d with rows 0 … 2048·(n+1) − 1:
    point 0 starts from zero and every point adds its own tile's share. -/
theorem accAt1_apply (c : Dev nD) (d : Fin 512) (b : Fin 16) : ∀ (n : ℕ) (h : n < cfg1.N),
    accAt1 V c n h (ix2 d b)
      = ∑ r ∈ Finset.range (2048 * (n + 1)), rowTerm (V c main_v56) (V c main_v57 (ix2 d (0 : Fin 1))) b r
  | 0, h => by
    have hN : cfg1.N = 49 := N_1
    have e : accAt1 V c 0 h = k1_pay2 (grid1.coords ⟨0, h⟩) (iblk1 V c 1 ⟨0, h⟩) (iblk1 V c 0 ⟨0, h⟩) (k1_pay1 (F := Ideal)) := rfl
    rw [e]
    refine (pay2_apply (grid1.coords ⟨0, h⟩) (iblk1 V c 1 ⟨0, h⟩) (iblk1 V c 0 ⟨0, h⟩) (k1_pay1 (F := Ideal)) d b).trans ?_
    rw [pay1_apply, zero_add]
    refine (tile_sum (V c main_v56) (iblk1 V c 1 ⟨0, h⟩) (iblk1 V c 0 ⟨0, h⟩) 0 _ (by omega) (coord1 ⟨0, h⟩) b
      (fun k r hr => iblk1_0_apply V c ⟨0, h⟩ k b r hr) d).trans ?_
    rw [iblk1_1]
    simp only [Nat.mul_zero, Nat.zero_add, Nat.mul_one]
  | n + 1, h => by
    have hN : cfg1.N = 49 := N_1
    have e : accAt1 V c (n + 1) h = k1_pay2 (grid1.coords ⟨n + 1, h⟩) (iblk1 V c 1 ⟨n + 1, h⟩) (iblk1 V c 0 ⟨n + 1, h⟩)
        (accAt1 V c n (Nat.lt_of_succ_lt h)) := rfl
    rw [e]
    refine (pay2_apply (grid1.coords ⟨n + 1, h⟩) (iblk1 V c 1 ⟨n + 1, h⟩) (iblk1 V c 0 ⟨n + 1, h⟩)
      (accAt1 V c n (Nat.lt_of_succ_lt h)) d b).trans ?_
    rw [accAt1_apply c d b n (Nat.lt_of_succ_lt h)]
    rw [tile_sum (V c main_v56) (iblk1 V c 1 ⟨n + 1, h⟩) (iblk1 V c 0 ⟨n + 1, h⟩) (n + 1) _ (by omega) (coord1 ⟨n + 1, h⟩) b
      (fun k r hr => iblk1_0_apply V c ⟨n + 1, h⟩ k b r hr) d]
    rw [iblk1_1, show 2048 * (n + 1 + 1) = 2048 * (n + 1) + 2048 by omega, Finset.sum_range_add]

/-! ## The last point's store, and the array after the region -/

/-- The last point. -/
def tLast : Fin cfg1.N := ⟨48, Nat.lt_of_lt_of_eq (by decide : 48 < 49) N_1.symm⟩

/-- The final map of a scratch that holds the one-hot product with all 100352 rows is the target. -/
theorem fcOut_of_acc (hp : Vec Ideal Spec.SAp .f32) (dc : Vec Ideal S512x1 .i32) (dv : Vec Ideal S512x1 .f32) (fw : Vec Ideal S1x512 .f32)
    (fb : Vec Ideal S1x1 .f32) (acc : Vec Ideal S512x16 .f32)
    (hacc : ∀ (d : Fin 512) (b : Fin 16), acc (ix2 d b) = ∑ r ∈ Finset.range 100352, rowTerm hp (dc (ix2 d (0 : Fin 1))) b r) :
    k1_pay3 acc dv fw fb = Spec.fcOut hp dc dv fw fb := by
  funext j
  obtain ⟨b, z, rfl⟩ : ∃ (b : Fin 16) (z : Fin 1), j = ix2 b z := ⟨j 0, j 1, eq_ix2 j⟩
  obtain rfl : z = 0 := Subsingleton.elim _ _
  refine (pay3_apply acc dv fw fb b).trans ?_
  unfold Spec.fcOut
  refine congrArg (· + fb (ix2 (0 : Fin 1) (0 : Fin 1))) ?_
  refine Finset.sum_congr rfl fun d _ => ?_
  refine congrArg (fun x => fw (ix2 (0 : Fin 1) d) * (x * dv (ix2 d (0 : Fin 1)))) ?_
  rw [hacc d b]
  unfold Spec.hot
  rw [Finset.sum_range]
  refine Finset.sum_congr rfl fun n _ => ?_
  unfold rowTerm
  rw [dif_pos n.isLt]

/-- What point 48 stores is the target: its scratch holds the one-hot product with all 49 tiles' rows. -/
theorem outAt1_last (c : Dev nD) (t : Fin cfg1.N) (h48 : t.val = 48) :
    outAt1 V c t = Spec.fcOut (V c main_v56) (V c main_v57) (V c main_v58) (V c main_arg5) (V c main_v59) := by
  unfold outAt1
  rw [iblk1_2, iblk1_3, iblk1_4]
  exact fcOut_of_acc (V c main_v56) (V c main_v57) (V c main_v58) (V c main_arg5) (V c main_v59) (accAt1 V c t.val t.isLt)
    (fun d b => by rw [accAt1_apply V c d b t.val t.isLt, h48])

/-- The one write-back, at point 48, writes the target: its block is the whole [16,1] array. -/
theorem flushed1_eq (c : Dev nD) (t : Fin cfg1.N) (hf : (cfg1.win 5).flush t = true) :
    (dat1 V c).flushed 5 t = ((cfg1.win 5).blk t).view.read (Elt Ideal)
      (Spec.fcOut (V c main_v56) (V c main_v57) (V c main_v58) (V c main_arg5) (V c main_v59)) := by
  have hN : cfg1.N = 49 := N_1
  have h48 : t.val = 48 := by have := (flush1_5 t).mp hf; have := t.isLt; omega
  obtain ⟨h0, h1⟩ := idx1_5 t
  show (cfg1.win 5).cut (grid1.coords t) ((dat1 V c).after 5 t) = _
  rw [after1_5, outAt1_last V c t h48]
  have hz : (fun a => win1_5.index t a * main_v60.ty.shape.size a) = fun _ => 0 := funext fun a => by
    match a with
    | ⟨0, _⟩ => show win1_5.index t 0 * _ = 0; rw [h0, Nat.zero_mul]
    | ⟨1, _⟩ => show win1_5.index t 1 * _ = 0; rw [h1, Nat.zero_mul]
  exact (Memref.read_access_unit_zero (Elt Ideal) main_v60 hz (fun a => by rw [congrFun hz a]; simp)
    (Spec.fcOut (V c main_v56) (V c main_v57) (V c main_v58) (V c main_arg5) (V c main_v59))).symm

end Gather

/-- The result array after the region is the final stage of the arrays the region was entered with. -/
theorem arr1_eq (c : Dev nD) :
    ((dat1 (F := Ideal) V c).arrAt 5 cfg1.N : Vec Ideal S16x1 .f32)
      = Spec.fcOut (V c main_v56) (V c main_v57) (V c main_v58) (V c main_arg5) (V c main_v59) :=
  (dat1 V c).arrAt_eq_of_cover 5 (Spec.fcOut (V c main_v56) (V c main_v57) (V c main_v58) (V c main_arg5) (V c main_v59))
    (Gather.flushed1_eq V c) fun i =>
    ⟨Gather.tLast, (flush1_5 Gather.tLast).mpr rfl, by
      obtain ⟨h0, h1⟩ := Gather.idx1_5 Gather.tLast
      show i ∈ ((View.whole main_v60).slice (win1_5.rect Gather.tLast)).set
      rw [View.set_slice_whole, Rect.mem_set_unit]
      intro a
      have hi0 : (i 0 : Nat) < 16 := (i 0).isLt
      have hi1 : (i 1 : Nat) < 1 := (i 1).isLt
      match a with
      | ⟨0, _⟩ => show win1_5.index Gather.tLast 0 * 16 ≤ (i 0 : Nat) ∧ (i 0 : Nat) < win1_5.index Gather.tLast 0 * 16 + 16
                  rw [h0]; omega
      | ⟨1, _⟩ => show win1_5.index Gather.tLast 1 * 1 ≤ (i 1 : Nat) ∧ (i 1 : Nat) < win1_5.index Gather.tLast 1 * 1 + 1
                  rw [h1]; omega⟩

end Cert.KernelIdeal.Hand

end
-- ==== Proof.LibGather.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.RefValue.lean ====
/-
  The reference's result as a function of its arguments: the affine map with scale and bias read at each neuron's
  type index, four hops of the sparse product, then the decision rows read at their columns, scaled, contracted
  with the weights, plus the bias.  The four hops are carried as one function of the activations, never opened.
-/
import proofs.«424385_j26474178412845_1_alg».proof.Proof.Gen.ReferenceIdeal.Read
import proofs.«424385_j26474178412845_1_alg».proof.Proof.Spec
import proofs.«424385_j26474178412845_1_alg».proof.Proof.LibGather
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx
open Cert.Proof

variable {F : FTy → Type} [FloatOps F]

/-- One hop of the sparse product: the rows of `h` gathered at the edges' columns (a negative column wrapped by the
    array's length first), scaled by the edge weights, and summed into the edges' rows of a zero array. -/
def layer (h : (⟨S100000x16, .f32⟩ : BufTy).Contents (Elt F)) (w : (⟨S5000000, .f32⟩ : BufTy).Contents (Elt F))
    (rows cols : (⟨S5000000, .i32⟩ : BufTy).Contents (Elt F)) : (⟨S100000x16, .f32⟩ : BufTy).Contents (Elt F) :=
  Host.scatterAdd scatter_S100000x16_S5000000x1_S5000000x16_1_0_0_1
    (broadcastInDim S100000x16 ![] bcast_S_S100000x16 (constant S_ .f32 0x00000000#32))
    (broadcastInDim S5000000x1 ![0] bcast_S5000000_S5000000x1_0 rows)
    (mulf (broadcastInDim S5000000x16 ![0, 1] bcast_S5000000x1_S5000000x16_0_1 (broadcastInDim S5000000x1 ![0] bcast_S5000000_S5000000x1_0 w))
      (Host.gather gather_S100000x16_S5000000x1_S5000000x16_1_0_n_n_0_1_116 h
        (broadcastInDim S5000000x1 ![0] bcast_S5000000_S5000000x1_0
          (select (cmpi .slt cols (broadcastInDim S5000000 ![] bcast_S_S5000000 (constantI S_ 32 0#32)))
            (addi cols (broadcastInDim S5000000 ![] bcast_S_S5000000 (constantI S_ 32 100000#32))) cols))))

/-- The four hops. -/
def layers4 (h : (⟨S100000x16, .f32⟩ : BufTy).Contents (Elt F)) (w : (⟨S5000000, .f32⟩ : BufTy).Contents (Elt F))
    (rows cols : (⟨S5000000, .i32⟩ : BufTy).Contents (Elt F)) : (⟨S100000x16, .f32⟩ : BufTy).Contents (Elt F) :=
  layer (layer (layer (layer h w rows cols) w rows cols) w rows cols) w rows cols

/-! ## The four hops are the generated stages 20 to 71

Each hop's generated stages are one operation applied to earlier stages; unfolding their names gives the text of
`layer` at the stage before.  The gathers and scatters over the edges stay opaque: only names are unfolded. -/

/-- The first hop. -/
theorem hop1 (x0 : (⟨S100000x16, .f32⟩ : BufTy).Contents (Elt F)) (x1 x2 : (⟨S64, .f32⟩ : BufTy).Contents (Elt F))
    (x3 : (⟨S5000000, .f32⟩ : BufTy).Contents (Elt F)) (x7 : (⟨S100000, .i32⟩ : BufTy).Contents (Elt F))
    (x8 x9 : (⟨S5000000, .i32⟩ : BufTy).Contents (Elt F)) :
    val_main_v32 (F := F) x0 x1 x2 x3 x7 x8 x9 = layer (val_main_v19 (F := F) x0 x1 x2 x7) x3 x8 x9 := by
  simp only [val_main_v32, val_main_v31, val_main_v30, val_main_cst, val_main_v29, val_main_v28, val_main_v27, val_main_v26,
    val_main_v25, val_main_v24, val_main_v23, val_main_c_4, val_main_v22, val_main_v21, val_main_c_3, val_main_v20, layer]

/-- The second hop. -/
theorem hop2 (x0 : (⟨S100000x16, .f32⟩ : BufTy).Contents (Elt F)) (x1 x2 : (⟨S64, .f32⟩ : BufTy).Contents (Elt F))
    (x3 : (⟨S5000000, .f32⟩ : BufTy).Contents (Elt F)) (x7 : (⟨S100000, .i32⟩ : BufTy).Contents (Elt F))
    (x8 x9 : (⟨S5000000, .i32⟩ : BufTy).Contents (Elt F)) :
    val_main_v45 (F := F) x0 x1 x2 x3 x7 x8 x9 = layer (val_main_v32 (F := F) x0 x1 x2 x3 x7 x8 x9) x3 x8 x9 := by
  simp only [val_main_v45, val_main_v44, val_main_v43, val_main_cst_7, val_main_v42, val_main_v41, val_main_v40, val_main_v39,
    val_main_v38, val_main_v37, val_main_v36, val_main_c_6, val_main_v35, val_main_v34, val_main_c_5, val_main_v33, layer]

/-- The third hop. -/
theorem hop3 (x0 : (⟨S100000x16, .f32⟩ : BufTy).Contents (Elt F)) (x1 x2 : (⟨S64, .f32⟩ : BufTy).Contents (Elt F))
    (x3 : (⟨S5000000, .f32⟩ : BufTy).Contents (Elt F)) (x7 : (⟨S100000, .i32⟩ : BufTy).Contents (Elt F))
    (x8 x9 : (⟨S5000000, .i32⟩ : BufTy).Contents (Elt F)) :
    val_main_v58 (F := F) x0 x1 x2 x3 x7 x8 x9 = layer (val_main_v45 (F := F) x0 x1 x2 x3 x7 x8 x9) x3 x8 x9 := by
  simp only [val_main_v58, val_main_v57, val_main_v56, val_main_cst_10, val_main_v55, val_main_v54, val_main_v53, val_main_v52,
    val_main_v51, val_main_v50, val_main_v49, val_main_c_9, val_main_v48, val_main_v47, val_main_c_8, val_main_v46, layer]

/-- The fourth hop. -/
theorem hop4 (x0 : (⟨S100000x16, .f32⟩ : BufTy).Contents (Elt F)) (x1 x2 : (⟨S64, .f32⟩ : BufTy).Contents (Elt F))
    (x3 : (⟨S5000000, .f32⟩ : BufTy).Contents (Elt F)) (x7 : (⟨S100000, .i32⟩ : BufTy).Contents (Elt F))
    (x8 x9 : (⟨S5000000, .i32⟩ : BufTy).Contents (Elt F)) :
    val_main_v71 (F := F) x0 x1 x2 x3 x7 x8 x9 = layer (val_main_v58 (F := F) x0 x1 x2 x3 x7 x8 x9) x3 x8 x9 := by
  simp only [val_main_v71, val_main_v70, val_main_v69, val_main_cst_13, val_main_v68, val_main_v67, val_main_v66, val_main_v65,
    val_main_v64, val_main_v63, val_main_v62, val_main_c_12, val_main_v61, val_main_v60, val_main_c_11, val_main_v59, layer]

/-- Stage 71 is the four hops of stage 19. -/
theorem hops_eq (x0 : (⟨S100000x16, .f32⟩ : BufTy).Contents (Elt F)) (x1 x2 : (⟨S64, .f32⟩ : BufTy).Contents (Elt F))
    (x3 : (⟨S5000000, .f32⟩ : BufTy).Contents (Elt F)) (x7 : (⟨S100000, .i32⟩ : BufTy).Contents (Elt F))
    (x8 x9 : (⟨S5000000, .i32⟩ : BufTy).Contents (Elt F)) :
    val_main_v71 (F := F) x0 x1 x2 x3 x7 x8 x9 = layers4 (val_main_v19 (F := F) x0 x1 x2 x7) x3 x8 x9 := by
  rw [hop4, hop3, hop2, hop1, layers4]

/-! ## The affine stage reads the two tables at the type index -/

/-- A word below 2³¹ is not negative as a signed integer, so the replacement of a negative index `i` by `i + n`
    leaves it alone. -/
theorem wrap_id (v n : BitVec 32) (hv : v.toNat < 2 ^ 31) :
    Scalar.select (IntOp.cmpi .slt v 0#32) (IntOp.addi v n) v = v := by
  have hc : IntOp.cmpi .slt v 0#32 = 0#1 := by
    apply eq_zero_of_ne_one
    rw [StableHlo.Predicate.slt_iff_toNat hv (by decide)]
    exact Nat.not_lt_zero _
  rw [hc, select_zero]

/-- A word below 2³¹ read as a signed integer and then as a natural number is its unsigned reading. -/
theorem toInt_toNat_small (v : BitVec 32) (hv : v.toNat < 2 ^ 31) : v.toInt.toNat = v.toNat := by
  rw [StableHlo.Predicate.toInt_eq_toNat_of_lt hv, Int.toNat_natCast]

/-- The wrapped type index at neuron `p` is the type index, when that is below 64. -/
theorem wrapped_idx (idx : (⟨S100000, .i32⟩ : BufTy).Contents (Elt F)) (p : Fin 100000) (h : (idx (ix1 p)).toNat < 64) :
    val_main_v5 (F := F) idx (StableHlo.Predicate.ixP p) = idx (ix1 p) := by
  have e5 : idx_main_v5 (StableHlo.Predicate.ixP p) = ix1 p := by
    funext a; match a with | ⟨0, _⟩ => rfl
  rw [val_main_v5_apply, e5, val_main_v4_apply, val_main_v1_apply, val_main_v0_apply, val_main_c_apply, val_main_v3_apply,
    val_main_v2_apply, val_main_c_0_apply]
  exact wrap_id _ _ (by omega)

/-- A 64-entry table gathered at the wrapped type indices reads, at neuron `p`, the table at `p`'s type index (the
    gather's clamp into the table is the identity on an index below 64). -/
theorem tab_read {α : Type} (tab : S64.Idx → α) (idx : (⟨S100000, .i32⟩ : BufTy).Contents (Elt F)) (p : Fin 100000)
    (h : (idx (ix1 p)).toNat < 64) :
    Host.gather gather_S64_S100000x1_S100000_n_0_n_n_0_1_1 tab (val_main_v5 (F := F) idx) (ix1 p)
      = tab (ix1 (⟨(idx (ix1 p)).toNat, h⟩ : Fin 64)) := by
  have e1 : (ix1 p : S100000.Idx) = Shape.Idx.ofFin p := Shape.Idx.eq_ofFin (ix1 p)
  have hg := StableHlo.Predicate.gather_take gather_S64_S100000x1_S100000_n_0_n_n_0_1_1 rfl rfl rfl rfl tab
    (val_main_v5 (F := F) idx) p (by decide)
  rw [← e1] at hg
  rw [hg]
  congr 1
  funext a
  obtain rfl : a = 0 := Subsingleton.elim _ _
  apply Fin.ext
  show min (val_main_v5 (F := F) idx (StableHlo.Predicate.ixP p)).toInt.toNat (64 - 1) = (idx (ix1 p)).toNat
  rw [wrapped_idx idx p h, toInt_toNat_small _ (by omega)]
  omega

/-- The two gathers of the type tables are the same operation on the same wrapped indices. -/
theorem v16_eq (tab : (⟨S64, .f32⟩ : BufTy).Contents (Elt F)) (idx : (⟨S100000, .i32⟩ : BufTy).Contents (Elt F)) :
    val_main_v16 (F := F) tab idx = val_main_v6 (F := F) tab idx := by
  simp only [val_main_v16, val_main_v15, val_main_v14, val_main_v13, val_main_v12, val_main_c_2, val_main_v11, val_main_v10,
    val_main_c_1, val_main_v6, val_main_v5, val_main_v4, val_main_v3, val_main_v2, val_main_c_0, val_main_v1, val_main_v0,
    val_main_c]

/-- Where every type index is below 64, the affine stage is the specification's. -/
theorem affine_eq (x0 : (⟨S100000x16, .f32⟩ : BufTy).Contents (Elt Ideal)) (x1 x2 : (⟨S64, .f32⟩ : BufTy).Contents (Elt Ideal))
    (x7 : (⟨S100000, .i32⟩ : BufTy).Contents (Elt Ideal)) (hI : ∀ n : Fin 100000, (x7 (ix1 n)).toNat < 64) :
    val_main_v19 (F := Ideal) x0 x1 x2 x7 = Spec.refAffine x0 x7 x1 x2 := by
  funext j
  obtain ⟨p, q, rfl⟩ : ∃ p q, j = ix2 p q := ⟨j 0, j 1, eq_ix2 j⟩
  have e7 : idx_main_v7 (idx_main_v8 (ix2 p q)) = ix1 p := by
    funext a; match a with | ⟨0, _⟩ => rfl
  have e17 : idx_main_v17 (idx_main_v18 (ix2 p q)) = ix1 p := by
    funext a; match a with | ⟨0, _⟩ => rfl
  rw [val_main_v19_apply, val_main_v9_apply, val_main_v8_apply, val_main_v7_apply, val_main_v18_apply, val_main_v17_apply,
    e7, e17, v16_eq]
  unfold val_main_v6
  rw [tab_read x1 x7 p (hI p), tab_read x2 x7 p (hI p)]
  show x0 (ix2 p q) * _ + _ = x0 (ix2 p q) * Spec.tabAt x1 (x7 (ix1 p)) + Spec.tabAt x2 (x7 (ix1 p))
  unfold Spec.tabAt
  rw [dif_pos (hI p), dif_pos (hI p)]

/-! ## The result: the decision rows read at their columns, scaled, contracted with the weights, plus the bias -/

/-- The wrapped decision column at entry `d` is the column, when that is below 100000. -/
theorem wrapped_col (dc : (⟨S512, .i32⟩ : BufTy).Contents (Elt F)) (d : Fin 512) (h : (dc (ix1 d)).toNat < 100000) :
    val_main_v78 (F := F) dc (ix2 d (0 : Fin 1)) = dc (ix1 d) := by
  have e : idx_main_v78 (ix2 d (0 : Fin 1)) = ix1 d := by
    funext a; match a with | ⟨0, _⟩ => rfl
  rw [val_main_v78_apply, e, val_main_v77_apply, val_main_v74_apply, val_main_v73_apply, val_main_c_14_apply, val_main_v76_apply,
    val_main_v75_apply, val_main_c_15_apply]
  exact wrap_id _ _ (by omega)

/-- The rows of an array gathered at the wrapped decision columns read, at entry `d` and batch `b`, the array at
    (`d`'s column, `b`): the gather's clamp into the array is the identity on a column below 100000. -/
theorem rows_read {α : Type} (h : S100000x16.Idx → α) (dc : (⟨S512, .i32⟩ : BufTy).Contents (Elt F)) (d : Fin 512) (b : Fin 16)
    (hd : (dc (ix1 d)).toNat < 100000) :
    Host.gather gather_S100000x16_S512x1_S512x16_1_0_n_n_0_1_116 h (val_main_v78 (F := F) dc) (ix2 d b)
      = h (ix2 (⟨(dc (ix1 d)).toNat, hd⟩ : Fin 100000) b) := by
  have eg : gather_S100000x16_S512x1_S512x16_1_0_n_n_0_1_116
      = Cert.Lib.rowGatherDims 100000 16 512 gather_S100000x16_S512x1_S512x16_1_0_n_n_0_1_116_wf := rfl
  rw [eg, Cert.Lib.gather_rows_apply (by decide)]
  congr 1
  funext a
  apply Fin.ext
  match a with
  | ⟨0, _⟩ =>
    show min (val_main_v78 (F := F) dc (ix2 d (0 : Fin 1))).toInt.toNat (100000 - 1) = (dc (ix1 d)).toNat
    rw [wrapped_col dc d hd, toInt_toNat_small _ (by omega)]
    omega
  | ⟨1, _⟩ => rfl

/-- The contraction's left operand at (`b`, `k`): entry `k`'s value times the hops' row at entry `k`'s column. -/
theorem lhs_read (x0 : (⟨S100000x16, .f32⟩ : BufTy).Contents (Elt Ideal)) (x1 x2 : (⟨S64, .f32⟩ : BufTy).Contents (Elt Ideal))
    (x3 : (⟨S5000000, .f32⟩ : BufTy).Contents (Elt Ideal)) (x4 : (⟨S512, .f32⟩ : BufTy).Contents (Elt Ideal))
    (x7 : (⟨S100000, .i32⟩ : BufTy).Contents (Elt Ideal)) (x8 x9 : (⟨S5000000, .i32⟩ : BufTy).Contents (Elt Ideal))
    (x10 : (⟨S512, .i32⟩ : BufTy).Contents (Elt Ideal))
    (hD : ∀ d : Fin 512, (x10 (ix1 d)).toNat < 100000) (b : Fin 16) (k : Fin 512) :
    val_main_v82 (F := Ideal) x0 x1 x2 x3 x4 x7 x8 x9 x10 (lidx_main_v84 (ix2 b (0 : Fin 1)) k)
      = x4 (ix1 k) * Spec.rowAt (val_main_v71 (F := Ideal) x0 x1 x2 x3 x7 x8 x9) (x10 (ix1 k)) b := by
  have e82 : idx_main_v82 (lidx_main_v84 (ix2 b (0 : Fin 1)) k) = ix2 k b := by
    funext a; match a with | ⟨0, _⟩ => rfl | ⟨1, _⟩ => rfl
  have e72 : idx_main_v72 (idx_main_v80 (ix2 k b)) = ix1 k := by
    funext a; match a with | ⟨0, _⟩ => rfl
  rw [val_main_v82_apply, e82, val_main_v81_apply, val_main_v80_apply, val_main_v72_apply, e72]
  unfold val_main_v79
  rw [rows_read _ x10 k b (hD k)]
  unfold Spec.rowAt
  rw [dif_pos (hD k)]
  rfl

/-- The contraction's right operand at (`k`, 0): the weight of entry `k`. -/
theorem rhs_read (x5 : (⟨S1x512, .f32⟩ : BufTy).Contents (Elt F)) (b : Fin 16) (k : Fin 512) :
    val_main_v83 (F := F) x5 (ridx_main_v84 (ix2 b (0 : Fin 1)) k) = x5 (ix2 (0 : Fin 1) k) := by
  rw [val_main_v83_apply]
  congr 1
  funext a
  apply Fin.ext
  match a with
  | ⟨0, _⟩ => rfl
  | ⟨1, _⟩ => rfl
/-- Where every type index is below 64 and every decision column below 100000, the reference's result is the
    specification's reference side over the four hops of the affine stage. -/
theorem result_eq (x0 : (⟨S100000x16, .f32⟩ : BufTy).Contents (Elt Ideal)) (x1 x2 : (⟨S64, .f32⟩ : BufTy).Contents (Elt Ideal))
    (x3 : (⟨S5000000, .f32⟩ : BufTy).Contents (Elt Ideal)) (x4 : (⟨S512, .f32⟩ : BufTy).Contents (Elt Ideal))
    (x5 : (⟨S1x512, .f32⟩ : BufTy).Contents (Elt Ideal)) (x6 : (⟨S1, .f32⟩ : BufTy).Contents (Elt Ideal))
    (x7 : (⟨S100000, .i32⟩ : BufTy).Contents (Elt Ideal)) (x8 x9 : (⟨S5000000, .i32⟩ : BufTy).Contents (Elt Ideal))
    (x10 : (⟨S512, .i32⟩ : BufTy).Contents (Elt Ideal))
    (hI : ∀ n : Fin 100000, (x7 (ix1 n)).toNat < 64) (hD : ∀ d : Fin 512, (x10 (ix1 d)).toNat < 100000) :
    val_main_v87 (F := Ideal) x0 x1 x2 x3 x4 x5 x6 x7 x8 x9 x10
      = Spec.refOut (layers4 (F := Ideal) (Spec.refAffine x0 x7 x1 x2) x3 x8 x9) x10 x4 x5 x6 := by
  rw [← affine_eq x0 x1 x2 x7 hI, ← hops_eq]
  funext j
  obtain ⟨b, z, rfl⟩ : ∃ b z, j = ix2 b z := ⟨j 0, j 1, eq_ix2 j⟩
  obtain rfl : z = 0 := Subsingleton.elim _ _
  have e6 : idx_main_v85 (idx_main_v86 (ix2 b (0 : Fin 1))) = ix1 (0 : Fin 1) := by
    funext a; match a with | ⟨0, _⟩ => rfl
  rw [val_main_v87_apply, val_main_v84_apply, val_main_v86_apply, val_main_v85_apply, e6]
  unfold Spec.refOut
  show (∑ k : Fin 512, _) + x6 (ix1 (0 : Fin 1)) = (∑ d : Fin 512, _) + x6 (ix1 (0 : Fin 1))
  congr 1
  refine Finset.sum_congr rfl fun k _ => ?_
  rw [lhs_read x0 x1 x2 x3 x4 x7 x8 x9 x10 hD b k, rhs_read x5 b k]

end Cert.ReferenceIdeal.RefValue

end
-- ==== Proof.Bridge.lean ====
/-
  The law that joins the two sides: a one-hot product selects the entry at the index.  Over the extended reals a
  product with 0 is 0 and a product with 1 is the other factor (at ±∞ too), and a finite sum all of whose terms but
  one are 0 is that term; so where the index is inside the table,  Σ_t [i = t] · tab t = tab i.  For the padded
  activations the selected row lies among the first 100000, where the padded array is the original.
-/
import proofs.«424385_j26474178412845_1_alg».proof.Proof.Spec
import Mathlib.Data.EReal.Basic
import Mathlib.Algebra.BigOperators.Group.Finset.Basic

noncomputable section

namespace Cert.Proof.Bridge

open Idealize.ShloMosaic Idealize.ShloMosaic.ValueIdx Cert.Proof.Spec

/-- A 32-bit word equals the word of a natural below 2^32 exactly when its value is that natural. -/
theorem eq_ofNat_iff (i : BitVec 32) (n : Nat) (hn : n < 2 ^ 32) : i = BitVec.ofNat 32 n ↔ i.toNat = n := by
  constructor
  · intro h
    rw [h, BitVec.toNat_ofNat, Nat.mod_eq_of_lt hn]
  · intro h
    apply BitVec.eq_of_toNat_eq
    rw [BitVec.toNat_ofNat, Nat.mod_eq_of_lt hn, h]

/-- The one-hot collapse: over the extended reals, for an index whose value is below the number of rows (itself at
    most 2^32, so that distinct rows are distinct words), Σ_t [i = t] · f t = f i: every term but the one at
    t = i is 0 · f t = 0, and that one is 1 · f i = f i. -/
theorem onehot_sum {N : Nat} (hN : N ≤ 2 ^ 32) (i : BitVec 32) (hi : i.toNat < N) (f : Fin N → EReal) :
    (∑ t : Fin N, (if i = BitVec.ofNat 32 t.val then (1 : EReal) else 0) * f t) = f ⟨i.toNat, hi⟩ := by
  rw [Finset.sum_eq_single (⟨i.toNat, hi⟩ : Fin N)]
  · rw [if_pos ((eq_ofNat_iff i i.toNat (by omega)).mpr rfl), one_mul]
  · intro t _ ht
    have hne : ¬ i = BitVec.ofNat 32 t.val := by
      intro h
      apply ht
      apply Fin.ext
      exact ((eq_ofNat_iff i t.val (by have := t.isLt; omega)).mp h).symm
    rw [if_neg hne, zero_mul]
  · intro h
    exact absurd (Finset.mem_univ _) h

/-- A one-hot product over the 64 table rows is the table read at the index, when the index is below 64. -/
theorem pick64_eq (i : BitVec 32) (hi : i.toNat < 64) (tab2 : Vec Ideal ST2 .f32) (tab : Vec Ideal ST .f32)
    (htab : ∀ t : Fin 64, tab2 (ix2 t (0 : Fin 1)) = tab (ix1 t)) : pick64 i tab2 = tabAt tab i := by
  have hs := onehot_sum (N := 64) (by norm_num) i hi (fun t => tab2 (ix2 t (0 : Fin 1)))
  rw [tabAt, dif_pos hi, ← htab]
  exact hs

/-- The two affine stages agree where every type index is below 64 (the column-shaped operands being the
    vectors reshaped). -/
theorem affine_eq (x : Vec Ideal SA .f32) (idx2 : IVec SI2 32) (idx : IVec SI 32) (tw2 tb2 : Vec Ideal ST2 .f32) (tw tb : Vec Ideal ST .f32)
    (hidx : ∀ n : Fin 100000, idx2 (ix2 n (0 : Fin 1)) = idx (ix1 n))
    (htw : ∀ t : Fin 64, tw2 (ix2 t (0 : Fin 1)) = tw (ix1 t)) (htb : ∀ t : Fin 64, tb2 (ix2 t (0 : Fin 1)) = tb (ix1 t))
    (hI : ∀ n : Fin 100000, (idx (ix1 n)).toNat < 64) :
    affine x idx2 tw2 tb2 = refAffine x idx tw tb := by
  funext j
  obtain ⟨p, q, rfl⟩ : ∃ (p : Fin 100000) (q : Fin 16), j = ix2 p q := ⟨j 0, j 1, eq_ix2 j⟩
  show x (ix2 p q) * pick64 (idx2 (ix2 p (0 : Fin 1))) tw2 + pick64 (idx2 (ix2 p (0 : Fin 1))) tb2
      = x (ix2 p q) * tabAt tw (idx (ix1 p)) + tabAt tb (idx (ix1 p))
  rw [hidx p, pick64_eq _ (hI p) tw2 tw htw, pick64_eq _ (hI p) tb2 tb htb]

/-- A one-hot product over the 100352 padded rows is the row of the unpadded array at the index, when the index is
    below 100000. -/
theorem hot_eq (h : Vec Ideal SA .f32) (hp : Vec Ideal SAp .f32)
    (hpad : ∀ (n : Fin 100352) (b : Fin 16), hp (ix2 n b) = if hn : n.val < 100000 then h (ix2 (⟨n.val, hn⟩ : Fin 100000) b) else 0)
    (dc2 : IVec SD2 32) (dc : IVec SD 32) (hdc : ∀ d : Fin 512, dc2 (ix2 d (0 : Fin 1)) = dc (ix1 d))
    (d : Fin 512) (b : Fin 16) (hD : (dc (ix1 d)).toNat < 100000) :
    hot hp dc2 d b = rowAt h (dc (ix1 d)) b := by
  have hlt : (dc (ix1 d)).toNat < 100352 := by omega
  have hs := onehot_sum (N := 100352) (by norm_num) (dc (ix1 d)) hlt (fun n => hp (ix2 n b))
  rw [rowAt, dif_pos hD]
  have hrow := hpad ⟨(dc (ix1 d)).toNat, hlt⟩ b
  rw [dif_pos (show (⟨(dc (ix1 d)).toNat, hlt⟩ : Fin 100352).val < 100000 from hD)] at hrow
  rw [← hrow, hot, hdc d]
  exact hs

/-- The two final stages agree where every decision column is below 100000. -/
theorem fcOut_eq (h : Vec Ideal SA .f32) (hp : Vec Ideal SAp .f32)
    (hpad : ∀ (n : Fin 100352) (b : Fin 16), hp (ix2 n b) = if hn : n.val < 100000 then h (ix2 (⟨n.val, hn⟩ : Fin 100000) b) else 0)
    (dc2 : IVec SD2 32) (dc : IVec SD 32) (hdc : ∀ d : Fin 512, dc2 (ix2 d (0 : Fin 1)) = dc (ix1 d))
    (dv2 : Vec Ideal SD2 .f32) (dv : Vec Ideal SD .f32) (hdv : ∀ d : Fin 512, dv2 (ix2 d (0 : Fin 1)) = dv (ix1 d))
    (fw : Vec Ideal SW .f32) (fb2 : Vec Ideal SB2 .f32) (fb : Vec Ideal SB .f32) (hfb : fb2 (ix2 (0 : Fin 1) (0 : Fin 1)) = fb (ix1 (0 : Fin 1)))
    (hD : ∀ d : Fin 512, (dc (ix1 d)).toNat < 100000) :
    fcOut hp dc2 dv2 fw fb2 = refOut h dc dv fw fb := by
  funext j
  obtain ⟨p, q, rfl⟩ : ∃ (p : Fin 16) (q : Fin 1), j = ix2 p q := ⟨j 0, j 1, eq_ix2 j⟩
  show (∑ d : Fin 512, fw (ix2 (0 : Fin 1) d) * (hot hp dc2 d p * dv2 (ix2 d (0 : Fin 1)))) + fb2 (ix2 (0 : Fin 1) (0 : Fin 1))
      = (∑ d : Fin 512, (dv (ix1 d) * rowAt h (dc (ix1 d)) p) * fw (ix2 (0 : Fin 1) d)) + fb (ix1 (0 : Fin 1))
  rw [hfb]
  congr 1
  apply Finset.sum_congr rfl
  intro d _
  rw [hot_eq h hp hpad dc2 dc hdc d p (hD d), hdv d, mul_comm (rowAt h (dc (ix1 d)) p) (dv (ix1 d)),
    mul_comm (fw (ix2 (0 : Fin 1) d))]

end Cert.Proof.Bridge

end
-- ==== Proof.PreRange.lean ====
/-
  What the precondition says about the two index inputs: every type index lies in [0, 64) and every decision column
  in [0, 100000), read off the printed predicate (a conjunction of all-reductions; the four last conjuncts are the
  signed comparisons of the index arrays with 0, 64, 0 and 100000).  A signed value that is non-negative and below
  the bound has that value as its unsigned reading too.
-/
import proofs.«424385_j26474178412845_1_alg».proof.Pre_finite_inputs
import proofs.«424385_j26474178412845_1_alg».proof.Proof.Gen.Pre_finite_inputs
import Idealize.ShloMosaic.Lib.ValueIdx
import Idealize.ShloMosaic.Lib.ReduceAll
import Idealize.ShloMosaic.Lib.StableHlo.Predicate

noncomputable section

namespace Cert.Proof.PreRange

open Idealize.ShloMosaic Idealize.ShloMosaic.ValueIdx Cert.Pre_finite_inputs

attribute [local instance] Cert.Pre_finite_inputs.Gen.facts

/-- The scalar shape has a single index. -/
instance subsingleton_S_ : Subsingleton S_.Idx := ⟨fun a b => funext fun d => d.elim0⟩

/-- A 32-bit word that compares signed-at-least 0 and signed-below a bound k < 2^31 has unsigned value below k:
    a non-negative signed reading has the top bit clear, so the signed and the unsigned readings coincide. -/
theorem toNat_lt_of_signed (x : BitVec 32) (k : Nat) (hk : k < 2 ^ 31)
    (h0 : IntOp.cmpi .sge x 0#32 = 1#1) (h1 : IntOp.cmpi .slt x (BitVec.ofNat 32 k) = 1#1) : x.toNat < k := by
  rw [IntOp.cmpi_sge] at h0
  rw [IntOp.cmpi_slt, StableHlo.Predicate.toInt_ofNat_small k hk] at h1
  have hz : (0#32 : BitVec 32).toInt = 0 := by decide
  rw [hz] at h0
  have hx := BitVec.toInt_eq_toNat_cond x
  have hlt := x.isLt
  by_cases hc : 2 * x.toNat < 2 ^ 32
  · rw [if_pos hc] at hx
    omega
  · rw [if_neg hc] at hx
    omega

/-- The last part of the printed predicate: if it is 1 then each of its four all-reductions is 1, hence each of the
    four comparisons holds at every index (the compared constant being the scalar broadcast everywhere). -/
theorem part2_reads (a7 : IVec S100000 32) (a10 : IVec S512 32) (v33 : IVec S_ 1)
    (h : fn_part2 (F := Ideal) a7 a10 v33 ix0 = 1#1) :
    (∀ i : S100000.Idx, IntOp.cmpi .sge (a7 i) 0#32 = 1#1) ∧ (∀ i : S100000.Idx, IntOp.cmpi .slt (a7 i) 64#32 = 1#1)
      ∧ (∀ i : S512.Idx, IntOp.cmpi .sge (a10 i) 0#32 = 1#1) ∧ (∀ i : S512.Idx, IntOp.cmpi .slt (a10 i) 100000#32 = 1#1) := by
  dsimp only [fn_part2] at h
  obtain ⟨h123, h4⟩ := IntOp.andi_eq_one.1 h
  obtain ⟨h12, h3⟩ := IntOp.andi_eq_one.1 h123
  obtain ⟨h1, h2⟩ := IntOp.andi_eq_one.1 h12
  obtain ⟨_, h1'⟩ := IntOp.andi_eq_one.1 h1
  exact ⟨fun i => Host.reduce_andi_all _ _ _ _ _ h1' i, fun i => Host.reduce_andi_all _ _ _ _ _ h2 i,
    fun i => Host.reduce_andi_all _ _ _ _ _ h3 i, fun i => Host.reduce_andi_all _ _ _ _ _ h4 i⟩

/-- Under the precondition every type index is below 64 and every decision column below 100000 (as unsigned
    readings, which is what an index into a table is). -/
theorem ranges
    (a0 : (⟨S100000x16, .f32⟩ : BufTy).Contents (Elt Ideal)) (a1 a2 : (⟨S64, .f32⟩ : BufTy).Contents (Elt Ideal))
    (a3 : (⟨S5000000, .f32⟩ : BufTy).Contents (Elt Ideal)) (a4 : (⟨S512, .f32⟩ : BufTy).Contents (Elt Ideal))
    (a5 : (⟨S1x512, .f32⟩ : BufTy).Contents (Elt Ideal)) (a6 : (⟨S1, .f32⟩ : BufTy).Contents (Elt Ideal))
    (a7 : (⟨S100000, .i32⟩ : BufTy).Contents (Elt Ideal)) (a8 a9 : (⟨S5000000, .i32⟩ : BufTy).Contents (Elt Ideal))
    (a10 : (⟨S512, .i32⟩ : BufTy).Contents (Elt Ideal))
    (h : Cert.Pre_finite_inputs.fn (F := Ideal) a0 a1 a2 a3 a4 a5 a6 a7 a8 a9 a10 = (fun _ => 1#1)) :
    (∀ n : Fin 100000, (a7 (ix1 n)).toNat < 64) ∧ (∀ d : Fin 512, (a10 (ix1 d)).toNat < 100000) := by
  have h0 : fn_part2 (F := Ideal) a7 a10 _ ix0 = 1#1 := congrFun h ix0
  obtain ⟨g1, g2, g3, g4⟩ := part2_reads a7 a10 _ h0
  exact ⟨fun n => toNat_lt_of_signed _ 64 (by norm_num) (g1 (ix1 n)) (g2 (ix1 n)),
    fun d => toNat_lt_of_signed _ 100000 (by norm_num) (g3 (ix1 d)) (g4 (ix1 d))⟩

end Cert.Proof.PreRange

end
-- ==== Proof.Algebraic.lean ====
/-
  The equivalence over the extended reals.  The kernel program's result array is what its second pallas_call writes
  back: the final stage (one-hot selected decision rows, scaled, contracted with the weights, plus the bias) of the
  padded four hops of the first call's result, which is the affine stage with one-hot selected scale and bias.  The
  reference's result is the same three stages with every selection a read at the index.  Under the precondition every
  type index is below 64 and every decision column below 100000, where a one-hot product is the entry read; the four
  hops are the same function on both sides, applied to equal arrays.
-/
import proofs.«424385_j26474178412845_1_alg».proof.Defs
import proofs.«424385_j26474178412845_1_alg».proof.Proof.KI.MainRun
import proofs.«424385_j26474178412845_1_alg».proof.Proof.KI.Chain
import proofs.«424385_j26474178412845_1_alg».proof.Proof.KI.Value0
import proofs.«424385_j26474178412845_1_alg».proof.Proof.KI.Value1
import proofs.«424385_j26474178412845_1_alg».proof.Proof.RefFrame
import proofs.«424385_j26474178412845_1_alg».proof.Proof.RefValue
import proofs.«424385_j26474178412845_1_alg».proof.Proof.Bridge
import proofs.«424385_j26474178412845_1_alg».proof.Proof.PreRange
import proofs.«424385_j26474178412845_1_alg».proof.Proof.Gen.KernelIdeal
import proofs.«424385_j26474178412845_1_alg».proof.Proof.Gen.ReferenceIdeal
import proofs.«424385_j26474178412845_1_alg».proof.Proof.Gen.Pre_finite_inputs

noncomputable section

namespace Cert.Proof.Alg

open Idealize.ShloMosaic Idealize.ShloMosaic.TcCoe Idealize.ShloMosaic.ValueIdx Idealize.SL.Sem
open Cert.KernelIdeal Cert.KernelIdeal.Hand

/-- The four hops are one function on both sides: the two programs print the same operations over the same shapes. -/
theorem hops_same (h : (⟨S100000x16, .f32⟩ : BufTy).Contents (Elt Ideal)) (w : (⟨S5000000, .f32⟩ : BufTy).Contents (Elt Ideal))
    (rows cols : (⟨S5000000, .i32⟩ : BufTy).Contents (Elt Ideal)) :
    Cert.KernelIdeal.Hand.layers4 (F := Ideal) h w rows cols = Cert.ReferenceIdeal.RefValue.layers4 (F := Ideal) h w rows cols := rfl

variable (m : (ℓ : Loc nD τ sig) → Buf (Elt Ideal) ℓ) (ρ : Dev nD → PrngReg)

/-- The first call's result is the reference's affine stage, where every type index is below 64. -/
theorem stage0 (c : Dev nD)
    (hI : ∀ n : Fin 100000, ((m ((c : Thread nD τ).loc main_arg7) : Vec Ideal S100000 .i32) (ix1 n)).toNat < 64) :
    (V2 m ρ c main_v3 : Vec Ideal S100000x16 .f32)
      = Spec.refAffine (m ((c : Thread nD τ).loc main_arg0)) (m ((c : Thread nD τ).loc main_arg7))
          (m ((c : Thread nD τ).loc main_arg1)) (m ((c : Thread nD τ).loc main_arg2)) := by
  have h1 : (V2 m ρ c main_v3 : Vec Ideal S100000x16 .f32) = (dat0 (F := Ideal) (V1 m ρ) c).arrAt 4 cfg0.N := (hF0 m ρ c 4).symm
  rw [h1, arr0_eq (V1 m ρ) c, V1_arg0 m ρ c]
  exact Bridge.affine_eq _ _ _ _ _ _ _ (V1_v0_apply m ρ c) (V1_v1_apply m ρ c) (V1_v2_apply m ρ c) hI

/-- The kernel program's result is the reference's function of the launch arguments, under the two ranges. -/
theorem kernel_value (c : Dev nD)
    (hI : ∀ n : Fin 100000, ((m ((c : Thread nD τ).loc main_arg7) : Vec Ideal S100000 .i32) (ix1 n)).toNat < 64)
    (hD : ∀ d : Fin 512, ((m ((c : Thread nD τ).loc main_arg10) : Vec Ideal S512 .i32) (ix1 d)).toNat < 100000) :
    ((dat1 (F := Ideal) (V6 m ρ) c).arrAt 5 cfg1.N : Vec Ideal S16x1 .f32)
      = Spec.refOut
          (Cert.ReferenceIdeal.RefValue.layers4 (F := Ideal)
            (Spec.refAffine (m ((c : Thread nD τ).loc main_arg0)) (m ((c : Thread nD τ).loc main_arg7))
              (m ((c : Thread nD τ).loc main_arg1)) (m ((c : Thread nD τ).loc main_arg2)))
            (m ((c : Thread nD τ).loc main_arg3)) (m ((c : Thread nD τ).loc main_arg8)) (m ((c : Thread nD τ).loc main_arg9)))
          (m ((c : Thread nD τ).loc main_arg10)) (m ((c : Thread nD τ).loc main_arg4)) (m ((c : Thread nD τ).loc main_arg5))
          (m ((c : Thread nD τ).loc main_arg6)) := by
  rw [arr1_eq (V6 m ρ) c, V6_arg5 m ρ c, ← hops_same, ← stage0 m ρ c hI]
  exact Bridge.fcOut_eq _ _ (V6_v56_apply m ρ c) _ _ (V6_v57_apply m ρ c) _ _ (V6_v58_apply m ρ c) _ _ _ (V6_v59_apply m ρ c) hD

/-- The algebraic conjunct: both programs run, the arguments end unchanged on both sides, and the two results are
    the same array of extended reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (dat1 (F := Ideal) (V6 m ρ) c).arrAt 5 cfg1.N, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hI, hD⟩ := PreRange.ranges _ _ _ _ _ _ _ _ _ _ _ (hpre c)
  obtain ⟨e0, e1, e2, e3, e4, e5, e6, e7, e8, e9, e10⟩ := hagree c
  rw [Cert.ReferenceIdeal.Read.val_main_v87_eq m' c, e0, e1, e2, e3, e4, e5, e6, e7, e8, e9, e10,
    Cert.ReferenceIdeal.RefValue.result_eq _ _ _ _ _ _ _ _ _ _ _ hI hD]
  exact (kernel_value m ρ c hI hD).symm

end Cert.Proof.Alg

end
-- ==== Proof.lean ====
/-
  The certificate of the retina-connectome kernel against its jnp reference.

  The program is three stages.  (1) A per-neuron affine map, x(n,b) · w[type(n)] + β[type(n)]: the kernel selects the
  scale and the bias by a one-hot product with the 64-row tables inside a pallas_call over 50 row blocks; the
  reference reads the tables at the index.  (2) Four hops of a sparse product given by five million weighted edges:
  gather the edge's source row, scale, sum into the edge's target row — the same host operations in both programs.
  (3) The 512 decision rows selected from the activations, scaled, contracted with a weight row, plus a bias: the
  kernel pads the activations to 49 blocks of 2048 rows and accumulates one-hot products over the blocks in a scratch
  buffer it carries between grid points, then applies the last linear map at the final point; the reference reads the
  rows at their columns and takes one product.

  The claim holds where every type index lies in [0, 64) and every decision column in [0, 100000) — outside those
  ranges the reference itself indexes out of range — and there a one-hot product is the entry read; this is stated in
  the precondition.  Frames: each program terminates on every weakly fair execution, faults nowhere and leaves its
  arguments unchanged — the two kernel programs by running @main item by item (host stretches, each pallas_call through
  its own body's run at every grid point), the reference as a composition of total host operations.  The ideal pass
  rewrote nothing, so the idealized kernel is the kernel's own text read over the extended reals.
-/
import proofs.«424385_j26474178412845_1_alg».proof.Defs
import proofs.«424385_j26474178412845_1_alg».proof.Proof.Gen.Kernel
import proofs.«424385_j26474178412845_1_alg».proof.Proof.Gen.KernelIdeal
import proofs.«424385_j26474178412845_1_alg».proof.Proof.Gen.ReferenceIdeal
import proofs.«424385_j26474178412845_1_alg».proof.Proof.Gen.Pre_finite_inputs
import proofs.«424385_j26474178412845_1_alg».proof.Proof.K.MainRun
import proofs.«424385_j26474178412845_1_alg».proof.Proof.KI.MainRun
import proofs.«424385_j26474178412845_1_alg».proof.Proof.RefFrame
import proofs.«424385_j26474178412845_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.Proof.RefFrame.frame_ri,
    trivial,
    Cert.Proof.Alg.algebraic⟩

end Cert.Proof

end
